-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg6 : FVec F S256 .f32) (main_arg7 : FVec F S_ .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x256 .f32) (main_arg6 : FVec F S256 .f32) (main_arg7 : FVec F S_ .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S1x1 : Shape := ⟨2, ![1, 1]⟩
abbrev S2000x256 : Shape := ⟨2, ![2000, 256]⟩
abbrev S2000x1 : Shape := ⟨2, ![2000, 1]⟩
abbrev S1x512 : Shape := ⟨2, ![1, 512]⟩

abbrev nBuf : Space → Nat
  | .hbm => 81
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x256, .f32⟩
  | .hbm, ⟨58, _⟩ => ⟨S1x1, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S1x256, .f32⟩
  | .hbm, ⟨77, _⟩ => ⟨S1x1, .f32⟩
  | .hbm, ⟨78, _⟩ => ⟨S50000x256, .f32⟩
  | .hbm, ⟨79, _⟩ => ⟨S1x256, .f32⟩
  | .hbm, ⟨80, _⟩ => ⟨S1x512, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S1x256, .f32⟩
  | .local _ .vmem, ⟨6, _⟩ => ⟨S1x1, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S256x256, .f32⟩
  | .local _ .vmem, ⟨16, _⟩ => ⟨S1x256, .f32⟩
  | .local _ .vmem, ⟨17, _⟩ => ⟨S1x1, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54_0 : Ref sig .tc := ⟨.hbm, 78, rfl⟩
abbrev main_v54_1 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S256_S1x256 : S256.ShapeCasts S1x256
  shapeCasts_S_S1x1 : S_.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S2000x256 : S1x256.Broadcasts S2000x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S2000x256_S256 : S2000x256.Reduces [0] S256
  concatenates_S1x256_S1x256_S1x512_d1 : Shape.Concatenates [S1x256, S1x256] S1x512 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v36) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39_1) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v54_1) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .i1⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x256, .f32⟩
  | .hbm, ⟨83, _⟩ => ⟨S_, .f32⟩
  | .hbm, ⟨84, _⟩ => ⟨S50000x256, .f32⟩
  | .hbm, ⟨85, _⟩ => ⟨S800000x1, .i32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000x256, .f32⟩
  | .hbm, ⟨95, _⟩ => ⟨S50000x256, .i1⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S256, .f32⟩
  | .hbm, ⟨101, _⟩ => ⟨S1x256, .f32⟩
  | .hbm, ⟨102, _⟩ => ⟨S1x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  concatenates_S1x256_S1x256_S1x512_d1 : Shape.Concatenates [S1x256, S1x256] S1x512 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KI.Cases0.lean ====
/- One grid point of the first graph-convolution epilogue, case by case. The body scales a tile of aggregated
   rows by the in-degree factor, multiplies by the weight matrix, adds the bias, applies the leaky
   rectifier with the learnt slope, stores the tile, and adds the tile's column sums to a running
   row kept in a scratch buffer: the running row is reset at the first point and copied to the second
   output at the last one. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The body's first branch (reset of the running row): taken at the first point only. -/
abbrev cFirst (i : grid0.Coords) : Prop :=
  Scalar.cmpi .ne (Scalar.extui (Scalar.cmpi .eq (BitVec.ofNat 32 (i 0).val) 0#32)) 0#32 = 1#1
/-- The body's second branch (the running row copied out): taken at the last point only. -/
abbrev cLast (i : grid0.Coords) : Prop := k0_cond2 i = 1#1

theorem cFirst_iff : ∀ t : Fin cfg0.N, cFirst (grid0.coords t) ↔ t.val = 0 :=
  (by decide +kernel : ∀ t : Fin grid0.N, cFirst (grid0.coords t) ↔ t.val = 0)
theorem cLast_iff : ∀ t : Fin cfg0.N, cLast (grid0.coords t) ↔ t.val = 24 :=
  (by decide +kernel : ∀ t : Fin grid0.N, cLast (grid0.coords t) ↔ t.val = 24)

/-! ## Where the windows are idle, and when the row of sums is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last point nothing is stored into the row of sums' buffer, -/
theorem idle6 : ∀ t : Fin cfg0.N, ¬cLast (grid0.coords t) → cfg0.idle 6 (grid0.coords t) = true := by decide +kernel
/-- and it is not written back there; -/
theorem noFlush6 : ∀ t : Fin cfg0.N, ¬cLast (grid0.coords t) → (cfg0.win 6).flush t = false := by decide +kernel
/-- at the last point it is stored. -/
theorem live6 : ∀ t : Fin cfg0.N, cLast (grid0.coords t) → cfg0.idle 6 (grid0.coords t) = false := by decide +kernel

/-! ## The scratch row and what else the region's invariant carries -/

/-- The scratch buffer holding the running row of column sums. -/
abbrev scr : Memref sig .tc .vmem S1x256 .f32 := Memref.whole cc0_scratch0

/-- Everything the body never touches: the other scoped buffers (each at some contents) and the generator register. -/
def restI (c : Dev nD) : sProp 𝕄 :=
  iprop(Pipeline.scopedRestBut (Ix := Unit) (Name := ℕ) (U := UR sig nD τ) (Lvl := ℕ) (Val := Elt F) spec0 c [cc0_scratch0]
    ∗ ∃ r, prngReg c r)

/-- The class invariant, with the scratch row split off. -/
theorem PhiA_eq (c : Dev nD) :
    (Pipeline.ΦA spec0 c : sProp 𝕄) = iprop((∃ d, owns (c : Thread nD τ) scr fullShare d) ∗ restI c) := by
  unfold Pipeline.ΦA restI
  rw [Pipeline.scopedRest_split_of_list spec0 c [cc0_scratch0] (by decide) (by decide)]
  simp only [scr, owns_whole, bigSepL_singleton]
  exact BI.equiv_iff.mp ⟨sep_assoc, sep_assoc'⟩

/-! ## Whole-buffer loads and stores -/

/-- The zero offsets of a rank-2 access, however spelt. -/
theorem zero2 : (![0, 0] : Fin 2 → ℕ) = fun _ => 0 := by funext a; fin_cases a <;> rfl

/-- A load of the whole shape at zero offsets, through a whole memref held at the contents that read `X`, reads `X`. -/
theorem load_whole_unread {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- A store of the whole shape at zero offsets, made last, is what the view reads back, whatever the earlier stores and the
    contents before them were. -/
theorem read_store_whole {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

/-! ## The body, case by case, on any whole buffers -/

set_option maxHeartbeats 4000000 in
/-- At the first point: the scratch row is reset to zero, so it ends at the tile's column sums over the zero row; the second output's buffer is not touched. -/
theorem body_first (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare y6 ∗ owns (c : Thread nD τ) a8 fullShare (k0_pay3 x0 x1 x2 x3 x4 (k0_pay1 (F := F)))) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
      load_whole_unread h4 x3 zero2, load_whole_unread h5 x4 zero2]
  sl_unfold_run_names
  rw [View.readCov_cons_toLoadRect]

set_option maxHeartbeats 4000000 in
/-- At a middle point: the scratch row found at `xs` ends with the tile's column sums added; the second output's buffer is not touched. -/
theorem body_mid (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare y6 ∗ owns (c : Thread nD τ) a8 fullShare (k0_pay3 x0 x1 x2 x3 x4 xs)) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
    load_whole_unread h4 x3 zero2, load_whole_unread h5 x4 zero2, load_whole_unread h8 xs zero2]

set_option maxHeartbeats 4000000 in
/-- At the last point: as at a middle point, and the finished row is also stored into the second output's buffer. -/
theorem body_last (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : cLast i) (x0 : Vec F S2000x256 .f32) (x1 : Vec F S2000x1 .f32) (x2 : Vec F S256x256 .f32) (x3 : Vec F S1x256 .f32) (x4 : Vec F S1x1 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare (k0_pay3 x0 x1 x2 x3 x4 xs) ∗ owns (c : Thread nD τ) a8 fullShare (k0_pay3 x0 x1 x2 x3 x4 xs)) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; swap; · iexact H7
    ipureintro
    rw [read_store_whole _ _ zero2]
    sl_unfold_run_names
    rw [View.readCov_cons_toLoadRect, load_whole_unread h1 x0 zero2, load_whole_unread h2 x1 zero2, load_whole_unread h3 x2 zero2,
      load_whole_unread h4 x3 zero2, load_whole_unread h5 x4 zero2, load_whole_unread h8 xs zero2]
  iexists _; isplitr; swap; · iexact H8
  ipureintro
  sl_unfold_run_names
  rw [read_store_whole _ _ zero2, load_whole_unread h1 x0 zero2, load_whole_unread h2 x1 zero2, load_whole_unread h3 x2 zero2,
      load_whole_unread h4 x3 zero2, load_whole_unread h5 x4 zero2, load_whole_unread h8 xs zero2]

end Cert.KernelIdeal.Reg0

end
-- ==== Proof.KI.Data0.lean ====
/- The first graph-convolution epilogue as a pipeline: what each window's buffer holds after the body at each grid
   point, the running row of column sums carried in the scratch buffer from point to point, and the body's obligation
   to the pipeline at every point. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import proofs.«120135_j66941360276307_1_alg».proof.Proof.KI.Cases0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of aggregated rows, of in-degree factors, the weight matrix, the bias row and the slope, at point `t`. -/
abbrev bx (c : Dev nD) (t : Fin cfg0.N) : Vec F S2000x256 .f32 := iblk V c 0 t
abbrev bn (c : Dev nD) (t : Fin cfg0.N) : Vec F S2000x1 .f32 := iblk V c 1 t
abbrev bw (c : Dev nD) (t : Fin cfg0.N) : Vec F S256x256 .f32 := iblk V c 2 t
abbrev bb (c : Dev nD) (t : Fin cfg0.N) : Vec F S1x256 .f32 := iblk V c 3 t
abbrev ba (c : Dev nD) (t : Fin cfg0.N) : Vec F S1x1 .f32 := iblk V c 4 t

/-- The output tile the body stores at point `t`. -/
def hblk (c : Dev nD) (t : Fin cfg0.N) : Vec F S2000x256 .f32 :=
  k0_pay2 (bx V c t) (bn V c t) (bw V c t) (bb V c t) (ba V c t)

/-- The running row of column sums as point `n` leaves it in the scratch buffer: the zero row plus the sums of
    tile 0 at the first point, the previous row plus the sums of tile `n` afterwards. -/
def acc (c : Dev nD) : (n : ℕ) → n < cfg0.N → Vec F S1x256 .f32
  | 0, h => k0_pay3 (bx V c ⟨0, h⟩) (bn V c ⟨0, h⟩) (bw V c ⟨0, h⟩) (bb V c ⟨0, h⟩) (ba V c ⟨0, h⟩) (k0_pay1 (F := F))
  | n + 1, h => k0_pay3 (bx V c ⟨n + 1, h⟩) (bn V c ⟨n + 1, h⟩) (bw V c ⟨n + 1, h⟩) (bb V c ⟨n + 1, h⟩) (ba V c ⟨n + 1, h⟩)
      (acc c n (Nat.lt_of_succ_lt h))

theorem acc_zero (c : Dev nD) (h : 0 < cfg0.N) :
    acc V c 0 h = k0_pay3 (bx V c ⟨0, h⟩) (bn V c ⟨0, h⟩) (bw V c ⟨0, h⟩) (bb V c ⟨0, h⟩) (ba V c ⟨0, h⟩) (k0_pay1 (F := F)) := rfl
theorem acc_succ (c : Dev nD) (n : ℕ) (h : n + 1 < cfg0.N) :
    acc V c (n + 1) h = k0_pay3 (bx V c ⟨n + 1, h⟩) (bn V c ⟨n + 1, h⟩) (bw V c ⟨n + 1, h⟩) (bb V c ⟨n + 1, h⟩) (ba V c ⟨n + 1, h⟩)
      (acc V c n (Nat.lt_of_succ_lt h)) := rfl

/-! ## The region's invariant and proof data -/

/-- Before point `n`: at the start the class invariant (the scratch row at anything); afterwards the scratch row at
    what the point before left, beside everything the body never touches. -/
def PhiS (c : Dev nD) : (n : ℕ) → n ≤ cfg0.N → sProp 𝕄
  | 0, _ => Pipeline.ΦA spec0 c
  | n + 1, hn => iprop(owns (c : Thread nD τ) scr fullShare (acc V c n hn) ∗ restI c)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scr fullShare (acc V c n hn) ∗ restI c) := rfl
theorem PhiS_pos (c : Dev nD) (n : ℕ) (h : n ≤ cfg0.N) (hz : n ≠ 0) :
    PhiS V c n h = iprop(owns (c : Thread nD τ) scr fullShare (acc V c (n - 1) (by omega)) ∗ restI c) := by
  cases n with
  | zero => exact absurd rfl hz
  | succ n => rfl

/-- The proof data of the region on core `c`: the arrays as the region finds them; after the body at point `t` each
    input's buffer at its block, the first output's at the stored tile, the second output's at the running row (read only
    at the last point, where the body stores it); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hblk V c t
    | ⟨6, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = hblk V c t := by dsimp only [dat]
theorem after_6 (c : Dev nD) (t : Fin cfg0.N) : (dat V c).after 6 t = acc V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body at one point, over any contents -/

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- The running row at the first point. -/
theorem acc_first (c : Dev nD) (t : Fin cfg0.N) (h : t.val = 0) :
    acc V c t.val t.isLt = k0_pay3 (bx V c t) (bn V c t) (bw V c t) (bb V c t) (ba V c t) (k0_pay1 (F := F)) := by
  obtain ⟨n, hn⟩ := t
  cases n with
  | zero => rfl
  | succ n => exact absurd h (Nat.succ_ne_zero n)

/-- The running row at a later point: the tile's column sums added to the row the point before left. -/
theorem acc_pos (c : Dev nD) (t : Fin cfg0.N) (h : t.val ≠ 0) :
    acc V c t.val t.isLt = k0_pay3 (bx V c t) (bn V c t) (bw V c t) (bb V c t) (ba V c t)
      (acc V c (t.val - 1) (Nat.lt_of_le_of_lt (Nat.sub_le _ _) t.isLt)) := by
  obtain ⟨n, hn⟩ := t
  cases n with
  | zero => exact absurd rfl h
  | succ n => rfl

/-- The first point, on the pipeline's current buffers at any contents: the scratch row found at anything is left
    at the tile's column sums over the zero row, the first output's buffer at the stored tile, and the second
    output's buffer as found. -/
theorem point_first {D0 D1 D2 D3 D4 D5 D6 : Type} (c : Dev nD) (t : Fin cfg0.N)
    (hf : cFirst (grid0.coords t)) (hl : ¬cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (O R : sProp 𝕄) :
    iprop(((∃ d, owns (c : Thread nD τ) scr fullShare d) ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 (k0_pay1 (F := F))) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ (∃ d, owns (c : Thread nD τ) (st0_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_first c Set.univ (grid0.coords t) (st0_0 t) _ (st0_1 t) _ (st0_2 t) _ (st0_3 t) _ (st0_4 t) _ (st0_5 t) _ (st0_6 t) _ scr (Memref.isWhole_whole _) hf hl x0 x1 x2 x3 x4 (Y6 d6) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- A middle point: the scratch row found at `xs` is left with the tile's column sums added, the first output's
    buffer at the stored tile, and the second output's buffer as found. -/
theorem point_mid {D0 D1 D2 D3 D4 D5 D6 : Type} (c : Dev nD) (t : Fin cfg0.N)
    (hf : ¬cFirst (grid0.coords t)) (hl : ¬cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 xs) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ (∃ d, owns (c : Thread nD τ) (st0_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_mid c Set.univ (grid0.coords t) (st0_0 t) _ (st0_1 t) _ (st0_2 t) _ (st0_3 t) _ (st0_4 t) _ (st0_5 t) _ (st0_6 t) _ scr (Memref.isWhole_whole _) hf hl x0 x1 x2 x3 x4 (Y6 d6) xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- The last point: as at a middle point, and the second output's buffer, found at anything, is left at the finished row. -/
theorem point_last {D0 D1 D2 D3 D4 D5 D6 : Type} (c : Dev nD) (t : Fin cfg0.N)
    (hf : ¬cFirst (grid0.coords t)) (hl : cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 xs) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ owns (c : Thread nD τ) (st0_6 t) fullShare (k0_pay3 x0 x1 x2 x3 x4 xs))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_last c Set.univ (grid0.coords t) (st0_0 t) _ (st0_1 t) _ (st0_2 t) _ (st0_3 t) _ (st0_4 t) _ (st0_5 t) _ (st0_6 t) _ scr (Memref.isWhole_whole _) hf hl x0 x1 x2 x3 x4 xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- What the body is called with at point `t`: the invariant, what the core owes, and the windows' current buffers one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
/-- The body at any point. The inputs' buffers hold their blocks; the point's position decides which run applies:
    at the first point the invariant hands over the scratch row at anything, afterwards at the row the point before
    left; the scratch row is taken back at this point's row; the second output's buffer is handed back as found
    away from the last point and holds the finished row there; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [live0 t], after_0]
  rw [show (dat V c).leavesExact 1 t = owns (c : Thread nD τ) (st0_1 t) fullShare ((dat V c).after 1 t) from by
    unfold Dat.leavesExact; rw [live1 t], after_1]
  rw [show (dat V c).leavesExact 2 t = owns (c : Thread nD τ) (st0_2 t) fullShare ((dat V c).after 2 t) from by
    unfold Dat.leavesExact; rw [live2 t], after_2]
  rw [show (dat V c).leavesExact 3 t = owns (c : Thread nD τ) (st0_3 t) fullShare ((dat V c).after 3 t) from by
    unfold Dat.leavesExact; rw [live3 t], after_3]
  rw [show (dat V c).leavesExact 4 t = owns (c : Thread nD τ) (st0_4 t) fullShare ((dat V c).after 4 t) from by
    unfold Dat.leavesExact; rw [live4 t], after_4]
  rw [show (dat V c).leavesExact 5 t = owns (c : Thread nD τ) (st0_5 t) fullShare ((dat V c).after 5 t) from by
    unfold Dat.leavesExact; rw [live5 t], after_5]
  unfold hblk
  have hN : t.val < 25 := lt_of_lt_of_eq t.isLt (show cfg0.N = 25 from N_0)
  by_cases hz : t.val = 0
  · have hf : cFirst (grid0.coords t) := (cFirst_iff t).mpr hz
    have hl : ¬cLast (grid0.coords t) := fun h => by have := (cLast_iff t).mp h; omega
    rw [Dat.leavesExact_idle (dat V c) 6 t (idle6 t hl) (noFlush6 t hl)]
    rw [PhiS_castSucc, PhiS_zero V c _ _ hz, PhiA_eq, acc_first V c t hz]
    exact point_first c t hf hl (bx V c t) (bn V c t) (bw V c t) (bb V c t) (ba V c t) _ _ _ _
  · have hf : ¬cFirst (grid0.coords t) := fun h => hz ((cFirst_iff t).mp h)
    rw [PhiS_castSucc, PhiS_pos V c _ _ hz, acc_pos V c t hz]
    by_cases hz' : t.val = 24
    · have hl : cLast (grid0.coords t) := (cLast_iff t).mpr hz'
      rw [show (dat V c).leavesExact 6 t = owns (c : Thread nD τ) (st0_6 t) fullShare ((dat V c).after 6 t) from by
        unfold Dat.leavesExact; rw [live6 t hl], after_6, acc_pos V c t hz]
      exact point_last c t hf hl (bx V c t) (bn V c t) (bw V c t) (bb V c t) (ba V c t) _ _ _ _ _
    · have hl : ¬cLast (grid0.coords t) := fun h => hz' ((cLast_iff t).mp h)
      rw [Dat.leavesExact_idle (dat V c) 6 t (idle6 t hl) (noFlush6 t hl)]
      exact point_mid c t hf hl (bx V c t) (bn V c t) (bw V c t) (bb V c t) (ba V c t) _ _ _ _ _

/-- The library's body obligation, at every point: the case the point is in decides which of the three runs applies. -/
theorem body_obligation (c : Dev nD) :
    BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]

/-- After any point but the first the invariant gives the class invariant back: the scratch row's contents are forgotten. -/
theorem Phi_out (c : Dev nD) (t : Fin (cfg0.N + 1)) (ht : t.val ≠ 0) :
    (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨HS, HR⟩
  isplitl [HS]
  · iexists _; iexact HS
  iexact HR

/-- After the last point the invariant gives the class invariant back: the scratch row's contents are forgotten. -/
theorem hout (c : Dev nD) : (dat V c).Φ (Fin.last cfg0.N) ⊢ (Pipeline.ΦA spec0 c : sProp 𝕄) :=
  Phi_out V c _ (by rw [Fin.val_last]; have : cfg0.N = 25 := N_0; omega)

end Cert.KernelIdeal.Reg0

end
-- ==== Proof.KI.Cases1.lean ====
/- One grid point of the second graph-convolution epilogue, case by case. The body scales a tile of aggregated
   rows by the in-degree factor, multiplies by the weight matrix, adds the bias, applies the leaky
   rectifier with the learnt slope, stores the tile, and adds the tile's column sums to a running
   row kept in a scratch buffer: the running row is reset at the first point and copied to the second
   output at the last one. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The body's first branch (reset of the running row): taken at the first point only. -/
abbrev cFirst (i : grid1.Coords) : Prop :=
  Scalar.cmpi .ne (Scalar.extui (Scalar.cmpi .eq (BitVec.ofNat 32 (i 0).val) 0#32)) 0#32 = 1#1
/-- The body's second branch (the running row copied out): taken at the last point only. -/
abbrev cLast (i : grid1.Coords) : Prop := k1_cond2 i = 1#1

theorem cFirst_iff : ∀ t : Fin cfg1.N, cFirst (grid1.coords t) ↔ t.val = 0 :=
  (by decide +kernel : ∀ t : Fin grid1.N, cFirst (grid1.coords t) ↔ t.val = 0)
theorem cLast_iff : ∀ t : Fin cfg1.N, cLast (grid1.coords t) ↔ t.val = 24 :=
  (by decide +kernel : ∀ t : Fin grid1.N, cLast (grid1.coords t) ↔ t.val = 24)

/-! ## Where the windows are idle, and when the row of sums is written back -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Away from the last point nothing is stored into the row of sums' buffer, -/
theorem idle6 : ∀ t : Fin cfg1.N, ¬cLast (grid1.coords t) → cfg1.idle 6 (grid1.coords t) = true := by decide +kernel
/-- and it is not written back there; -/
theorem noFlush6 : ∀ t : Fin cfg1.N, ¬cLast (grid1.coords t) → (cfg1.win 6).flush t = false := by decide +kernel
/-- at the last point it is stored. -/
theorem live6 : ∀ t : Fin cfg1.N, cLast (grid1.coords t) → cfg1.idle 6 (grid1.coords t) = false := by decide +kernel

/-! ## The scratch row and what else the region's invariant carries -/

/-- The scratch buffer holding the running row of column sums. -/
abbrev scr : Memref sig .tc .vmem S1x256 .f32 := Memref.whole cc1_scratch0

/-- Everything the body never touches: the other scoped buffers (each at some contents) and the generator register. -/
def restI (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The class invariant, with the scratch row split off. -/
theorem PhiA_eq (c : Dev nD) :
    (Pipeline.ΦA spec1 c : sProp 𝕄) = iprop((∃ d, owns (c : Thread nD τ) scr fullShare d) ∗ restI c) := by
  unfold Pipeline.ΦA restI
  rw [Pipeline.scopedRest_split_of_list spec1 c [cc1_scratch0] (by decide) (by decide)]
  simp only [scr, owns_whole, bigSepL_singleton]
  exact BI.equiv_iff.mp ⟨sep_assoc, sep_assoc'⟩

/-! ## Whole-buffer loads and stores -/

/-- The zero offsets of a rank-2 access, however spelt. -/
theorem zero2 : (![0, 0] : Fin 2 → ℕ) = fun _ => 0 := by funext a; fin_cases a <;> rfl

/-- A load of the whole shape at zero offsets, through a whole memref held at the contents that read `X`, reads `X`. -/
theorem load_whole_unread {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- A store of the whole shape at zero offsets, made last, is what the view reads back, whatever the earlier stores and the
    contents before them were. -/
theorem read_store_whole {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

/-! ## The body, case by case, on any whole buffers -/

set_option maxHeartbeats 4000000 in
/-- At the first point: the scratch row is reset to zero, so it ends at the tile's column sums over the zero row; the second output's buffer is not touched. -/
theorem body_first (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare y6 ∗ owns (c : Thread nD τ) a8 fullShare (k1_pay3 x0 x1 x2 x3 x4 (k1_pay1 (F := F)))) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
      load_whole_unread h4 x3 zero2, load_whole_unread h5 x4 zero2]
  sl_unfold_run_names
  rw [View.readCov_cons_toLoadRect]

set_option maxHeartbeats 4000000 in
/-- At a middle point: the scratch row found at `xs` ends with the tile's column sums added; the second output's buffer is not touched. -/
theorem body_mid (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare y6 ∗ owns (c : Thread nD τ) a8 fullShare (k1_pay3 x0 x1 x2 x3 x4 xs)) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
    load_whole_unread h4 x3 zero2, load_whole_unread h5 x4 zero2, load_whole_unread h8 xs zero2]

set_option maxHeartbeats 4000000 in
/-- At the last point: as at a middle point, and the finished row is also stored into the second output's buffer. -/
theorem body_last (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : cLast i) (x0 : Vec F S2000x256 .f32) (x1 : Vec F S2000x1 .f32) (x2 : Vec F S256x256 .f32) (x3 : Vec F S1x256 .f32) (x4 : Vec F S1x1 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare (k1_pay3 x0 x1 x2 x3 x4 xs) ∗ owns (c : Thread nD τ) a8 fullShare (k1_pay3 x0 x1 x2 x3 x4 xs)) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; swap; · iexact H7
    ipureintro
    rw [read_store_whole _ _ zero2]
    sl_unfold_run_names
    rw [View.readCov_cons_toLoadRect, load_whole_unread h1 x0 zero2, load_whole_unread h2 x1 zero2, load_whole_unread h3 x2 zero2,
      load_whole_unread h4 x3 zero2, load_whole_unread h5 x4 zero2, load_whole_unread h8 xs zero2]
  iexists _; isplitr; swap; · iexact H8
  ipureintro
  sl_unfold_run_names
  rw [read_store_whole _ _ zero2, load_whole_unread h1 x0 zero2, load_whole_unread h2 x1 zero2, load_whole_unread h3 x2 zero2,
      load_whole_unread h4 x3 zero2, load_whole_unread h5 x4 zero2, load_whole_unread h8 xs zero2]

end Cert.KernelIdeal.Reg1

end
-- ==== Proof.KI.Data1.lean ====
/- The second graph-convolution epilogue as a pipeline: what each window's buffer holds after the body at each grid
   point, the running row of column sums carried in the scratch buffer from point to point, and the body's obligation
   to the pipeline at every point. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import proofs.«120135_j66941360276307_1_alg».proof.Proof.KI.Cases1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated rows, of in-degree factors, the weight matrix, the bias row and the slope, at point `t`. -/
abbrev bx (c : Dev nD) (t : Fin cfg1.N) : Vec F S2000x256 .f32 := iblk V c 0 t
abbrev bn (c : Dev nD) (t : Fin cfg1.N) : Vec F S2000x1 .f32 := iblk V c 1 t
abbrev bw (c : Dev nD) (t : Fin cfg1.N) : Vec F S256x256 .f32 := iblk V c 2 t
abbrev bb (c : Dev nD) (t : Fin cfg1.N) : Vec F S1x256 .f32 := iblk V c 3 t
abbrev ba (c : Dev nD) (t : Fin cfg1.N) : Vec F S1x1 .f32 := iblk V c 4 t

/-- The output tile the body stores at point `t`. -/
def hblk (c : Dev nD) (t : Fin cfg1.N) : Vec F S2000x256 .f32 :=
  k1_pay2 (bx V c t) (bn V c t) (bw V c t) (bb V c t) (ba V c t)

/-- The running row of column sums as point `n` leaves it in the scratch buffer: the zero row plus the sums of
    tile 0 at the first point, the previous row plus the sums of tile `n` afterwards. -/
def acc (c : Dev nD) : (n : ℕ) → n < cfg1.N → Vec F S1x256 .f32
  | 0, h => k1_pay3 (bx V c ⟨0, h⟩) (bn V c ⟨0, h⟩) (bw V c ⟨0, h⟩) (bb V c ⟨0, h⟩) (ba V c ⟨0, h⟩) (k1_pay1 (F := F))
  | n + 1, h => k1_pay3 (bx V c ⟨n + 1, h⟩) (bn V c ⟨n + 1, h⟩) (bw V c ⟨n + 1, h⟩) (bb V c ⟨n + 1, h⟩) (ba V c ⟨n + 1, h⟩)
      (acc c n (Nat.lt_of_succ_lt h))

theorem acc_zero (c : Dev nD) (h : 0 < cfg1.N) :
    acc V c 0 h = k1_pay3 (bx V c ⟨0, h⟩) (bn V c ⟨0, h⟩) (bw V c ⟨0, h⟩) (bb V c ⟨0, h⟩) (ba V c ⟨0, h⟩) (k1_pay1 (F := F)) := rfl
theorem acc_succ (c : Dev nD) (n : ℕ) (h : n + 1 < cfg1.N) :
    acc V c (n + 1) h = k1_pay3 (bx V c ⟨n + 1, h⟩) (bn V c ⟨n + 1, h⟩) (bw V c ⟨n + 1, h⟩) (bb V c ⟨n + 1, h⟩) (ba V c ⟨n + 1, h⟩)
      (acc V c n (Nat.lt_of_succ_lt h)) := rfl

/-! ## The region's invariant and proof data -/

/-- Before point `n`: at the start the class invariant (the scratch row at anything); afterwards the scratch row at
    what the point before left, beside everything the body never touches. -/
def PhiS (c : Dev nD) : (n : ℕ) → n ≤ cfg1.N → sProp 𝕄
  | 0, _ => Pipeline.ΦA spec1 c
  | n + 1, hn => iprop(owns (c : Thread nD τ) scr fullShare (acc V c n hn) ∗ restI c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scr fullShare (acc V c n hn) ∗ restI c) := rfl
theorem PhiS_pos (c : Dev nD) (n : ℕ) (h : n ≤ cfg1.N) (hz : n ≠ 0) :
    PhiS V c n h = iprop(owns (c : Thread nD τ) scr fullShare (acc V c (n - 1) (by omega)) ∗ restI c) := by
  cases n with
  | zero => exact absurd rfl hz
  | succ n => rfl

/-- The proof data of the region on core `c`: the arrays as the region finds them; after the body at point `t` each
    input's buffer at its block, the first output's at the stored tile, the second output's at the running row (read only
    at the last point, where the body stores it); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hblk V c t
    | ⟨6, _⟩ => acc V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = hblk V c t := by dsimp only [dat]
theorem after_6 (c : Dev nD) (t : Fin cfg1.N) : (dat V c).after 6 t = acc V c t.val t.isLt := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body at one point, over any contents -/

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- The running row at the first point. -/
theorem acc_first (c : Dev nD) (t : Fin cfg1.N) (h : t.val = 0) :
    acc V c t.val t.isLt = k1_pay3 (bx V c t) (bn V c t) (bw V c t) (bb V c t) (ba V c t) (k1_pay1 (F := F)) := by
  obtain ⟨n, hn⟩ := t
  cases n with
  | zero => rfl
  | succ n => exact absurd h (Nat.succ_ne_zero n)

/-- The running row at a later point: the tile's column sums added to the row the point before left. -/
theorem acc_pos (c : Dev nD) (t : Fin cfg1.N) (h : t.val ≠ 0) :
    acc V c t.val t.isLt = k1_pay3 (bx V c t) (bn V c t) (bw V c t) (bb V c t) (ba V c t)
      (acc V c (t.val - 1) (Nat.lt_of_le_of_lt (Nat.sub_le _ _) t.isLt)) := by
  obtain ⟨n, hn⟩ := t
  cases n with
  | zero => exact absurd rfl h
  | succ n => rfl

/-- The first point, on the pipeline's current buffers at any contents: the scratch row found at anything is left
    at the tile's column sums over the zero row, the first output's buffer at the stored tile, and the second
    output's buffer as found. -/
theorem point_first {D0 D1 D2 D3 D4 D5 D6 : Type} (c : Dev nD) (t : Fin cfg1.N)
    (hf : cFirst (grid1.coords t)) (hl : ¬cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (O R : sProp 𝕄) :
    iprop(((∃ d, owns (c : Thread nD τ) scr fullShare d) ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 (k1_pay1 (F := F))) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ (∃ d, owns (c : Thread nD τ) (st1_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_first c Set.univ (grid1.coords t) (st1_0 t) _ (st1_1 t) _ (st1_2 t) _ (st1_3 t) _ (st1_4 t) _ (st1_5 t) _ (st1_6 t) _ scr (Memref.isWhole_whole _) hf hl x0 x1 x2 x3 x4 (Y6 d6) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- A middle point: the scratch row found at `xs` is left with the tile's column sums added, the first output's
    buffer at the stored tile, and the second output's buffer as found. -/
theorem point_mid {D0 D1 D2 D3 D4 D5 D6 : Type} (c : Dev nD) (t : Fin cfg1.N)
    (hf : ¬cFirst (grid1.coords t)) (hl : ¬cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 xs) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ (∃ d, owns (c : Thread nD τ) (st1_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_mid c Set.univ (grid1.coords t) (st1_0 t) _ (st1_1 t) _ (st1_2 t) _ (st1_3 t) _ (st1_4 t) _ (st1_5 t) _ (st1_6 t) _ scr (Memref.isWhole_whole _) hf hl x0 x1 x2 x3 x4 (Y6 d6) xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- The last point: as at a middle point, and the second output's buffer, found at anything, is left at the finished row. -/
theorem point_last {D0 D1 D2 D3 D4 D5 D6 : Type} (c : Dev nD) (t : Fin cfg1.N)
    (hf : ¬cFirst (grid1.coords t)) (hl : cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 xs) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ owns (c : Thread nD τ) (st1_6 t) fullShare (k1_pay3 x0 x1 x2 x3 x4 xs))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_last c Set.univ (grid1.coords t) (st1_0 t) _ (st1_1 t) _ (st1_2 t) _ (st1_3 t) _ (st1_4 t) _ (st1_5 t) _ (st1_6 t) _ scr (Memref.isWhole_whole _) hf hl x0 x1 x2 x3 x4 xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- What the body is called with at point `t`: the invariant, what the core owes, and the windows' current buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
/-- The body at any point. The inputs' buffers hold their blocks; the point's position decides which run applies:
    at the first point the invariant hands over the scratch row at anything, afterwards at the row the point before
    left; the scratch row is taken back at this point's row; the second output's buffer is handed back as found
    away from the last point and holds the finished row there; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live0 t], after_0]
  rw [show (dat V c).leavesExact 1 t = owns (c : Thread nD τ) (st1_1 t) fullShare ((dat V c).after 1 t) from by
    unfold Dat.leavesExact; rw [live1 t], after_1]
  rw [show (dat V c).leavesExact 2 t = owns (c : Thread nD τ) (st1_2 t) fullShare ((dat V c).after 2 t) from by
    unfold Dat.leavesExact; rw [live2 t], after_2]
  rw [show (dat V c).leavesExact 3 t = owns (c : Thread nD τ) (st1_3 t) fullShare ((dat V c).after 3 t) from by
    unfold Dat.leavesExact; rw [live3 t], after_3]
  rw [show (dat V c).leavesExact 4 t = owns (c : Thread nD τ) (st1_4 t) fullShare ((dat V c).after 4 t) from by
    unfold Dat.leavesExact; rw [live4 t], after_4]
  rw [show (dat V c).leavesExact 5 t = owns (c : Thread nD τ) (st1_5 t) fullShare ((dat V c).after 5 t) from by
    unfold Dat.leavesExact; rw [live5 t], after_5]
  unfold hblk
  have hN : t.val < 25 := lt_of_lt_of_eq t.isLt (show cfg1.N = 25 from N_1)
  by_cases hz : t.val = 0
  · have hf : cFirst (grid1.coords t) := (cFirst_iff t).mpr hz
    have hl : ¬cLast (grid1.coords t) := fun h => by have := (cLast_iff t).mp h; omega
    rw [Dat.leavesExact_idle (dat V c) 6 t (idle6 t hl) (noFlush6 t hl)]
    rw [PhiS_castSucc, PhiS_zero V c _ _ hz, PhiA_eq, acc_first V c t hz]
    exact point_first c t hf hl (bx V c t) (bn V c t) (bw V c t) (bb V c t) (ba V c t) _ _ _ _
  · have hf : ¬cFirst (grid1.coords t) := fun h => hz ((cFirst_iff t).mp h)
    rw [PhiS_castSucc, PhiS_pos V c _ _ hz, acc_pos V c t hz]
    by_cases hz' : t.val = 24
    · have hl : cLast (grid1.coords t) := (cLast_iff t).mpr hz'
      rw [show (dat V c).leavesExact 6 t = owns (c : Thread nD τ) (st1_6 t) fullShare ((dat V c).after 6 t) from by
        unfold Dat.leavesExact; rw [live6 t hl], after_6, acc_pos V c t hz]
      exact point_last c t hf hl (bx V c t) (bn V c t) (bw V c t) (bb V c t) (ba V c t) _ _ _ _ _
    · have hl : ¬cLast (grid1.coords t) := fun h => hz' ((cLast_iff t).mp h)
      rw [Dat.leavesExact_idle (dat V c) 6 t (idle6 t hl) (noFlush6 t hl)]
      exact point_mid c t hf hl (bx V c t) (bn V c t) (bw V c t) (bb V c t) (ba V c t) _ _ _ _ _

/-- The library's body obligation, at every point: the case the point is in decides which of the three runs applies. -/
theorem body_obligation (c : Dev nD) :
    BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]

/-- After any point but the first the invariant gives the class invariant back: the scratch row's contents are forgotten. -/
theorem Phi_out (c : Dev nD) (t : Fin (cfg1.N + 1)) (ht : t.val ≠ 0) :
    (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨HS, HR⟩
  isplitl [HS]
  · iexists _; iexact HS
  iexact HR

/-- After the last point the invariant gives the class invariant back: the scratch row's contents are forgotten. -/
theorem hout (c : Dev nD) : (dat V c).Φ (Fin.last cfg1.N) ⊢ (Pipeline.ΦA spec1 c : sProp 𝕄) :=
  Phi_out V c _ (by rw [Fin.val_last]; have : cfg1.N = 25 := N_1; omega)

end Cert.KernelIdeal.Reg1

end
-- ==== Proof.KI.Run.lean ====
/- The whole program: host operations, the first graph-convolution epilogue, host operations, the second epilogue, and the
   closing concatenation, run from the launch memory. The buffers' contents are followed boundary by boundary; each
   pallas_call is entered with every unscoped buffer at the boundary's contents and left with its two output arrays at
   what its write-backs leave; the arguments are written by nothing. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import proofs.«120135_j66941360276307_1_alg».proof.Proof.KI.Data0
import proofs.«120135_j66941360276307_1_alg».proof.Proof.KI.Data1
import proofs.«120135_j66941360276307_1_alg».proof.Proof.Gen.KernelIdeal.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold from the launch memory -/

/-- Core `c`'s buffers at launch. -/
abbrev W0 : Dev nD → Valuation τ sig (Elt F) := fun c b => m (c, b)
/-- After the host operations before the first pallas_call. -/
abbrev W1 : Dev nD → Valuation τ sig (Elt F) := fun c => StableHlo.after hostOps0 (W0 m c)
/-- The same read at the TensorCore's references: what the first region is entered from. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Reg0.dat (V1 m) c).arrAt w cfg0.N
abbrev V2 : (c : Dev nD) → (b : Ref sig .tc) → Buf (Elt F) ((c : Thread nD τ).loc b) := fun c b => W2 m c b
/-- After the host operations between the two pallas_calls. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Reg1.dat (V3 m) c).arrAt w cfg1.N
abbrev V4 : (c : Dev nD) → (b : Ref sig .tc) → Buf (Elt F) ((c : Thread nD τ).loc b) := fun c b => W4 m c b
/-- After the closing concatenation: the contents the program returns with. -/
abbrev W5 : Dev nD → Valuation τ sig (Elt F) := fun c => StableHlo.after hostOps2 (W4 m c)

/-! ## What each region leaves: its arrays at what its write-backs leave, every other buffer as entered -/

theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each stretch of host operations leaves: every reference it does not write, as it was -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- A reference that no host operation writes and that is no region's array ends as launched. -/
theorem W5_of_bypass (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  calc W5 m c (Proc.devRef .tc r)
    _ = W4 m c (Proc.devRef .tc r) := W5_of m c r h2
    _ = W3 m c (Proc.devRef .tc r) := W4_of_ne m c r hw1
    _ = W2 m c (Proc.devRef .tc r) := W3_of m c r h1
    _ = W1 m c (Proc.devRef .tc r) := W2_of_ne m c r hw0
    _ = W0 m c (Proc.devRef .tc r) := W1_of m c r h0
    _ = m ((c : Thread nD τ).loc r) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment: run over the unscoped buffers from the contents W, R riding along;
    it ends with those buffers at the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region over the thread state: entered from every unscoped buffer at W1, left at W2. Its arrays are split
    out of the unscoped buffers and put back at the exit contents; the generator register and the scoped buffers go
    into the region's invariant at the first point and come back out of it at the last; nothing owed; no semaphore of
    the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (V1 m) c).Φ 0 from rfl]
    refine BIBase.Entails.trans ?_ (Reg0.hin (V1 m) c)
    unfold Pipeline.ΦA
    iintro ⟨Hp, -, Hr⟩
    isplitl [Hr]; · iexact Hr
    iexact Hp
  hout c := by
    rw [Pipeline.ownSems0_none, show (pdats m 0 c).Φ (Fin.last _) = (Reg0.dat (V1 m) c).Φ (Fin.last _) from rfl]
    refine BIBase.Entails.trans (Reg0.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V3 m) c).Φ 0 from rfl]
    refine BIBase.Entails.trans ?_ (Reg1.hin (V3 m) c)
    unfold Pipeline.ΦA
    iintro ⟨Hp, -, Hr⟩
    isplitl [Hr]; · iexact Hr
    iexact Hp
  hout c := by
    rw [Pipeline.ownSems0_none, show (pdats m 1 c).Φ (Fin.last _) = (Reg1.dat (V3 m) c).Φ (Fin.last _) from rfl]
    refine BIBase.Entails.trans (Reg1.hout (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: each stretch of host operations from its boundary's contents, each
    pallas_call a region. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-! ## The run -/

set_option backward.isDefEq.respectTransparency.types false in
/-- Every weakly fair execution of @main from memory `m` with zero counters terminates, and every final memory holds
    every unscoped buffer at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The last boundary read at the arguments and at the results -/

theorem W5_arg0 (c : Dev nD) : W5 m c (Proc.devRef .tc main_arg0) = m ((c : Thread nD τ).loc main_arg0) :=
  W5_of_bypass m c main_arg0 (by decide) (by decide) (by decide) (by decide) (by decide)
theorem W5_arg1 (c : Dev nD) : W5 m c (Proc.devRef .tc main_arg1) = m ((c : Thread nD τ).loc main_arg1) :=
  W5_of_bypass m c main_arg1 (by decide) (by decide) (by decide) (by decide) (by decide)
theorem W5_arg2 (c : Dev nD) : W5 m c (Proc.devRef .tc main_arg2) = m ((c : Thread nD τ).loc main_arg2) :=
  W5_of_bypass m c main_arg2 (by decide) (by decide) (by decide) (by decide) (by decide)
/-- The first region reads its weight matrix through an input window: an input's array is left as entered. -/
theorem W5_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) :=
        (W2_arr m c 2).trans (((Reg0.dat (V1 m) c).arrAt_in 2 rfl _).trans (Reg0.A_eq (V1 m) c 2))
    _ = W0 m c (Proc.devRef .tc main_arg3) := W1_of m c main_arg3 (by decide)
    _ = m ((c : Thread nD τ).loc main_arg3) := rfl
theorem W5_arg4 (c : Dev nD) : W5 m c (Proc.devRef .tc main_arg4) = m ((c : Thread nD τ).loc main_arg4) :=
  W5_of_bypass m c main_arg4 (by decide) (by decide) (by decide) (by decide) (by decide)
/-- The second region reads its weight matrix through an input window. -/
theorem W5_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) :=
        (W4_arr m c 2).trans (((Reg1.dat (V3 m) c).arrAt_in 2 rfl _).trans (Reg1.A_eq (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_arg6 (c : Dev nD) : W5 m c (Proc.devRef .tc main_arg6) = m ((c : Thread nD τ).loc main_arg6) :=
  W5_of_bypass m c main_arg6 (by decide) (by decide) (by decide) (by decide) (by decide)
theorem W5_arg7 (c : Dev nD) : W5 m c (Proc.devRef .tc main_arg7) = m ((c : Thread nD τ).loc main_arg7) :=
  W5_of_bypass m c main_arg7 (by decide) (by decide) (by decide) (by decide) (by decide)

/-- The first result is the second region's first output array as its write-backs leave it. -/
theorem W5_res0 (c : Dev nD) : W5 m c (Proc.devRef .tc main_v54_0) = (Reg1.dat (V3 m) c).arrAt 5 cfg1.N :=
  (W5_of m c main_v54_0 (by decide)).trans (W4_arr m c 5)

/-- The second result is the two regions' rows of column sums, side by side. -/
theorem W5_res1 (c : Dev nD) :
    W5 m c (Proc.devRef .tc main_v55)
      = concatenate S1x512 1 [⟨S1x256, (Reg0.dat (V1 m) c).arrAt 6 cfg0.N⟩, ⟨S1x256, (Reg1.dat (V3 m) c).arrAt 6 cfg1.N⟩]
          concatenates_S1x256_S1x256_S1x512_d1 := by
  have h0 : W4 m c (Proc.devRef .tc main_v39_1) = (Reg0.dat (V1 m) c).arrAt 6 cfg0.N :=
    (W4_of_ne m c main_v39_1 (by decide)).trans ((W3_of m c main_v39_1 (by decide)).trans (W2_arr m c 6))
  have h1 : W4 m c (Proc.devRef .tc main_v54_1) = (Reg1.dat (V3 m) c).arrAt 6 cfg1.N := W4_arr m c 6
  show StableHlo.after hostOps2 (W4 m c) (Proc.devRef .tc main_v55) = _
  after_results
  rw [h0, h1]

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, nothing faults, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W5_arg0 m c),
    (h c _ (mem_uc main_arg1 (by decide))).trans (W5_arg1 m c),
    (h c _ (mem_uc main_arg2 (by decide))).trans (W5_arg2 m c),
    (h c _ (mem_uc main_arg3 (by decide))).trans (W5_arg3 m c),
    (h c _ (mem_uc main_arg4 (by decide))).trans (W5_arg4 m c),
    (h c _ (mem_uc main_arg5 (by decide))).trans (W5_arg5 m c),
    (h c _ (mem_uc main_arg6 (by decide))).trans (W5_arg6 m c),
    (h c _ (mem_uc main_arg7 (by decide))).trans (W5_arg7 m c)⟩)
    (run_main m ρ)

end Cert.KernelIdeal.Run

end
-- ==== Proof.KB.Cases0.lean ====
/- One grid point of the first graph-convolution epilogue, case by case. The body scales a tile of aggregated
   rows by the in-degree factor, multiplies by the weight matrix, adds the bias, applies the leaky
   rectifier with the learnt slope, stores the tile, and adds the tile's column sums to a running
   row kept in a scratch buffer: the running row is reset at the first point and copied to the second
   output at the last one. -/
import proofs.«120135_j66941360276307_1_alg».proof.Proof.Gen.Kernel.Launch
import proofs.«120135_j66941360276307_1_alg».proof.Proof.Gen.Kernel.Skeleton
import proofs.«120135_j66941360276307_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The body's first branch (reset of the running row): taken at the first point only. -/
abbrev cFirst (i : grid0.Coords) : Prop :=
  Scalar.cmpi .ne (Scalar.extui (Scalar.cmpi .eq (BitVec.ofNat 32 (i 0).val) 0#32)) 0#32 = 1#1
/-- The body's second branch (the running row copied out): taken at the last point only. -/
abbrev cLast (i : grid0.Coords) : Prop := k0_cond2 i = 1#1

theorem cFirst_iff : ∀ t : Fin cfg0.N, cFirst (grid0.coords t) ↔ t.val = 0 :=
  (by decide +kernel : ∀ t : Fin grid0.N, cFirst (grid0.coords t) ↔ t.val = 0)
theorem cLast_iff : ∀ t : Fin cfg0.N, cLast (grid0.coords t) ↔ t.val = 24 :=
  (by decide +kernel : ∀ t : Fin grid0.N, cLast (grid0.coords t) ↔ t.val = 24)

/-! ## Where the windows are idle, and when the row of sums is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last point nothing is stored into the row of sums' buffer, -/
theorem idle6 : ∀ t : Fin cfg0.N, ¬cLast (grid0.coords t) → cfg0.idle 6 (grid0.coords t) = true := by decide +kernel
/-- and it is not written back there; -/
theorem noFlush6 : ∀ t : Fin cfg0.N, ¬cLast (grid0.coords t) → (cfg0.win 6).flush t = false := by decide +kernel
/-- at the last point it is stored. -/
theorem live6 : ∀ t : Fin cfg0.N, cLast (grid0.coords t) → cfg0.idle 6 (grid0.coords t) = false := by decide +kernel

/-! ## The scratch row and what else the region's invariant carries -/

/-- The scratch buffer holding the running row of column sums. -/
abbrev scr : Memref sig .tc .vmem S1x256 .f32 := Memref.whole cc0_scratch0

/-- Everything the body never touches: the other scoped buffers (each at some contents) and the generator register. -/
def restI (c : Dev nD) : sProp 𝕄 :=
  iprop(Pipeline.scopedRestBut (Ix := Unit) (Name := ℕ) (U := UR sig nD τ) (Lvl := ℕ) (Val := Elt F) spec0 c [cc0_scratch0]
    ∗ ∃ r, prngReg c r)

/-- The class invariant, with the scratch row split off. -/
theorem PhiA_eq (c : Dev nD) :
    (Pipeline.ΦA spec0 c : sProp 𝕄) = iprop((∃ d, owns (c : Thread nD τ) scr fullShare d) ∗ restI c) := by
  unfold Pipeline.ΦA restI
  rw [Pipeline.scopedRest_split_of_list spec0 c [cc0_scratch0] (by decide) (by decide)]
  simp only [scr, owns_whole, bigSepL_singleton]
  exact BI.equiv_iff.mp ⟨sep_assoc, sep_assoc'⟩

/-! ## Whole-buffer loads and stores -/

/-- The zero offsets of a rank-2 access, however spelt. -/
theorem zero2 : (![0, 0] : Fin 2 → ℕ) = fun _ => 0 := by funext a; fin_cases a <;> rfl

/-- A load of the whole shape at zero offsets, through a whole memref held at the contents that read `X`, reads `X`. -/
theorem load_whole_unread {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- A store of the whole shape at zero offsets, made last, is what the view reads back, whatever the earlier stores and the
    contents before them were. -/
theorem read_store_whole {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

/-! ## The body, case by case, on any whole buffers -/

set_option maxHeartbeats 4000000 in
/-- At the first point: the scratch row is reset to zero, so it ends at the tile's column sums over the zero row; the second output's buffer is not touched. -/
theorem body_first (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare y6 ∗ owns (c : Thread nD τ) a8 fullShare (k0_pay3 x0 x1 x2 x3 x4 (k0_pay1 (F := F)))) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
      load_whole_unread h4 x3 zero2, load_whole_unread h5 x4 zero2]
  sl_unfold_run_names
  rw [View.readCov_cons_toLoadRect]

set_option maxHeartbeats 4000000 in
/-- At a middle point: the scratch row found at `xs` ends with the tile's column sums added; the second output's buffer is not touched. -/
theorem body_mid (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare y6 ∗ owns (c : Thread nD τ) a8 fullShare (k0_pay3 x0 x1 x2 x3 x4 xs)) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
    load_whole_unread h4 x3 zero2, load_whole_unread h5 x4 zero2, load_whole_unread h8 xs zero2]

set_option maxHeartbeats 4000000 in
/-- At the last point: as at a middle point, and the finished row is also stored into the second output's buffer. -/
theorem body_last (c : Dev nD) (E : Set ℕ) (i : grid0.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : cLast i) (x0 : Vec F S2000x256 .f32) (x1 : Vec F S2000x1 .f32) (x2 : Vec F S256x256 .f32) (x3 : Vec F S1x256 .f32) (x4 : Vec F S1x1 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k0_pay2 x0 x1 x2 x3 x4) ∗ owns (c : Thread nD τ) a7 fullShare (k0_pay3 x0 x1 x2 x3 x4 xs) ∗ owns (c : Thread nD τ) a8 fullShare (k0_pay3 x0 x1 x2 x3 x4 xs)) -∗ K ⟨⟩))
      ⊢ wp frame (wpE (defs₀ (F := F)) Variants.none c none) E (cc0__conv_post_kernel i a1 h1 a2 h2 a3 h3 a4 h4 a5 h5 a6 h6 a7 h7 a8 h8) K := by
  simp only [cc0__conv_post_kernel_eq_skeleton]; unfold cc0__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; swap; · iexact H7
    ipureintro
    rw [read_store_whole _ _ zero2]
    sl_unfold_run_names
    rw [View.readCov_cons_toLoadRect, load_whole_unread h1 x0 zero2, load_whole_unread h2 x1 zero2, load_whole_unread h3 x2 zero2,
      load_whole_unread h4 x3 zero2, load_whole_unread h5 x4 zero2, load_whole_unread h8 xs zero2]
  iexists _; isplitr; swap; · iexact H8
  ipureintro
  sl_unfold_run_names
  rw [read_store_whole _ _ zero2, load_whole_unread h1 x0 zero2, load_whole_unread h2 x1 zero2, load_whole_unread h3 x2 zero2,
      load_whole_unread h4 x3 zero2, load_whole_unread h5 x4 zero2, load_whole_unread h8 xs zero2]

end Cert.Kernel.Reg0

end
-- ==== Proof.KB.Data0.lean ====
/- The first graph-convolution epilogue as a pipeline: what each window's buffer holds after the body at each grid
   point, the running row of column sums carried in the scratch buffer from point to point, and the body's obligation
   to the pipeline at every point. -/
import proofs.«120135_j66941360276307_1_alg».proof.Proof.Gen.Kernel.Launch
import proofs.«120135_j66941360276307_1_alg».proof.Proof.Gen.Kernel.Skeleton
import proofs.«120135_j66941360276307_1_alg».proof.Proof.Gen.Kernel.Points
import proofs.«120135_j66941360276307_1_alg».proof.Proof.KB.Cases0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of aggregated rows, of in-degree factors, the weight matrix, the bias row and the slope, at point `t`. -/
abbrev bx (c : Dev nD) (t : Fin cfg0.N) : Vec F S2000x256 .f32 := iblk V c 0 t
abbrev bn (c : Dev nD) (t : Fin cfg0.N) : Vec F S2000x1 .f32 := iblk V c 1 t
abbrev bw (c : Dev nD) (t : Fin cfg0.N) : Vec F S256x256 .f32 := iblk V c 2 t
abbrev bb (c : Dev nD) (t : Fin cfg0.N) : Vec F S1x256 .f32 := iblk V c 3 t
abbrev ba (c : Dev nD) (t : Fin cfg0.N) : Vec F S1x1 .f32 := iblk V c 4 t

/-- The output tile the body stores at point `t`. -/
def hblk (c : Dev nD) (t : Fin cfg0.N) : Vec F S2000x256 .f32 :=
  k0_pay2 (bx V c t) (bn V c t) (bw V c t) (bb V c t) (ba V c t)

/-- The running row of column sums as point `n` leaves it in the scratch buffer: the zero row plus the sums of
    tile 0 at the first point, the previous row plus the sums of tile `n` afterwards. -/
def acc (c : Dev nD) : (n : ℕ) → n < cfg0.N → Vec F S1x256 .f32
  | 0, h => k0_pay3 (bx V c ⟨0, h⟩) (bn V c ⟨0, h⟩) (bw V c ⟨0, h⟩) (bb V c ⟨0, h⟩) (ba V c ⟨0, h⟩) (k0_pay1 (F := F))
  | n + 1, h => k0_pay3 (bx V c ⟨n + 1, h⟩) (bn V c ⟨n + 1, h⟩) (bw V c ⟨n + 1, h⟩) (bb V c ⟨n + 1, h⟩) (ba V c ⟨n + 1, h⟩)
      (acc c n (Nat.lt_of_succ_lt h))

theorem acc_zero (c : Dev nD) (h : 0 < cfg0.N) :
    acc V c 0 h = k0_pay3 (bx V c ⟨0, h⟩) (bn V c ⟨0, h⟩) (bw V c ⟨0, h⟩) (bb V c ⟨0, h⟩) (ba V c ⟨0, h⟩) (k0_pay1 (F := F)) := rfl
theorem acc_succ (c : Dev nD) (n : ℕ) (h : n + 1 < cfg0.N) :
    acc V c (n + 1) h = k0_pay3 (bx V c ⟨n + 1, h⟩) (bn V c ⟨n + 1, h⟩) (bw V c ⟨n + 1, h⟩) (bb V c ⟨n + 1, h⟩) (ba V c ⟨n + 1, h⟩)
      (acc V c n (Nat.lt_of_succ_lt h)) := rfl

/-! ## The region's invariant and proof data -/

/-- Before point `n`: at the start the class invariant (the scratch row at anything); afterwards the scratch row at
    what the point before left, beside everything the body never touches. -/
def PhiS (c : Dev nD) : (n : ℕ) → n ≤ cfg0.N → sProp 𝕄
  | 0, _ => Pipeline.ΦA spec0 c
  | n + 1, hn => iprop(owns (c : Thread nD τ) scr fullShare (acc V c n hn) ∗ restI c)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scr fullShare (acc V c n hn) ∗ restI c) := rfl
theorem PhiS_pos (c : Dev nD) (n : ℕ) (h : n ≤ cfg0.N) (hz : n ≠ 0) :
    PhiS V c n h = iprop(owns (c : Thread nD τ) scr fullShare (acc V c (n - 1) (by omega)) ∗ restI c) := by
  cases n with
  | zero => exact absurd rfl hz
  | succ n => rfl

/-- The proof data of the region on core `c`: the arrays as the region finds them; after the body at point `t` each
    input's buffer at its block, the first output's at the stored tile, the second output's at the running row (read only
    at the last point, where the body stores it); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hblk V c t
    | ⟨6, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = hblk V c t := by dsimp only [dat]
theorem after_6 (c : Dev nD) (t : Fin cfg0.N) : (dat V c).after 6 t = acc V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body at one point, over any contents -/

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- The running row at the first point. -/
theorem acc_first (c : Dev nD) (t : Fin cfg0.N) (h : t.val = 0) :
    acc V c t.val t.isLt = k0_pay3 (bx V c t) (bn V c t) (bw V c t) (bb V c t) (ba V c t) (k0_pay1 (F := F)) := by
  obtain ⟨n, hn⟩ := t
  cases n with
  | zero => rfl
  | succ n => exact absurd h (Nat.succ_ne_zero n)

/-- The running row at a later point: the tile's column sums added to the row the point before left. -/
theorem acc_pos (c : Dev nD) (t : Fin cfg0.N) (h : t.val ≠ 0) :
    acc V c t.val t.isLt = k0_pay3 (bx V c t) (bn V c t) (bw V c t) (bb V c t) (ba V c t)
      (acc V c (t.val - 1) (Nat.lt_of_le_of_lt (Nat.sub_le _ _) t.isLt)) := by
  obtain ⟨n, hn⟩ := t
  cases n with
  | zero => exact absurd rfl h
  | succ n => rfl

/-- The first point, on the pipeline's current buffers at any contents: the scratch row found at anything is left
    at the tile's column sums over the zero row, the first output's buffer at the stored tile, and the second
    output's buffer as found. -/
theorem point_first {D0 D1 D2 D3 D4 D5 D6 : Type} (c : Dev nD) (t : Fin cfg0.N)
    (hf : cFirst (grid0.coords t)) (hl : ¬cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (O R : sProp 𝕄) :
    iprop(((∃ d, owns (c : Thread nD τ) scr fullShare d) ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 (k0_pay1 (F := F))) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ (∃ d, owns (c : Thread nD τ) (st0_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_first c Set.univ (grid0.coords t) (st0_0 t) _ (st0_1 t) _ (st0_2 t) _ (st0_3 t) _ (st0_4 t) _ (st0_5 t) _ (st0_6 t) _ scr (Memref.isWhole_whole _) hf hl x0 x1 x2 x3 x4 (Y6 d6) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- A middle point: the scratch row found at `xs` is left with the tile's column sums added, the first output's
    buffer at the stored tile, and the second output's buffer as found. -/
theorem point_mid {D0 D1 D2 D3 D4 D5 D6 : Type} (c : Dev nD) (t : Fin cfg0.N)
    (hf : ¬cFirst (grid0.coords t)) (hl : ¬cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 xs) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ (∃ d, owns (c : Thread nD τ) (st0_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_mid c Set.univ (grid0.coords t) (st0_0 t) _ (st0_1 t) _ (st0_2 t) _ (st0_3 t) _ (st0_4 t) _ (st0_5 t) _ (st0_6 t) _ scr (Memref.isWhole_whole _) hf hl x0 x1 x2 x3 x4 (Y6 d6) xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- The last point: as at a middle point, and the second output's buffer, found at anything, is left at the finished row. -/
theorem point_last {D0 D1 D2 D3 D4 D5 D6 : Type} (c : Dev nD) (t : Fin cfg0.N)
    (hf : ¬cFirst (grid0.coords t)) (hl : cLast (grid0.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st0_0 t) fullShare x0)
        ∗ (∃ _d : D1, owns (c : Thread nD τ) (st0_1 t) fullShare x1)
        ∗ (∃ _d : D2, owns (c : Thread nD τ) (st0_2 t) fullShare x2)
        ∗ (∃ _d : D3, owns (c : Thread nD τ) (st0_3 t) fullShare x3)
        ∗ (∃ _d : D4, owns (c : Thread nD τ) (st0_4 t) fullShare x4)
        ∗ (∃ d, owns (c : Thread nD τ) (st0_5 t) fullShare (Y5 d))
        ∗ (∃ d, owns (c : Thread nD τ) (st0_6 t) fullShare (Y6 d)))
      ⊢ wp frame (wpE (defs₀ (F := F)) Variants.none c none) Set.univ (bodyAt0 t) (fun _ =>
        iprop((owns (c : Thread nD τ) scr fullShare (k0_pay3 x0 x1 x2 x3 x4 xs) ∗ R) ∗ O
          ∗ owns (c : Thread nD τ) (st0_0 t) fullShare x0
          ∗ owns (c : Thread nD τ) (st0_1 t) fullShare x1
          ∗ owns (c : Thread nD τ) (st0_2 t) fullShare x2
          ∗ owns (c : Thread nD τ) (st0_3 t) fullShare x3
          ∗ owns (c : Thread nD τ) (st0_4 t) fullShare x4
          ∗ owns (c : Thread nD τ) (st0_5 t) fullShare (k0_pay2 x0 x1 x2 x3 x4)
          ∗ owns (c : Thread nD τ) (st0_6 t) fullShare (k0_pay3 x0 x1 x2 x3 x4 xs))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_last c Set.univ (grid0.coords t) (st0_0 t) _ (st0_1 t) _ (st0_2 t) _ (st0_3 t) _ (st0_4 t) _ (st0_5 t) _ (st0_6 t) _ scr (Memref.isWhole_whole _) hf hl x0 x1 x2 x3 x4 xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- What the body is called with at point `t`: the invariant, what the core owes, and the windows' current buffers one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
/-- The body at any point. The inputs' buffers hold their blocks; the point's position decides which run applies:
    at the first point the invariant hands over the scratch row at anything, afterwards at the row the point before
    left; the scratch row is taken back at this point's row; the second output's buffer is handed back as found
    away from the last point and holds the finished row there; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [live0 t], after_0]
  rw [show (dat V c).leavesExact 1 t = owns (c : Thread nD τ) (st0_1 t) fullShare ((dat V c).after 1 t) from by
    unfold Dat.leavesExact; rw [live1 t], after_1]
  rw [show (dat V c).leavesExact 2 t = owns (c : Thread nD τ) (st0_2 t) fullShare ((dat V c).after 2 t) from by
    unfold Dat.leavesExact; rw [live2 t], after_2]
  rw [show (dat V c).leavesExact 3 t = owns (c : Thread nD τ) (st0_3 t) fullShare ((dat V c).after 3 t) from by
    unfold Dat.leavesExact; rw [live3 t], after_3]
  rw [show (dat V c).leavesExact 4 t = owns (c : Thread nD τ) (st0_4 t) fullShare ((dat V c).after 4 t) from by
    unfold Dat.leavesExact; rw [live4 t], after_4]
  rw [show (dat V c).leavesExact 5 t = owns (c : Thread nD τ) (st0_5 t) fullShare ((dat V c).after 5 t) from by
    unfold Dat.leavesExact; rw [live5 t], after_5]
  unfold hblk
  have hN : t.val < 25 := lt_of_lt_of_eq t.isLt (show cfg0.N = 25 from N_0)
  by_cases hz : t.val = 0
  · have hf : cFirst (grid0.coords t) := (cFirst_iff t).mpr hz
    have hl : ¬cLast (grid0.coords t) := fun h => by have := (cLast_iff t).mp h; omega
    rw [Dat.leavesExact_idle (dat V c) 6 t (idle6 t hl) (noFlush6 t hl)]
    rw [PhiS_castSucc, PhiS_zero V c _ _ hz, PhiA_eq, acc_first V c t hz]
    exact point_first c t hf hl (bx V c t) (bn V c t) (bw V c t) (bb V c t) (ba V c t) _ _ _ _
  · have hf : ¬cFirst (grid0.coords t) := fun h => hz ((cFirst_iff t).mp h)
    rw [PhiS_castSucc, PhiS_pos V c _ _ hz, acc_pos V c t hz]
    by_cases hz' : t.val = 24
    · have hl : cLast (grid0.coords t) := (cLast_iff t).mpr hz'
      rw [show (dat V c).leavesExact 6 t = owns (c : Thread nD τ) (st0_6 t) fullShare ((dat V c).after 6 t) from by
        unfold Dat.leavesExact; rw [live6 t hl], after_6, acc_pos V c t hz]
      exact point_last c t hf hl (bx V c t) (bn V c t) (bw V c t) (bb V c t) (ba V c t) _ _ _ _ _
    · have hl : ¬cLast (grid0.coords t) := fun h => hz' ((cLast_iff t).mp h)
      rw [Dat.leavesExact_idle (dat V c) 6 t (idle6 t hl) (noFlush6 t hl)]
      exact point_mid c t hf hl (bx V c t) (bn V c t) (bw V c t) (bb V c t) (ba V c t) _ _ _ _ _

/-- The library's body obligation, at every point: the case the point is in decides which of the three runs applies. -/
theorem body_obligation (c : Dev nD) :
    BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]

/-- After any point but the first the invariant gives the class invariant back: the scratch row's contents are forgotten. -/
theorem Phi_out (c : Dev nD) (t : Fin (cfg0.N + 1)) (ht : t.val ≠ 0) :
    (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨HS, HR⟩
  isplitl [HS]
  · iexists _; iexact HS
  iexact HR

/-- After the last point the invariant gives the class invariant back: the scratch row's contents are forgotten. -/
theorem hout (c : Dev nD) : (dat V c).Φ (Fin.last cfg0.N) ⊢ (Pipeline.ΦA spec0 c : sProp 𝕄) :=
  Phi_out V c _ (by rw [Fin.val_last]; have : cfg0.N = 25 := N_0; omega)

end Cert.Kernel.Reg0

end
-- ==== Proof.KB.Cases1.lean ====
/- One grid point of the second graph-convolution epilogue, case by case. The body scales a tile of aggregated
   rows by the in-degree factor, multiplies by the weight matrix, adds the bias, applies the leaky
   rectifier with the learnt slope, stores the tile, and adds the tile's column sums to a running
   row kept in a scratch buffer: the running row is reset at the first point and copied to the second
   output at the last one. -/
import proofs.«120135_j66941360276307_1_alg».proof.Proof.Gen.Kernel.Launch
import proofs.«120135_j66941360276307_1_alg».proof.Proof.Gen.Kernel.Skeleton
import proofs.«120135_j66941360276307_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The body's first branch (reset of the running row): taken at the first point only. -/
abbrev cFirst (i : grid1.Coords) : Prop :=
  Scalar.cmpi .ne (Scalar.extui (Scalar.cmpi .eq (BitVec.ofNat 32 (i 0).val) 0#32)) 0#32 = 1#1
/-- The body's second branch (the running row copied out): taken at the last point only. -/
abbrev cLast (i : grid1.Coords) : Prop := k1_cond2 i = 1#1

theorem cFirst_iff : ∀ t : Fin cfg1.N, cFirst (grid1.coords t) ↔ t.val = 0 :=
  (by decide +kernel : ∀ t : Fin grid1.N, cFirst (grid1.coords t) ↔ t.val = 0)
theorem cLast_iff : ∀ t : Fin cfg1.N, cLast (grid1.coords t) ↔ t.val = 24 :=
  (by decide +kernel : ∀ t : Fin grid1.N, cLast (grid1.coords t) ↔ t.val = 24)

/-! ## Where the windows are idle, and when the row of sums is written back -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Away from the last point nothing is stored into the row of sums' buffer, -/
theorem idle6 : ∀ t : Fin cfg1.N, ¬cLast (grid1.coords t) → cfg1.idle 6 (grid1.coords t) = true := by decide +kernel
/-- and it is not written back there; -/
theorem noFlush6 : ∀ t : Fin cfg1.N, ¬cLast (grid1.coords t) → (cfg1.win 6).flush t = false := by decide +kernel
/-- at the last point it is stored. -/
theorem live6 : ∀ t : Fin cfg1.N, cLast (grid1.coords t) → cfg1.idle 6 (grid1.coords t) = false := by decide +kernel

/-! ## The scratch row and what else the region's invariant carries -/

/-- The scratch buffer holding the running row of column sums. -/
abbrev scr : Memref sig .tc .vmem S1x256 .f32 := Memref.whole cc1_scratch0

/-- Everything the body never touches: the other scoped buffers (each at some contents) and the generator register. -/
def restI (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The class invariant, with the scratch row split off. -/
theorem PhiA_eq (c : Dev nD) :
    (Pipeline.ΦA spec1 c : sProp 𝕄) = iprop((∃ d, owns (c : Thread nD τ) scr fullShare d) ∗ restI c) := by
  unfold Pipeline.ΦA restI
  rw [Pipeline.scopedRest_split_of_list spec1 c [cc1_scratch0] (by decide) (by decide)]
  simp only [scr, owns_whole, bigSepL_singleton]
  exact BI.equiv_iff.mp ⟨sep_assoc, sep_assoc'⟩

/-! ## Whole-buffer loads and stores -/

/-- The zero offsets of a rank-2 access, however spelt. -/
theorem zero2 : (![0, 0] : Fin 2 → ℕ) = fun _ => 0 := by funext a; fin_cases a <;> rfl

/-- A load of the whole shape at zero offsets, through a whole memref held at the contents that read `X`, reads `X`. -/
theorem load_whole_unread {S : Shape} {e : EltTy} {m : Memref sig .tc .vmem S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  subst ho
  rw [View.readAt_eq_ld, h.read_unread]
  funext x
  show X ((Rect.whole S).emb x) = X x
  rw [Rect.emb_whole_apply]

/-- A store of the whole shape at zero offsets, made last, is what the view reads back, whatever the earlier stores and the
    contents before them were. -/
theorem read_store_whole {S : Shape} {e : EltTy} (v : View sig .tc .vmem S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst ho
  funext y
  have h := View.read_writes_cons_emb v f (Rect.whole S) w L y
  rwa [Rect.emb_whole_apply] at h

/-! ## The body, case by case, on any whole buffers -/

set_option maxHeartbeats 4000000 in
/-- At the first point: the scratch row is reset to zero, so it ends at the tile's column sums over the zero row; the second output's buffer is not touched. -/
theorem body_first (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare y6 ∗ owns (c : Thread nD τ) a8 fullShare (k1_pay3 x0 x1 x2 x3 x4 (k1_pay1 (F := F)))) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
      load_whole_unread h4 x3 zero2, load_whole_unread h5 x4 zero2]
  sl_unfold_run_names
  rw [View.readCov_cons_toLoadRect]

set_option maxHeartbeats 4000000 in
/-- At a middle point: the scratch row found at `xs` ends with the tile's column sums added; the second output's buffer is not touched. -/
theorem body_mid (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : ¬cLast i) (x0 : Vec F S2000x256 .f32) (x1 : Vec F S2000x1 .f32) (x2 : Vec F S256x256 .f32) (x3 : Vec F S1x256 .f32) (x4 : Vec F S1x1 .f32) (y6 : Vec F S1x256 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ owns (c : Thread nD τ) a7 fullShare y6 ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare y6 ∗ owns (c : Thread nD τ) a8 fullShare (k1_pay3 x0 x1 x2 x3 x4 xs)) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; · ipureintro; exact h7.read_unread _
    iexact H7
  iexists _; isplitr; swap; · iexact H8
  ipureintro
  rw [read_store_whole _ _ zero2, load_whole_unread h1 x0 zero2, load_whole_unread h2 x1 zero2, load_whole_unread h3 x2 zero2,
    load_whole_unread h4 x3 zero2, load_whole_unread h5 x4 zero2, load_whole_unread h8 xs zero2]

set_option maxHeartbeats 4000000 in
/-- At the last point: as at a middle point, and the finished row is also stored into the second output's buffer. -/
theorem body_last (c : Dev nD) (E : Set ℕ) (i : grid1.Coords) (a1 : Memref sig .tc .vmem S2000x256 .f32) (h1 : a1.IsWhole) (a2 : Memref sig .tc .vmem S2000x1 .f32) (h2 : a2.IsWhole) (a3 : Memref sig .tc .vmem S256x256 .f32) (h3 : a3.IsWhole) (a4 : Memref sig .tc .vmem S1x256 .f32) (h4 : a4.IsWhole) (a5 : Memref sig .tc .vmem S1x1 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole)
    (hf : ¬cFirst i) (hl : cLast i) (x0 : Vec F S2000x256 .f32) (x1 : Vec F S2000x1 .f32) (x2 : Vec F S256x256 .f32) (x3 : Vec F S1x256 .f32) (x4 : Vec F S1x1 .f32) (xs : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ owns (c : Thread nD τ) a8 fullShare xs
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (k1_pay2 x0 x1 x2 x3 x4) ∗ owns (c : Thread nD τ) a7 fullShare (k1_pay3 x0 x1 x2 x3 x4 xs) ∗ owns (c : Thread nD τ) a8 fullShare (k1_pay3 x0 x1 x2 x3 x4 xs)) -∗ K ⟨⟩))
      ⊢ wp frame (wpE (defs₀ (F := F)) Variants.none c none) E (cc1__conv_post_kernel i a1 h1 a2 h2 a3 h3 a4 h4 a5 h5 a6 h6 a7 h7 a8 h8) K := by
  simp only [cc1__conv_post_kernel_eq_skeleton]; unfold cc1__conv_post_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8
  sl_exec (disch := first | exact hf | exact hl)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    rw [read_store_whole _ _ zero2, load_whole_unread h1 x0 zero2, load_whole_unread h2 x1 zero2, load_whole_unread h3 x2 zero2,
      load_whole_unread h4 x3 zero2, load_whole_unread h5 x4 zero2]
  isplitl [H7]
  · iexists _; isplitr; swap; · iexact H7
    ipureintro
    rw [read_store_whole _ _ zero2]
    sl_unfold_run_names
    rw [View.readCov_cons_toLoadRect, load_whole_unread h1 x0 zero2, load_whole_unread h2 x1 zero2, load_whole_unread h3 x2 zero2,
      load_whole_unread h4 x3 zero2, load_whole_unread h5 x4 zero2, load_whole_unread h8 xs zero2]
  iexists _; isplitr; swap; · iexact H8
  ipureintro
  sl_unfold_run_names
  rw [read_store_whole _ _ zero2, load_whole_unread h1 x0 zero2, load_whole_unread h2 x1 zero2, load_whole_unread h3 x2 zero2,
      load_whole_unread h4 x3 zero2, load_whole_unread h5 x4 zero2, load_whole_unread h8 xs zero2]

end Cert.Kernel.Reg1

end
-- ==== Proof.KB.Data1.lean ====
/- The second graph-convolution epilogue as a pipeline: what each window's buffer holds after the body at each grid
   point, the running row of column sums carried in the scratch buffer from point to point, and the body's obligation
   to the pipeline at every point. -/
import proofs.«120135_j66941360276307_1_alg».proof.Proof.Gen.Kernel.Launch
import proofs.«120135_j66941360276307_1_alg».proof.Proof.Gen.Kernel.Skeleton
import proofs.«120135_j66941360276307_1_alg».proof.Proof.Gen.Kernel.Points
import proofs.«120135_j66941360276307_1_alg».proof.Proof.KB.Cases1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter everything here is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated rows, of in-degree factors, the weight matrix, the bias row and the slope, at point `t`. -/
abbrev bx (c : Dev nD) (t : Fin cfg1.N) : Vec F S2000x256 .f32 := iblk V c 0 t
abbrev bn (c : Dev nD) (t : Fin cfg1.N) : Vec F S2000x1 .f32 := iblk V c 1 t
abbrev bw (c : Dev nD) (t : Fin cfg1.N) : Vec F S256x256 .f32 := iblk V c 2 t
abbrev bb (c : Dev nD) (t : Fin cfg1.N) : Vec F S1x256 .f32 := iblk V c 3 t
abbrev ba (c : Dev nD) (t : Fin cfg1.N) : Vec F S1x1 .f32 := iblk V c 4 t

/-- The output tile the body stores at point `t`. -/
def hblk (c : Dev nD) (t : Fin cfg1.N) : Vec F S2000x256 .f32 :=
  k1_pay2 (bx V c t) (bn V c t) (bw V c t) (bb V c t) (ba V c t)

/-- The running row of column sums as point `n` leaves it in the scratch buffer: the zero row plus the sums of
    tile 0 at the first point, the previous row plus the sums of tile `n` afterwards. -/
def acc (c : Dev nD) : (n : ℕ) → n < cfg1.N → Vec F S1x256 .f32
  | 0, h => k1_pay3 (bx V c ⟨0, h⟩) (bn V c ⟨0, h⟩) (bw V c ⟨0, h⟩) (bb V c ⟨0, h⟩) (ba V c ⟨0, h⟩) (k1_pay1 (F := F))
  | n + 1, h => k1_pay3 (bx V c ⟨n + 1, h⟩) (bn V c ⟨n + 1, h⟩) (bw V c ⟨n + 1, h⟩) (bb V c ⟨n + 1, h⟩) (ba V c ⟨n + 1, h⟩)
      (acc c n (Nat.lt_of_succ_lt h))

theorem acc_zero (c : Dev nD) (h : 0 < cfg1.N) :
    acc V c 0 h = k1_pay3 (bx V c ⟨0, h⟩) (bn V c ⟨0, h⟩) (bw V c ⟨0, h⟩) (bb V c ⟨0, h⟩) (ba V c ⟨0, h⟩) (k1_pay1 (F := F)) := rfl
theorem acc_succ (c : Dev nD) (n : ℕ) (h : n + 1 < cfg1.N) :
    acc V c (n + 1) h = k1_pay3 (bx V c ⟨n + 1, h⟩) (bn V c ⟨n + 1, h⟩) (bw V c ⟨n + 1, h⟩) (bb V c ⟨n + 1, h⟩) (ba V c ⟨n + 1, h⟩)
      (acc V c n (Nat.lt_of_succ_lt h)) := rfl

/-! ## The region's invariant and proof data -/

/-- Before point `n`: at the start the class invariant (the scratch row at anything); afterwards the scratch row at
    what the point before left, beside everything the body never touches. -/
def PhiS (c : Dev nD) : (n : ℕ) → n ≤ cfg1.N → sProp 𝕄
  | 0, _ => Pipeline.ΦA spec1 c
  | n + 1, hn => iprop(owns (c : Thread nD τ) scr fullShare (acc V c n hn) ∗ restI c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scr fullShare (acc V c n hn) ∗ restI c) := rfl
theorem PhiS_pos (c : Dev nD) (n : ℕ) (h : n ≤ cfg1.N) (hz : n ≠ 0) :
    PhiS V c n h = iprop(owns (c : Thread nD τ) scr fullShare (acc V c (n - 1) (by omega)) ∗ restI c) := by
  cases n with
  | zero => exact absurd rfl hz
  | succ n => rfl

/-- The proof data of the region on core `c`: the arrays as the region finds them; after the body at point `t` each
    input's buffer at its block, the first output's at the stored tile, the second output's at the running row (read only
    at the last point, where the body stores it); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hblk V c t
    | ⟨6, _⟩ => acc V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = hblk V c t := by dsimp only [dat]
theorem after_6 (c : Dev nD) (t : Fin cfg1.N) : (dat V c).after 6 t = acc V c t.val t.isLt := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body at one point, over any contents -/

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- The running row at the first point. -/
theorem acc_first (c : Dev nD) (t : Fin cfg1.N) (h : t.val = 0) :
    acc V c t.val t.isLt = k1_pay3 (bx V c t) (bn V c t) (bw V c t) (bb V c t) (ba V c t) (k1_pay1 (F := F)) := by
  obtain ⟨n, hn⟩ := t
  cases n with
  | zero => rfl
  | succ n => exact absurd h (Nat.succ_ne_zero n)

/-- The running row at a later point: the tile's column sums added to the row the point before left. -/
theorem acc_pos (c : Dev nD) (t : Fin cfg1.N) (h : t.val ≠ 0) :
    acc V c t.val t.isLt = k1_pay3 (bx V c t) (bn V c t) (bw V c t) (bb V c t) (ba V c t)
      (acc V c (t.val - 1) (Nat.lt_of_le_of_lt (Nat.sub_le _ _) t.isLt)) := by
  obtain ⟨n, hn⟩ := t
  cases n with
  | zero => exact absurd rfl h
  | succ n => rfl

/-- The first point, on the pipeline's current buffers at any contents: the scratch row found at anything is left
    at the tile's column sums over the zero row, the first output's buffer at the stored tile, and the second
    output's buffer as found. -/
theorem point_first {D0 D1 D2 D3 D4 D5 D6 : Type} (c : Dev nD) (t : Fin cfg1.N)
    (hf : cFirst (grid1.coords t)) (hl : ¬cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (O R : sProp 𝕄) :
    iprop(((∃ d, owns (c : Thread nD τ) scr fullShare d) ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 (k1_pay1 (F := F))) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ (∃ d, owns (c : Thread nD τ) (st1_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_first c Set.univ (grid1.coords t) (st1_0 t) _ (st1_1 t) _ (st1_2 t) _ (st1_3 t) _ (st1_4 t) _ (st1_5 t) _ (st1_6 t) _ scr (Memref.isWhole_whole _) hf hl x0 x1 x2 x3 x4 (Y6 d6) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- A middle point: the scratch row found at `xs` is left with the tile's column sums added, the first output's
    buffer at the stored tile, and the second output's buffer as found. -/
theorem point_mid {D0 D1 D2 D3 D4 D5 D6 : Type} (c : Dev nD) (t : Fin cfg1.N)
    (hf : ¬cFirst (grid1.coords t)) (hl : ¬cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 xs) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ (∃ d, owns (c : Thread nD τ) (st1_6 t) fullShare (Y6 d)))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_mid c Set.univ (grid1.coords t) (st1_0 t) _ (st1_1 t) _ (st1_2 t) _ (st1_3 t) _ (st1_4 t) _ (st1_5 t) _ (st1_6 t) _ scr (Memref.isWhole_whole _) hf hl x0 x1 x2 x3 x4 (Y6 d6) xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexists _; iexact H6

/-- The last point: as at a middle point, and the second output's buffer, found at anything, is left at the finished row. -/
theorem point_last {D0 D1 D2 D3 D4 D5 D6 : Type} (c : Dev nD) (t : Fin cfg1.N)
    (hf : ¬cFirst (grid1.coords t)) (hl : cLast (grid1.coords t))
    (x0 : Vec F S2000x256 .f32) (x1 : Vec F S2000x1 .f32) (x2 : Vec F S256x256 .f32) (x3 : Vec F S1x256 .f32) (x4 : Vec F S1x1 .f32)
    (Y5 : D5 → Vec F S2000x256 .f32) (Y6 : D6 → Vec F S1x256 .f32) (xs : Vec F S1x256 .f32) (O R : sProp 𝕄) :
    iprop((owns (c : Thread nD τ) scr fullShare xs ∗ R) ∗ O
        ∗ (∃ _d : D0, owns (c : Thread nD τ) (st1_0 t) fullShare x0)
        ∗ (∃ _d : D1, owns (c : Thread nD τ) (st1_1 t) fullShare x1)
        ∗ (∃ _d : D2, owns (c : Thread nD τ) (st1_2 t) fullShare x2)
        ∗ (∃ _d : D3, owns (c : Thread nD τ) (st1_3 t) fullShare x3)
        ∗ (∃ _d : D4, owns (c : Thread nD τ) (st1_4 t) fullShare x4)
        ∗ (∃ d, owns (c : Thread nD τ) (st1_5 t) fullShare (Y5 d))
        ∗ (∃ d, owns (c : Thread nD τ) (st1_6 t) fullShare (Y6 d)))
      ⊢ wp frame (wpE (defs₀ (F := F)) Variants.none c none) Set.univ (bodyAt1 t) (fun _ =>
        iprop((owns (c : Thread nD τ) scr fullShare (k1_pay3 x0 x1 x2 x3 x4 xs) ∗ R) ∗ O
          ∗ owns (c : Thread nD τ) (st1_0 t) fullShare x0
          ∗ owns (c : Thread nD τ) (st1_1 t) fullShare x1
          ∗ owns (c : Thread nD τ) (st1_2 t) fullShare x2
          ∗ owns (c : Thread nD τ) (st1_3 t) fullShare x3
          ∗ owns (c : Thread nD τ) (st1_4 t) fullShare x4
          ∗ owns (c : Thread nD τ) (st1_5 t) fullShare (k1_pay2 x0 x1 x2 x3 x4)
          ∗ owns (c : Thread nD τ) (st1_6 t) fullShare (k1_pay3 x0 x1 x2 x3 x4 xs))) := by
  iintro ⟨⟨HS, HR⟩, HO, ⟨%d0, H0⟩, ⟨%d1, H1⟩, ⟨%d2, H2⟩, ⟨%d3, H3⟩, ⟨%d4, H4⟩, ⟨%d5, H5⟩, ⟨%d6, H6⟩⟩
  iapply (body_last c Set.univ (grid1.coords t) (st1_0 t) _ (st1_1 t) _ (st1_2 t) _ (st1_3 t) _ (st1_4 t) _ (st1_5 t) _ (st1_6 t) _ scr (Memref.isWhole_whole _) hf hl x0 x1 x2 x3 x4 xs _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS HR]
  · isplitl [HS]; · iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- What the body is called with at point `t`: the invariant, what the core owes, and the windows' current buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 800000 in
/-- The body at any point. The inputs' buffers hold their blocks; the point's position decides which run applies:
    at the first point the invariant hands over the scratch row at anything, afterwards at the row the point before
    left; the scratch row is taken back at this point's row; the second output's buffer is handed back as found
    away from the last point and holds the finished row there; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live0 t], after_0]
  rw [show (dat V c).leavesExact 1 t = owns (c : Thread nD τ) (st1_1 t) fullShare ((dat V c).after 1 t) from by
    unfold Dat.leavesExact; rw [live1 t], after_1]
  rw [show (dat V c).leavesExact 2 t = owns (c : Thread nD τ) (st1_2 t) fullShare ((dat V c).after 2 t) from by
    unfold Dat.leavesExact; rw [live2 t], after_2]
  rw [show (dat V c).leavesExact 3 t = owns (c : Thread nD τ) (st1_3 t) fullShare ((dat V c).after 3 t) from by
    unfold Dat.leavesExact; rw [live3 t], after_3]
  rw [show (dat V c).leavesExact 4 t = owns (c : Thread nD τ) (st1_4 t) fullShare ((dat V c).after 4 t) from by
    unfold Dat.leavesExact; rw [live4 t], after_4]
  rw [show (dat V c).leavesExact 5 t = owns (c : Thread nD τ) (st1_5 t) fullShare ((dat V c).after 5 t) from by
    unfold Dat.leavesExact; rw [live5 t], after_5]
  unfold hblk
  have hN : t.val < 25 := lt_of_lt_of_eq t.isLt (show cfg1.N = 25 from N_1)
  by_cases hz : t.val = 0
  · have hf : cFirst (grid1.coords t) := (cFirst_iff t).mpr hz
    have hl : ¬cLast (grid1.coords t) := fun h => by have := (cLast_iff t).mp h; omega
    rw [Dat.leavesExact_idle (dat V c) 6 t (idle6 t hl) (noFlush6 t hl)]
    rw [PhiS_castSucc, PhiS_zero V c _ _ hz, PhiA_eq, acc_first V c t hz]
    exact point_first c t hf hl (bx V c t) (bn V c t) (bw V c t) (bb V c t) (ba V c t) _ _ _ _
  · have hf : ¬cFirst (grid1.coords t) := fun h => hz ((cFirst_iff t).mp h)
    rw [PhiS_castSucc, PhiS_pos V c _ _ hz, acc_pos V c t hz]
    by_cases hz' : t.val = 24
    · have hl : cLast (grid1.coords t) := (cLast_iff t).mpr hz'
      rw [show (dat V c).leavesExact 6 t = owns (c : Thread nD τ) (st1_6 t) fullShare ((dat V c).after 6 t) from by
        unfold Dat.leavesExact; rw [live6 t hl], after_6, acc_pos V c t hz]
      exact point_last c t hf hl (bx V c t) (bn V c t) (bw V c t) (bb V c t) (ba V c t) _ _ _ _ _
    · have hl : ¬cLast (grid1.coords t) := fun h => hz' ((cLast_iff t).mp h)
      rw [Dat.leavesExact_idle (dat V c) 6 t (idle6 t hl) (noFlush6 t hl)]
      exact point_mid c t hf hl (bx V c t) (bn V c t) (bw V c t) (bb V c t) (ba V c t) _ _ _ _ _

/-- The library's body obligation, at every point: the case the point is in decides which of the three runs applies. -/
theorem body_obligation (c : Dev nD) :
    BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]

/-- After any point but the first the invariant gives the class invariant back: the scratch row's contents are forgotten. -/
theorem Phi_out (c : Dev nD) (t : Fin (cfg1.N + 1)) (ht : t.val ≠ 0) :
    (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨HS, HR⟩
  isplitl [HS]
  · iexists _; iexact HS
  iexact HR

/-- After the last point the invariant gives the class invariant back: the scratch row's contents are forgotten. -/
theorem hout (c : Dev nD) : (dat V c).Φ (Fin.last cfg1.N) ⊢ (Pipeline.ΦA spec1 c : sProp 𝕄) :=
  Phi_out V c _ (by rw [Fin.val_last]; have : cfg1.N = 25 := N_1; omega)

end Cert.Kernel.Reg1

end
-- ==== Proof.KB.Run.lean ====
/- The whole program: host operations, the first graph-convolution epilogue, host operations, the second epilogue, and the
   closing concatenation, run from the launch memory. The buffers' contents are followed boundary by boundary; each
   pallas_call is entered with every unscoped buffer at the boundary's contents and left with its two output arrays at
   what its write-backs leave; the arguments are written by nothing. -/
import proofs.«120135_j66941360276307_1_alg».proof.Proof.Gen.Kernel.Launch
import proofs.«120135_j66941360276307_1_alg».proof.Proof.Gen.Kernel.Skeleton
import proofs.«120135_j66941360276307_1_alg».proof.Proof.Gen.Kernel.Points
import proofs.«120135_j66941360276307_1_alg».proof.Proof.KB.Data0
import proofs.«120135_j66941360276307_1_alg».proof.Proof.KB.Data1
import proofs.«120135_j66941360276307_1_alg».proof.Proof.Gen.Kernel.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold from the launch memory -/

/-- Core `c`'s buffers at launch. -/
abbrev W0 : Dev nD → Valuation τ sig (Elt F) := fun c b => m (c, b)
/-- After the host operations before the first pallas_call. -/
abbrev W1 : Dev nD → Valuation τ sig (Elt F) := fun c => StableHlo.after hostOps0 (W0 m c)
/-- The same read at the TensorCore's references: what the first region is entered from. -/
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Reg0.dat (V1 m) c).arrAt w cfg0.N
abbrev V2 : (c : Dev nD) → (b : Ref sig .tc) → Buf (Elt F) ((c : Thread nD τ).loc b) := fun c b => W2 m c b
/-- After the host operations between the two pallas_calls. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (Reg1.dat (V3 m) c).arrAt w cfg1.N
abbrev V4 : (c : Dev nD) → (b : Ref sig .tc) → Buf (Elt F) ((c : Thread nD τ).loc b) := fun c b => W4 m c b
/-- After the closing concatenation: the contents the program returns with. -/
abbrev W5 : Dev nD → Valuation τ sig (Elt F) := fun c => StableHlo.after hostOps2 (W4 m c)

/-! ## What each region leaves: its arrays at what its write-backs leave, every other buffer as entered -/

theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each stretch of host operations leaves: every reference it does not write, as it was -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- A reference that no host operation writes and that is no region's array ends as launched. -/
theorem W5_of_bypass (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  calc W5 m c (Proc.devRef .tc r)
    _ = W4 m c (Proc.devRef .tc r) := W5_of m c r h2
    _ = W3 m c (Proc.devRef .tc r) := W4_of_ne m c r hw1
    _ = W2 m c (Proc.devRef .tc r) := W3_of m c r h1
    _ = W1 m c (Proc.devRef .tc r) := W2_of_ne m c r hw0
    _ = W0 m c (Proc.devRef .tc r) := W1_of m c r h0
    _ = m ((c : Thread nD τ).loc r) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment: run over the unscoped buffers from the contents W, R riding along;
    it ends with those buffers at the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region over the thread state: entered from every unscoped buffer at W1, left at W2. Its arrays are split
    out of the unscoped buffers and put back at the exit contents; the generator register and the scoped buffers go
    into the region's invariant at the first point and come back out of it at the last; nothing owed; no semaphore of
    the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (V1 m) c).Φ 0 from rfl]
    refine BIBase.Entails.trans ?_ (Reg0.hin (V1 m) c)
    unfold Pipeline.ΦA
    iintro ⟨Hp, -, Hr⟩
    isplitl [Hr]; · iexact Hr
    iexact Hp
  hout c := by
    rw [Pipeline.ownSems0_none, show (pdats m 0 c).Φ (Fin.last _) = (Reg0.dat (V1 m) c).Φ (Fin.last _) from rfl]
    refine BIBase.Entails.trans (Reg0.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V3 m) c).Φ 0 from rfl]
    refine BIBase.Entails.trans ?_ (Reg1.hin (V3 m) c)
    unfold Pipeline.ΦA
    iintro ⟨Hp, -, Hr⟩
    isplitl [Hr]; · iexact Hr
    iexact Hp
  hout c := by
    rw [Pipeline.ownSems0_none, show (pdats m 1 c).Φ (Fin.last _) = (Reg1.dat (V3 m) c).Φ (Fin.last _) from rfl]
    refine BIBase.Entails.trans (Reg1.hout (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: each stretch of host operations from its boundary's contents, each
    pallas_call a region. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-! ## The run -/

set_option backward.isDefEq.respectTransparency.types false in
/-- Every weakly fair execution of @main from memory `m` with zero counters terminates, and every final memory holds
    every unscoped buffer at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The last boundary read at the arguments and at the results -/

theorem W5_arg0 (c : Dev nD) : W5 m c (Proc.devRef .tc main_arg0) = m ((c : Thread nD τ).loc main_arg0) :=
  W5_of_bypass m c main_arg0 (by decide) (by decide) (by decide) (by decide) (by decide)
theorem W5_arg1 (c : Dev nD) : W5 m c (Proc.devRef .tc main_arg1) = m ((c : Thread nD τ).loc main_arg1) :=
  W5_of_bypass m c main_arg1 (by decide) (by decide) (by decide) (by decide) (by decide)
theorem W5_arg2 (c : Dev nD) : W5 m c (Proc.devRef .tc main_arg2) = m ((c : Thread nD τ).loc main_arg2) :=
  W5_of_bypass m c main_arg2 (by decide) (by decide) (by decide) (by decide) (by decide)
/-- The first region reads its weight matrix through an input window: an input's array is left as entered. -/
theorem W5_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) :=
        (W2_arr m c 2).trans (((Reg0.dat (V1 m) c).arrAt_in 2 rfl _).trans (Reg0.A_eq (V1 m) c 2))
    _ = W0 m c (Proc.devRef .tc main_arg3) := W1_of m c main_arg3 (by decide)
    _ = m ((c : Thread nD τ).loc main_arg3) := rfl
theorem W5_arg4 (c : Dev nD) : W5 m c (Proc.devRef .tc main_arg4) = m ((c : Thread nD τ).loc main_arg4) :=
  W5_of_bypass m c main_arg4 (by decide) (by decide) (by decide) (by decide) (by decide)
/-- The second region reads its weight matrix through an input window. -/
theorem W5_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) :=
        (W4_arr m c 2).trans (((Reg1.dat (V3 m) c).arrAt_in 2 rfl _).trans (Reg1.A_eq (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_arg6 (c : Dev nD) : W5 m c (Proc.devRef .tc main_arg6) = m ((c : Thread nD τ).loc main_arg6) :=
  W5_of_bypass m c main_arg6 (by decide) (by decide) (by decide) (by decide) (by decide)
theorem W5_arg7 (c : Dev nD) : W5 m c (Proc.devRef .tc main_arg7) = m ((c : Thread nD τ).loc main_arg7) :=
  W5_of_bypass m c main_arg7 (by decide) (by decide) (by decide) (by decide) (by decide)

/-- The first result is the second region's first output array as its write-backs leave it. -/
theorem W5_res0 (c : Dev nD) : W5 m c (Proc.devRef .tc main_v54_0) = (Reg1.dat (V3 m) c).arrAt 5 cfg1.N :=
  (W5_of m c main_v54_0 (by decide)).trans (W4_arr m c 5)

/-- The second result is the two regions' rows of column sums, side by side. -/
theorem W5_res1 (c : Dev nD) :
    W5 m c (Proc.devRef .tc main_v55)
      = concatenate S1x512 1 [⟨S1x256, (Reg0.dat (V1 m) c).arrAt 6 cfg0.N⟩, ⟨S1x256, (Reg1.dat (V3 m) c).arrAt 6 cfg1.N⟩]
          concatenates_S1x256_S1x256_S1x512_d1 := by
  have h0 : W4 m c (Proc.devRef .tc main_v39_1) = (Reg0.dat (V1 m) c).arrAt 6 cfg0.N :=
    (W4_of_ne m c main_v39_1 (by decide)).trans ((W3_of m c main_v39_1 (by decide)).trans (W2_arr m c 6))
  have h1 : W4 m c (Proc.devRef .tc main_v54_1) = (Reg1.dat (V3 m) c).arrAt 6 cfg1.N := W4_arr m c 6
  show StableHlo.after hostOps2 (W4 m c) (Proc.devRef .tc main_v55) = _
  after_results
  rw [h0, h1]

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, nothing faults, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W5_arg0 m c),
    (h c _ (mem_uc main_arg1 (by decide))).trans (W5_arg1 m c),
    (h c _ (mem_uc main_arg2 (by decide))).trans (W5_arg2 m c),
    (h c _ (mem_uc main_arg3 (by decide))).trans (W5_arg3 m c),
    (h c _ (mem_uc main_arg4 (by decide))).trans (W5_arg4 m c),
    (h c _ (mem_uc main_arg5 (by decide))).trans (W5_arg5 m c),
    (h c _ (mem_uc main_arg6 (by decide))).trans (W5_arg6 m c),
    (h c _ (mem_uc main_arg7 (by decide))).trans (W5_arg7 m c)⟩)
    (run_main m ρ)

end Cert.Kernel.Run

end
-- ==== Proof.KI.Spec.lean ====
/- The two graph-convolution epilogues as functions of whole arrays. One epilogue takes the aggregated rows `agg`
   (50000 × 256), the in-degree factors `nd` (50000 × 1), a weight matrix, a bias row and a slope, and produces, tile of 2000
   rows by tile, `prelu((agg · nd) W + b)`; beside it a row of column sums is built up tile by tile. Here the tile-wise
   description is laid out over the whole array: row `r` of the result is row `r % 2000` of tile `r / 2000`. -/
import proofs.«120135_j66941360276307_1_alg».proof.Proof.Gen.KernelIdeal.Skeleton
import Idealize.ShloMosaic.Lib.ValueIdx

noncomputable section

namespace Cert.KernelIdeal.Spec

open Cert.KernelIdeal Cert.KernelIdeal.Gen
open Idealize.ShloMosaic Idealize.ShloMosaic.ValueIdx Idealize.SL.Sem

variable {F : FTy → Type} [FloatOps F]

/-- Row `2000 t + r` of a 50000-row array is a row of the array. -/
theorem row_lt (t : Fin 25) (r : Fin 2000) : 2000 * t.val + r.val < 50000 := by
  have := t.isLt; have := r.isLt; omega

/-- Tile `t` (rows `2000 t … 2000 t + 1999`) of a 50000 × 256 array. -/
def tile256 (x : Vec F S50000x256 .f32) (t : Fin 25) : Vec F S2000x256 .f32 :=
  fun y => x (ix2 (⟨2000 * t.val + (y 0).val, row_lt t (y 0)⟩ : Fin 50000) (y 1))

/-- Tile `t` of a 50000 × 1 column. -/
def tile1 (x : Vec F S50000x1 .f32) (t : Fin 25) : Vec F S2000x1 .f32 :=
  fun y => x (ix2 (⟨2000 * t.val + (y 0).val, row_lt t (y 0)⟩ : Fin 50000) (y 1))

/-! The body's three stored values under names that do not say which of the two pallas_calls they were printed for: the
    zero row, the output tile as a function of the point's five input blocks, and the running row with a tile's column
    sums added. The two calls' bodies are the same text, so each call's own names unfold to these. -/
abbrev payZero : FVec F S1x256 .f32 := k0_pay1
abbrev payTile (x : Vec F S2000x256 .f32) (n : Vec F S2000x1 .f32) (W : Vec F S256x256 .f32) (b2 : Vec F S1x256 .f32)
    (a2 : Vec F S1x1 .f32) : FVec F S2000x256 .f32 := k0_pay2 x n W b2 a2
abbrev payRow (x : Vec F S2000x256 .f32) (n : Vec F S2000x1 .f32) (W : Vec F S256x256 .f32) (b2 : Vec F S1x256 .f32)
    (a2 : Vec F S1x1 .f32) (s : Vec F S1x256 .f32) : FVec F S1x256 .f32 := k0_pay3 x n W b2 a2 s
theorem k0_pay1_eq : (k0_pay1 (F := F)) = payZero := rfl
theorem k1_pay1_eq : (k1_pay1 (F := F)) = payZero := rfl
theorem k0_pay2_eq (x : Vec F S2000x256 .f32) (n : Vec F S2000x1 .f32) (W : Vec F S256x256 .f32) (b2 : Vec F S1x256 .f32)
    (a2 : Vec F S1x1 .f32) : k0_pay2 x n W b2 a2 = payTile x n W b2 a2 := rfl
theorem k1_pay2_eq (x : Vec F S2000x256 .f32) (n : Vec F S2000x1 .f32) (W : Vec F S256x256 .f32) (b2 : Vec F S1x256 .f32)
    (a2 : Vec F S1x1 .f32) : k1_pay2 x n W b2 a2 = payTile x n W b2 a2 := rfl
theorem k0_pay3_eq (x : Vec F S2000x256 .f32) (n : Vec F S2000x1 .f32) (W : Vec F S256x256 .f32) (b2 : Vec F S1x256 .f32)
    (a2 : Vec F S1x1 .f32) (s : Vec F S1x256 .f32) : k0_pay3 x n W b2 a2 s = payRow x n W b2 a2 s := rfl
theorem k1_pay3_eq (x : Vec F S2000x256 .f32) (n : Vec F S2000x1 .f32) (W : Vec F S256x256 .f32) (b2 : Vec F S1x256 .f32)
    (a2 : Vec F S1x1 .f32) (s : Vec F S1x256 .f32) : k1_pay3 x n W b2 a2 s = payRow x n W b2 a2 s := rfl

/-- The output tile `t` of one epilogue: the stored value of the body at the point's blocks. -/
def layerTile (agg : Vec F S50000x256 .f32) (nd : Vec F S50000x1 .f32) (W : Vec F S256x256 .f32) (b2 : Vec F S1x256 .f32)
    (a2 : Vec F S1x1 .f32) (t : Fin 25) : Vec F S2000x256 .f32 :=
  payTile (tile256 agg t) (tile1 nd t) W b2 a2

/-- The whole output array of one epilogue: row `r` is row `r % 2000` of tile `r / 2000`. -/
def layerArr (agg : Vec F S50000x256 .f32) (nd : Vec F S50000x1 .f32) (W : Vec F S256x256 .f32) (b2 : Vec F S1x256 .f32)
    (a2 : Vec F S1x1 .f32) : Vec F S50000x256 .f32 :=
  fun i => layerTile agg nd W b2 a2 (⟨(i 0).val / 2000, by have := idx2_lt0 i; omega⟩ : Fin 25)
    (ix2 (⟨(i 0).val % 2000, Nat.mod_lt _ (by decide)⟩ : Fin 2000) (i 1))

/-- The running row of column sums after tile `n`: the zero row plus tile 0's column sums, then each later tile's added. -/
def sumRow (agg : Vec F S50000x256 .f32) (nd : Vec F S50000x1 .f32) (W : Vec F S256x256 .f32) (b2 : Vec F S1x256 .f32)
    (a2 : Vec F S1x1 .f32) : (n : ℕ) → n < 25 → Vec F S1x256 .f32
  | 0, h => payRow (tile256 agg ⟨0, h⟩) (tile1 nd ⟨0, h⟩) W b2 a2 payZero
  | n + 1, h => payRow (tile256 agg ⟨n + 1, h⟩) (tile1 nd ⟨n + 1, h⟩) W b2 a2 (sumRow agg nd W b2 a2 n (Nat.lt_of_succ_lt h))

end Cert.KernelIdeal.Spec

end
-- ==== Proof.KI.Value0.lean ====
/- What the first graph-convolution epilogue leaves in its two output arrays, as functions of the arrays it was entered
   with: the tiles written back point by point make up the whole layer output, and the row written back at the last point
   is the running row of column sums. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import proofs.«120135_j66941360276307_1_alg».proof.Proof.KI.Data0
import proofs.«120135_j66941360276307_1_alg».proof.Proof.KI.Spec
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the contents of the core's buffers when the region is entered
variable (V : (c : Dev nD) → (b : Ref sig .tc) → Buf (Elt F) ((c : Thread nD τ).loc b))

/-! ## The index maps over the grid -/

/-- The row-tiled windows (the aggregated rows, the in-degree column, the first output) sit at block `(t, 0)`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0))

/-- The whole-array windows (weights, bias, slope, the row of sums) sit at block `(0, 0)`. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_6.index t (0 : Fin 2) = 0 ∧ win0_6.index t (1 : Fin 2) = 0) :=
  (by decide +kernel : ∀ t : Fin grid0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_6.index t (0 : Fin 2) = 0 ∧ win0_6.index t (1 : Fin 2) = 0))

/-! ## The input blocks, read off the arrays -/

theorem bx_eq (c : Dev nD) (t : Fin cfg0.N) : bx V c t = Spec.tile256 (V c main_v36) t := by
  funext y
  show V c main_v36 (((cfg0.win 0).blk t).view.emb y) = V c main_v36 _
  refine congrArg (V c main_v36) ?_
  funext a; apply Fin.ext
  obtain ⟨⟨e0, e1⟩, -, -⟩ := idx_rows t
  match a with
  | ⟨0, _⟩ =>
    show win0_0.index t (0 : Fin 2) * 2000 + 1 * (y 0).val = 2000 * t.val + (y 0).val
    rw [e0]; omega
  | ⟨1, _⟩ =>
    show win0_0.index t (1 : Fin 2) * 256 + 1 * (y 1).val = (y 1).val
    rw [e1]; omega

theorem bn_eq (c : Dev nD) (t : Fin cfg0.N) : bn V c t = Spec.tile1 (V c main_v24) t := by
  funext y
  show V c main_v24 (((cfg0.win 1).blk t).view.emb y) = V c main_v24 _
  refine congrArg (V c main_v24) ?_
  funext a; apply Fin.ext
  obtain ⟨-, ⟨e0, e1⟩, -⟩ := idx_rows t
  match a with
  | ⟨0, _⟩ =>
    show win0_1.index t (0 : Fin 2) * 2000 + 1 * (y 0).val = 2000 * t.val + (y 0).val
    rw [e0]; omega
  | ⟨1, _⟩ =>
    show win0_1.index t (1 : Fin 2) * 1 + 1 * (y 1).val = (y 1).val
    rw [e1]; omega

theorem bw_eq (c : Dev nD) (t : Fin cfg0.N) : bw V c t = V c main_arg3 := by
  funext y
  show V c main_arg3 (((cfg0.win 2).blk t).view.emb y) = V c main_arg3 y
  refine congrArg (V c main_arg3) ?_
  funext a; apply Fin.ext
  obtain ⟨⟨e0, e1⟩, -, -, -⟩ := idx_whole t
  match a with
  | ⟨0, _⟩ =>
    show win0_2.index t (0 : Fin 2) * 256 + 1 * (y 0).val = (y 0).val
    rw [e0]; omega
  | ⟨1, _⟩ =>
    show win0_2.index t (1 : Fin 2) * 256 + 1 * (y 1).val = (y 1).val
    rw [e1]; omega

theorem bb_eq (c : Dev nD) (t : Fin cfg0.N) : bb V c t = V c main_v37 := by
  funext y
  show V c main_v37 (((cfg0.win 3).blk t).view.emb y) = V c main_v37 y
  refine congrArg (V c main_v37) ?_
  funext a; apply Fin.ext
  obtain ⟨-, ⟨e0, e1⟩, -, -⟩ := idx_whole t
  match a with
  | ⟨0, _⟩ =>
    show win0_3.index t (0 : Fin 2) * 1 + 1 * (y 0).val = (y 0).val
    rw [e0]; omega
  | ⟨1, _⟩ =>
    show win0_3.index t (1 : Fin 2) * 256 + 1 * (y 1).val = (y 1).val
    rw [e1]; omega

theorem ba_eq (c : Dev nD) (t : Fin cfg0.N) : ba V c t = V c main_v38 := by
  funext y
  show V c main_v38 (((cfg0.win 4).blk t).view.emb y) = V c main_v38 y
  refine congrArg (V c main_v38) ?_
  funext a; apply Fin.ext
  obtain ⟨-, -, ⟨e0, e1⟩, -⟩ := idx_whole t
  match a with
  | ⟨0, _⟩ =>
    show win0_4.index t (0 : Fin 2) * 1 + 1 * (y 0).val = (y 0).val
    rw [e0]; omega
  | ⟨1, _⟩ =>
    show win0_4.index t (1 : Fin 2) * 1 + 1 * (y 1).val = (y 1).val
    rw [e1]; omega

/-! ## The first output: from tiles to the array -/

/-- The layer array at row `2000 t + r`, column `k`, is tile `t` of the epilogue at `(r, k)`. -/
theorem layerArr_apply (agg : Vec F S50000x256 .f32) (nd : Vec F S50000x1 .f32) (W : Vec F S256x256 .f32)
    (b2 : Vec F S1x256 .f32) (a2 : Vec F S1x1 .f32) (t : Fin 25) (r : Fin 2000) (k : Fin 256) (i : S50000x256.Idx)
    (hi0 : (i 0).val = 2000 * t.val + r.val) (hi1 : (i 1).val = k.val) :
    Spec.layerArr agg nd W b2 a2 i = Spec.payTile (Spec.tile256 agg t) (Spec.tile1 nd t) W b2 a2 (ix2 r k) := by
  have e1 : (i 0).val / 2000 = t.val := by rw [hi0]; have := r.isLt; omega
  have e2 : (i 0).val % 2000 = r.val := by rw [hi0]; have := r.isLt; omega
  have ht : ∀ h : (i 0).val / 2000 < 25, (⟨(i 0).val / 2000, h⟩ : Fin 25) = t := fun h => Fin.ext e1
  have hr : ∀ h : (i 0).val % 2000 < 2000, (⟨(i 0).val % 2000, h⟩ : Fin 2000) = r := fun h => Fin.ext e2
  have hk : i 1 = k := Fin.ext hi1
  unfold Spec.layerArr Spec.layerTile
  rw [ht, hr, hk]

/-- WHAT POINT `t` WRITES BACK to the first output is block `t` of the layer array of the entry contents. -/
theorem flushed5_eq (c : Dev nD) (t : Fin cfg0.N) :
    (dat V c).flushed 5 t = ((cfg0.win 5).blk t).view.read (Elt F)
      (Spec.layerArr (F := F) (V c main_v36) (V c main_v24) (V c main_arg3) (V c main_v37) (V c main_v38)) := by
  show (cfg0.win 5).cut (grid0.coords t) ((dat V c).after 5 t) = _
  rw [after_5]
  unfold hblk
  rw [Spec.k0_pay2_eq, bx_eq, bn_eq, bw_eq, bb_eq, ba_eq]
  obtain ⟨-, -, ⟨e0, e1⟩⟩ := idx_rows t
  funext y
  show Spec.payTile (Spec.tile256 (V c main_v36) t) (Spec.tile1 (V c main_v24) t) (V c main_arg3) (V c main_v37) (V c main_v38)
      ((cfg0.win 5).xinj (grid0.coords t) y)
    = Spec.layerArr (V c main_v36) (V c main_v24) (V c main_arg3) (V c main_v37) (V c main_v38) (((cfg0.win 5).blk t).view.emb y)
  have h0 : ((((cfg0.win 5).blk t).view.emb y) 0).val = 2000 * t.val + (y 0).val := by
    show win0_5.index t (0 : Fin 2) * 2000 + 1 * (y 0).val = 2000 * t.val + (y 0).val
    rw [e0]; omega
  have h1 : ((((cfg0.win 5).blk t).view.emb y) 1).val = (y 1).val := by
    show win0_5.index t (1 : Fin 2) * 256 + 1 * (y 1).val = (y 1).val
    rw [e1]; omega
  rw [layerArr_apply _ _ _ _ _ t (y 0) (y 1) _ h0 h1]
  refine congrArg _ ?_
  funext a
  match a with
  | ⟨0, _⟩ => rfl
  | ⟨1, _⟩ => rfl

/-- An index of the first output's array is in point `t`'s block iff each coordinate is in the block's range on its axis. -/
theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v39_0).slice (win0_5.rect t)).set ↔ _
  rw [View.set_slice_whole, Rect.mem_set_unit]
  exact Iff.rfl

/-- Row `r` of the first output's array is in the block of point `r / 2000`. -/
theorem cover5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have hq : (i 0).val / 2000 < cfg0.N := by rw [hN]; omega
  obtain ⟨-, -, ⟨e0, e1⟩⟩ := idx_rows ⟨(i 0).val / 2000, hq⟩
  refine ⟨⟨(i 0).val / 2000, hq⟩, flush0_5 _, ?_⟩
  rw [mem_blk5]
  intro a
  match a with
  | ⟨0, _⟩ =>
    show win0_5.index ⟨(i 0).val / 2000, hq⟩ (0 : Fin 2) * 2000 ≤ (i 0).val
      ∧ (i 0).val < win0_5.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hq⟩ (1 : Fin 2) * 256 ≤ (i 1).val
      ∧ (i 1).val < win0_5.index ⟨(i 0).val / 2000, hq⟩ (1 : Fin 2) * 256 + 256
    rw [e1]
    omega

/-- THE FIRST OUTPUT ARRAY after the region. Every point writes its tile back, the 25 tiles cover the 50000 rows, and tile
    `t` is the body's stored value at the point's blocks — the rows `2000 t …` of the aggregated array and of the in-degree
    column, the whole weight matrix, bias row and slope —: so the array is the epilogue laid out over the whole array. -/
theorem arr5_eq (c : Dev nD) :
    (dat V c).arrAt 5 cfg0.N
      = Spec.layerArr (F := F) (V c main_v36) (V c main_v24) (V c main_arg3) (V c main_v37) (V c main_v38) :=
  (dat V c).arrAt_eq_of_cover 5 _ (fun t _ => flushed5_eq V c t) cover5

/-! ## The second output: the running row, written back once -/

/-- The running row the scratch buffer carries after point `n` is the row of column sums of the tiles `0 … n`. -/
theorem acc_eq (c : Dev nD) : ∀ (n : ℕ) (h : n < cfg0.N),
    acc V c n h
      = Spec.sumRow (F := F) (V c main_v36) (V c main_v24) (V c main_arg3) (V c main_v37) (V c main_v38) n h
  | 0, h => by
    rw [acc_zero, Spec.k0_pay3_eq, Spec.k0_pay1_eq, bx_eq, bn_eq, bw_eq, bb_eq, ba_eq]
    rfl
  | n + 1, h => by
    rw [acc_succ, Spec.k0_pay3_eq, bx_eq, bn_eq, bw_eq, bb_eq, ba_eq, acc_eq c n (Nat.lt_of_succ_lt h)]
    rfl

/-- The one write-back of the second output, at the last point, writes the row of column sums of all 25 tiles. -/
theorem flushed6_eq (c : Dev nD) (t : Fin cfg0.N) (hf : (cfg0.win 6).flush t = true) :
    (dat V c).flushed 6 t = ((cfg0.win 6).blk t).view.read (Elt F)
      (Spec.sumRow (F := F) (V c main_v36) (V c main_v24) (V c main_arg3) (V c main_v37) (V c main_v38) 24 (by decide)) := by
  have hN : cfg0.N = 25 := N_0
  have h24 : t.val = 24 := by have := (flush0_6 t).mp hf; have := t.isLt; omega
  have same : ∀ (n : ℕ) (h : n < 25), n = 24 →
      Spec.sumRow (F := F) (V c main_v36) (V c main_v24) (V c main_arg3) (V c main_v37) (V c main_v38) n h
        = Spec.sumRow (F := F) (V c main_v36) (V c main_v24) (V c main_arg3) (V c main_v37) (V c main_v38) 24 (by decide) :=
    fun n h e => by subst e; rfl
  show (cfg0.win 6).cut (grid0.coords t) ((dat V c).after 6 t) = _
  rw [after_6, acc_eq, same t.val t.isLt h24]
  obtain ⟨-, -, -, ⟨e0, e1⟩⟩ := idx_whole t
  funext y
  show Spec.sumRow (F := F) (V c main_v36) (V c main_v24) (V c main_arg3) (V c main_v37) (V c main_v38) 24 (by decide)
      ((cfg0.win 6).xinj (grid0.coords t) y)
    = Spec.sumRow (F := F) (V c main_v36) (V c main_v24) (V c main_arg3) (V c main_v37) (V c main_v38) 24 (by decide)
      (((cfg0.win 6).blk t).view.emb y)
  refine congrArg _ ?_
  funext a; apply Fin.ext
  match a with
  | ⟨0, _⟩ =>
    show (y 0).val = win0_6.index t (0 : Fin 2) * 1 + 1 * (y 0).val
    rw [e0]; omega
  | ⟨1, _⟩ =>
    show (y 1).val = win0_6.index t (1 : Fin 2) * 256 + 1 * (y 1).val
    rw [e1]; omega

/-- An index of the second output's array is in point `t`'s block iff each coordinate is in the block's range on its axis. -/
theorem mem_blk6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v39_1).slice (win0_6.rect t)).set ↔ _
  rw [View.set_slice_whole, Rect.mem_set_unit]
  exact Iff.rfl

/-- The last point's block is the whole row. -/
theorem cover6 (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  have hN : cfg0.N = 25 := N_0
  have h24 : 24 < cfg0.N := by rw [hN]; omega
  obtain ⟨-, -, -, ⟨e0, e1⟩⟩ := idx_whole ⟨24, h24⟩
  refine ⟨⟨24, h24⟩, (flush0_6 _).mpr rfl, ?_⟩
  rw [mem_blk6]
  intro a
  match a with
  | ⟨0, _⟩ =>
    show win0_6.index ⟨24, h24⟩ (0 : Fin 2) * 1 ≤ (i 0).val ∧ (i 0).val < win0_6.index ⟨24, h24⟩ (0 : Fin 2) * 1 + 1
    rw [e0]; omega
  | ⟨1, _⟩ =>
    show win0_6.index ⟨24, h24⟩ (1 : Fin 2) * 256 ≤ (i 1).val ∧ (i 1).val < win0_6.index ⟨24, h24⟩ (1 : Fin 2) * 256 + 256
    rw [e1]; omega

/-- THE SECOND OUTPUT ARRAY after the region. Only the last point writes it back, whole, and what it writes is the running
    row of column sums after the last tile. -/
theorem arr6_eq (c : Dev nD) :
    (dat V c).arrAt 6 cfg0.N
      = Spec.sumRow (F := F) (V c main_v36) (V c main_v24) (V c main_arg3) (V c main_v37) (V c main_v38) 24 (by decide) :=
  (dat V c).arrAt_eq_of_cover 6 _ (flushed6_eq V c) cover6

end Cert.KernelIdeal.Reg0

end
-- ==== Proof.KI.Value1.lean ====
/- What the second graph-convolution epilogue leaves in its two output arrays, as functions of the arrays it was entered
   with: the tiles written back point by point make up the whole layer output, and the row written back at the last point
   is the running row of column sums. -/
import proofs.«120135_j66941360276307_1_alg».proof.Proof.Gen.KernelIdeal.Launch
import proofs.«120135_j66941360276307_1_alg».proof.Proof.Gen.KernelIdeal.Skeleton
import proofs.«120135_j66941360276307_1_alg».proof.Proof.Gen.KernelIdeal.Points
import proofs.«120135_j66941360276307_1_alg».proof.Proof.KI.Data1
import proofs.«120135_j66941360276307_1_alg».proof.Proof.KI.Spec
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the contents of the core's buffers when the region is entered
variable (V : (c : Dev nD) → (b : Ref sig .tc) → Buf (Elt F) ((c : Thread nD τ).loc b))

/-! ## The index maps over the grid -/

/-- The row-tiled windows (the aggregated rows, the in-degree column, the first output) sit at block `(t, 0)`. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0) :=
  (by decide +kernel : ∀ t : Fin grid1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0))

/-- The whole-array windows (weights, bias, slope, the row of sums) sit at block `(0, 0)`. -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_6.index t (0 : Fin 2) = 0 ∧ win1_6.index t (1 : Fin 2) = 0) :=
  (by decide +kernel : ∀ t : Fin grid1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_6.index t (0 : Fin 2) = 0 ∧ win1_6.index t (1 : Fin 2) = 0))

/-! ## The input blocks, read off the arrays -/

theorem bx_eq (c : Dev nD) (t : Fin cfg1.N) : bx V c t = Spec.tile256 (V c main_v51) t := by
  funext y
  show V c main_v51 (((cfg1.win 0).blk t).view.emb y) = V c main_v51 _
  refine congrArg (V c main_v51) ?_
  funext a; apply Fin.ext
  obtain ⟨⟨e0, e1⟩, -, -⟩ := idx_rows t
  match a with
  | ⟨0, _⟩ =>
    show win1_0.index t (0 : Fin 2) * 2000 + 1 * (y 0).val = 2000 * t.val + (y 0).val
    rw [e0]; omega
  | ⟨1, _⟩ =>
    show win1_0.index t (1 : Fin 2) * 256 + 1 * (y 1).val = (y 1).val
    rw [e1]; omega

theorem bn_eq (c : Dev nD) (t : Fin cfg1.N) : bn V c t = Spec.tile1 (V c main_v24) t := by
  funext y
  show V c main_v24 (((cfg1.win 1).blk t).view.emb y) = V c main_v24 _
  refine congrArg (V c main_v24) ?_
  funext a; apply Fin.ext
  obtain ⟨-, ⟨e0, e1⟩, -⟩ := idx_rows t
  match a with
  | ⟨0, _⟩ =>
    show win1_1.index t (0 : Fin 2) * 2000 + 1 * (y 0).val = 2000 * t.val + (y 0).val
    rw [e0]; omega
  | ⟨1, _⟩ =>
    show win1_1.index t (1 : Fin 2) * 1 + 1 * (y 1).val = (y 1).val
    rw [e1]; omega

theorem bw_eq (c : Dev nD) (t : Fin cfg1.N) : bw V c t = V c main_arg5 := by
  funext y
  show V c main_arg5 (((cfg1.win 2).blk t).view.emb y) = V c main_arg5 y
  refine congrArg (V c main_arg5) ?_
  funext a; apply Fin.ext
  obtain ⟨⟨e0, e1⟩, -, -, -⟩ := idx_whole t
  match a with
  | ⟨0, _⟩ =>
    show win1_2.index t (0 : Fin 2) * 256 + 1 * (y 0).val = (y 0).val
    rw [e0]; omega
  | ⟨1, _⟩ =>
    show win1_2.index t (1 : Fin 2) * 256 + 1 * (y 1).val = (y 1).val
    rw [e1]; omega

theorem bb_eq (c : Dev nD) (t : Fin cfg1.N) : bb V c t = V c main_v52 := by
  funext y
  show V c main_v52 (((cfg1.win 3).blk t).view.emb y) = V c main_v52 y
  refine congrArg (V c main_v52) ?_
  funext a; apply Fin.ext
  obtain ⟨-, ⟨e0, e1⟩, -, -⟩ := idx_whole t
  match a with
  | ⟨0, _⟩ =>
    show win1_3.index t (0 : Fin 2) * 1 + 1 * (y 0).val = (y 0).val
    rw [e0]; omega
  | ⟨1, _⟩ =>
    show win1_3.index t (1 : Fin 2) * 256 + 1 * (y 1).val = (y 1).val
    rw [e1]; omega

theorem ba_eq (c : Dev nD) (t : Fin cfg1.N) : ba V c t = V c main_v53 := by
  funext y
  show V c main_v53 (((cfg1.win 4).blk t).view.emb y) = V c main_v53 y
  refine congrArg (V c main_v53) ?_
  funext a; apply Fin.ext
  obtain ⟨-, -, ⟨e0, e1⟩, -⟩ := idx_whole t
  match a with
  | ⟨0, _⟩ =>
    show win1_4.index t (0 : Fin 2) * 1 + 1 * (y 0).val = (y 0).val
    rw [e0]; omega
  | ⟨1, _⟩ =>
    show win1_4.index t (1 : Fin 2) * 1 + 1 * (y 1).val = (y 1).val
    rw [e1]; omega

/-! ## The first output: from tiles to the array -/

/-- The layer array at row `2000 t + r`, column `k`, is tile `t` of the epilogue at `(r, k)`. -/
theorem layerArr_apply (agg : Vec F S50000x256 .f32) (nd : Vec F S50000x1 .f32) (W : Vec F S256x256 .f32)
    (b2 : Vec F S1x256 .f32) (a2 : Vec F S1x1 .f32) (t : Fin 25) (r : Fin 2000) (k : Fin 256) (i : S50000x256.Idx)
    (hi0 : (i 0).val = 2000 * t.val + r.val) (hi1 : (i 1).val = k.val) :
    Spec.layerArr agg nd W b2 a2 i = Spec.payTile (Spec.tile256 agg t) (Spec.tile1 nd t) W b2 a2 (ix2 r k) := by
  have e1 : (i 0).val / 2000 = t.val := by rw [hi0]; have := r.isLt; omega
  have e2 : (i 0).val % 2000 = r.val := by rw [hi0]; have := r.isLt; omega
  have ht : ∀ h : (i 0).val / 2000 < 25, (⟨(i 0).val / 2000, h⟩ : Fin 25) = t := fun h => Fin.ext e1
  have hr : ∀ h : (i 0).val % 2000 < 2000, (⟨(i 0).val % 2000, h⟩ : Fin 2000) = r := fun h => Fin.ext e2
  have hk : i 1 = k := Fin.ext hi1
  unfold Spec.layerArr Spec.layerTile
  rw [ht, hr, hk]

/-- WHAT POINT `t` WRITES BACK to the first output is block `t` of the layer array of the entry contents. -/
theorem flushed5_eq (c : Dev nD) (t : Fin cfg1.N) :
    (dat V c).flushed 5 t = ((cfg1.win 5).blk t).view.read (Elt F)
      (Spec.layerArr (F := F) (V c main_v51) (V c main_v24) (V c main_arg5) (V c main_v52) (V c main_v53)) := by
  show (cfg1.win 5).cut (grid1.coords t) ((dat V c).after 5 t) = _
  rw [after_5]
  unfold hblk
  rw [Spec.k1_pay2_eq, bx_eq, bn_eq, bw_eq, bb_eq, ba_eq]
  obtain ⟨-, -, ⟨e0, e1⟩⟩ := idx_rows t
  funext y
  show Spec.payTile (Spec.tile256 (V c main_v51) t) (Spec.tile1 (V c main_v24) t) (V c main_arg5) (V c main_v52) (V c main_v53)
      ((cfg1.win 5).xinj (grid1.coords t) y)
    = Spec.layerArr (V c main_v51) (V c main_v24) (V c main_arg5) (V c main_v52) (V c main_v53) (((cfg1.win 5).blk t).view.emb y)
  have h0 : ((((cfg1.win 5).blk t).view.emb y) 0).val = 2000 * t.val + (y 0).val := by
    show win1_5.index t (0 : Fin 2) * 2000 + 1 * (y 0).val = 2000 * t.val + (y 0).val
    rw [e0]; omega
  have h1 : ((((cfg1.win 5).blk t).view.emb y) 1).val = (y 1).val := by
    show win1_5.index t (1 : Fin 2) * 256 + 1 * (y 1).val = (y 1).val
    rw [e1]; omega
  rw [layerArr_apply _ _ _ _ _ t (y 0) (y 1) _ h0 h1]
  refine congrArg _ ?_
  funext a
  match a with
  | ⟨0, _⟩ => rfl
  | ⟨1, _⟩ => rfl

/-- An index of the first output's array is in point `t`'s block iff each coordinate is in the block's range on its axis. -/
theorem mem_blk5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v54_0).slice (win1_5.rect t)).set ↔ _
  rw [View.set_slice_whole, Rect.mem_set_unit]
  exact Iff.rfl

/-- Row `r` of the first output's array is in the block of point `r / 2000`. -/
theorem cover5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have hq : (i 0).val / 2000 < cfg1.N := by rw [hN]; omega
  obtain ⟨-, -, ⟨e0, e1⟩⟩ := idx_rows ⟨(i 0).val / 2000, hq⟩
  refine ⟨⟨(i 0).val / 2000, hq⟩, flush1_5 _, ?_⟩
  rw [mem_blk5]
  intro a
  match a with
  | ⟨0, _⟩ =>
    show win1_5.index ⟨(i 0).val / 2000, hq⟩ (0 : Fin 2) * 2000 ≤ (i 0).val
      ∧ (i 0).val < win1_5.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hq⟩ (1 : Fin 2) * 256 ≤ (i 1).val
      ∧ (i 1).val < win1_5.index ⟨(i 0).val / 2000, hq⟩ (1 : Fin 2) * 256 + 256
    rw [e1]
    omega

/-- THE FIRST OUTPUT ARRAY after the region. Every point writes its tile back, the 25 tiles cover the 50000 rows, and tile
    `t` is the body's stored value at the point's blocks — the rows `2000 t …` of the aggregated array and of the in-degree
    column, the whole weight matrix, bias row and slope —: so the array is the epilogue laid out over the whole array. -/
theorem arr5_eq (c : Dev nD) :
    (dat V c).arrAt 5 cfg1.N
      = Spec.layerArr (F := F) (V c main_v51) (V c main_v24) (V c main_arg5) (V c main_v52) (V c main_v53) :=
  (dat V c).arrAt_eq_of_cover 5 _ (fun t _ => flushed5_eq V c t) cover5

/-! ## The second output: the running row, written back once -/

/-- The running row the scratch buffer carries after point `n` is the row of column sums of the tiles `0 … n`. -/
theorem acc_eq (c : Dev nD) : ∀ (n : ℕ) (h : n < cfg1.N),
    acc V c n h
      = Spec.sumRow (F := F) (V c main_v51) (V c main_v24) (V c main_arg5) (V c main_v52) (V c main_v53) n h
  | 0, h => by
    rw [acc_zero, Spec.k1_pay3_eq, Spec.k1_pay1_eq, bx_eq, bn_eq, bw_eq, bb_eq, ba_eq]
    rfl
  | n + 1, h => by
    rw [acc_succ, Spec.k1_pay3_eq, bx_eq, bn_eq, bw_eq, bb_eq, ba_eq, acc_eq c n (Nat.lt_of_succ_lt h)]
    rfl

/-- The one write-back of the second output, at the last point, writes the row of column sums of all 25 tiles. -/
theorem flushed6_eq (c : Dev nD) (t : Fin cfg1.N) (hf : (cfg1.win 6).flush t = true) :
    (dat V c).flushed 6 t = ((cfg1.win 6).blk t).view.read (Elt F)
      (Spec.sumRow (F := F) (V c main_v51) (V c main_v24) (V c main_arg5) (V c main_v52) (V c main_v53) 24 (by decide)) := by
  have hN : cfg1.N = 25 := N_1
  have h24 : t.val = 24 := by have := (flush1_6 t).mp hf; have := t.isLt; omega
  have same : ∀ (n : ℕ) (h : n < 25), n = 24 →
      Spec.sumRow (F := F) (V c main_v51) (V c main_v24) (V c main_arg5) (V c main_v52) (V c main_v53) n h
        = Spec.sumRow (F := F) (V c main_v51) (V c main_v24) (V c main_arg5) (V c main_v52) (V c main_v53) 24 (by decide) :=
    fun n h e => by subst e; rfl
  show (cfg1.win 6).cut (grid1.coords t) ((dat V c).after 6 t) = _
  rw [after_6, acc_eq, same t.val t.isLt h24]
  obtain ⟨-, -, -, ⟨e0, e1⟩⟩ := idx_whole t
  funext y
  show Spec.sumRow (F := F) (V c main_v51) (V c main_v24) (V c main_arg5) (V c main_v52) (V c main_v53) 24 (by decide)
      ((cfg1.win 6).xinj (grid1.coords t) y)
    = Spec.sumRow (F := F) (V c main_v51) (V c main_v24) (V c main_arg5) (V c main_v52) (V c main_v53) 24 (by decide)
      (((cfg1.win 6).blk t).view.emb y)
  refine congrArg _ ?_
  funext a; apply Fin.ext
  match a with
  | ⟨0, _⟩ =>
    show (y 0).val = win1_6.index t (0 : Fin 2) * 1 + 1 * (y 0).val
    rw [e0]; omega
  | ⟨1, _⟩ =>
    show (y 1).val = win1_6.index t (1 : Fin 2) * 256 + 1 * (y 1).val
    rw [e1]; omega

/-- An index of the second output's array is in point `t`'s block iff each coordinate is in the block's range on its axis. -/
theorem mem_blk6 (t : Fin cfg1.N) (i : S1x256.Idx) :
    i ∈ ((cfg1.win 6).blk t).view.set ↔ ∀ a : Fin 2, win1_6.index t a * S1x256.size a ≤ (i a).val
      ∧ (i a).val < win1_6.index t a * S1x256.size a + S1x256.size a := by
  show i ∈ ((View.whole main_v54_1).slice (win1_6.rect t)).set ↔ _
  rw [View.set_slice_whole, Rect.mem_set_unit]
  exact Iff.rfl

/-- The last point's block is the whole row. -/
theorem cover6 (i : S1x256.Idx) :
    ∃ t : Fin cfg1.N, (cfg1.win 6).flush t = true ∧ i ∈ ((cfg1.win 6).blk t).view.set := by
  have hi0 : (i 0).val < 1 := (i 0).isLt
  have hi1 : (i 1).val < 256 := (i 1).isLt
  have hN : cfg1.N = 25 := N_1
  have h24 : 24 < cfg1.N := by rw [hN]; omega
  obtain ⟨-, -, -, ⟨e0, e1⟩⟩ := idx_whole ⟨24, h24⟩
  refine ⟨⟨24, h24⟩, (flush1_6 _).mpr rfl, ?_⟩
  rw [mem_blk6]
  intro a
  match a with
  | ⟨0, _⟩ =>
    show win1_6.index ⟨24, h24⟩ (0 : Fin 2) * 1 ≤ (i 0).val ∧ (i 0).val < win1_6.index ⟨24, h24⟩ (0 : Fin 2) * 1 + 1
    rw [e0]; omega
  | ⟨1, _⟩ =>
    show win1_6.index ⟨24, h24⟩ (1 : Fin 2) * 256 ≤ (i 1).val ∧ (i 1).val < win1_6.index ⟨24, h24⟩ (1 : Fin 2) * 256 + 256
    rw [e1]; omega

/-- THE SECOND OUTPUT ARRAY after the region. Only the last point writes it back, whole, and what it writes is the running
    row of column sums after the last tile. -/
theorem arr6_eq (c : Dev nD) :
    (dat V c).arrAt 6 cfg1.N
      = Spec.sumRow (F := F) (V c main_v51) (V c main_v24) (V c main_arg5) (V c main_v52) (V c main_v53) 24 (by decide) :=
  (dat V c).arrAt_eq_of_cover 6 _ (flushed6_eq V c) cover6

end Cert.KernelIdeal.Reg1

end
-- ==== Proof.Ref.RefSpec.lean ====
/- The reference computation in named pieces. A two-layer graph convolution with symmetric degree normalisation:
   `normOf idx` is the column of `1 / sqrt(max(deg, 1))` where `deg` counts the occurrences of each node in `idx`;
   `aggregate h ns src dst` sends each edge's source row of `h · ns` to its destination and sums there;
   `layer agg nd W b a` is `prelu_a((agg · nd) W + b)`; `pool h` is the row of column sums of `h`.
   The two results are the second layer's output and the two layers' pooled rows side by side. -/
import proofs.«120135_j66941360276307_1_alg».proof.Proof.Gen.ReferenceIdeal

noncomputable section

namespace Cert.ReferenceIdeal.RefSpec

open Cert.ReferenceIdeal Cert.ReferenceIdeal.Gen
open Idealize.ShloMosaic Idealize.SL.Sem

variable {F : FTy → Type} [FloatOps F]

/-- A node index with Python's wrap-around for negative values. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The degree normalisation column: `1 / sqrt(max(deg, 1))`, `deg` the number of edges ending (or starting) at each node. -/
def normOf (idx : IVec S800000 32) : FVec F S50000x1 .f32 :=
  broadcastInDim S50000x1 ![0] bcast_S50000_S50000x1_0
    (Host.rsqrt (maximumf
      (Host.scatterAdd scatter_S50000_S800000x1_S800000_n_0_0_1
        (broadcastInDim S50000 ![] bcast_S_S50000 (constant S_ .f32 0x00000000#32))
        (broadcastInDim S800000x1 ![0] bcast_S800000_S800000x1_0 (wrapIdx idx))
        (broadcastInDim S800000 ![] bcast_S_S800000 (constant S_ .f32 0x3F800000#32)))
      (broadcastInDim S50000 ![] bcast_S_S50000 (constant S_ .f32 0x3F800000#32))))

/-- Neighbourhood aggregation: the rows of `h · ns` gathered at the edges' sources and summed at their destinations. -/
def aggregate (h : FVec F S50000x256 .f32) (ns : FVec F S50000x1 .f32) (src dst : IVec S800000 32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256
      (mulf h (broadcastInDim S50000x256 ![0, 1] bcast_S50000x1_S50000x256_0_1 ns))
      (broadcastInDim S800000x1 ![0] bcast_S800000_S800000x1_0 (wrapIdx src)))

/-- The affine part of a layer: `(agg · nd) W + b`. -/
def affine (agg : FVec F S50000x256 .f32) (nd : FVec F S50000x1 .f32) (W : FVec F S256x256 .f32) (b : FVec F S256 .f32) :
    FVec F S50000x256 .f32 :=
  addf (Host.dotGeneral dot_S50000x256_S256x256_S50000x256_1_0_0_1_n_n none
      (mulf agg (broadcastInDim S50000x256 ![0, 1] bcast_S50000x1_S50000x256_0_1 nd)) W)
    (broadcastInDim S50000x256 ![0, 1] bcast_S1x256_S50000x256_0_1 (broadcastInDim S1x256 ![1] bcast_S256_S1x256_1 b))

/-- One layer: the affine part through the leaky rectifier of slope `a`. -/
def layer (agg : FVec F S50000x256 .f32) (nd : FVec F S50000x1 .f32) (W : FVec F S256x256 .f32) (b : FVec F S256 .f32)
    (a : FVec F S_ .f32) : FVec F S50000x256 .f32 :=
  select (cmpf .oge (affine agg nd W b) (broadcastInDim S50000x256 ![] bcast_S_S50000x256 (constant S_ .f32 0x00000000#32)))
    (affine agg nd W b)
    (mulf (broadcastInDim S50000x256 ![] bcast_S_S50000x256 a) (affine agg nd W b))

/-- Sum pooling: the row of column sums. -/
def pool (h : FVec F S50000x256 .f32) : FVec F S1x256 .f32 :=
  broadcastInDim S1x256 ![1] bcast_S256_S1x256_1
    (Host.reduceAdd h (constant S_ .f32 0x00000000#32) reducesTo_S50000x256_S256_d0 h_S_)

/-- The first layer's output. -/
def h1 (feat : FVec F S50000x256 .f32) (src dst : IVec S800000 32) (W0 : FVec F S256x256 .f32) (b0 : FVec F S256 .f32)
    (a : FVec F S_ .f32) : FVec F S50000x256 .f32 :=
  layer (aggregate feat (normOf src) src dst) (normOf dst) W0 b0 a

/-- The first result: the second layer's output. -/
def out0 (feat : FVec F S50000x256 .f32) (src dst : IVec S800000 32) (W0 : FVec F S256x256 .f32) (b0 : FVec F S256 .f32)
    (W1 : FVec F S256x256 .f32) (b1 : FVec F S256 .f32) (a : FVec F S_ .f32) : FVec F S50000x256 .f32 :=
  layer (aggregate (h1 feat src dst W0 b0 a) (normOf src) src dst) (normOf dst) W1 b1 a

/-- The second result: the two layers' pooled rows side by side. -/
def out1 (feat : FVec F S50000x256 .f32) (src dst : IVec S800000 32) (W0 : FVec F S256x256 .f32) (b0 : FVec F S256 .f32)
    (W1 : FVec F S256x256 .f32) (b1 : FVec F S256 .f32) (a : FVec F S_ .f32) : FVec F S1x512 .f32 :=
  concatenate S1x512 1 [⟨S1x256, pool (h1 feat src dst W0 b0 a)⟩, ⟨S1x256, pool (out0 feat src dst W0 b0 W1 b1 a)⟩]
    concatenates_S1x256_S1x256_S1x512_d1

end Cert.ReferenceIdeal.RefSpec

end
-- ==== Proof.Bridge.Math.lean ====
/- The mathematics that joins the two programs: one layer computed tile by tile equals the layer computed at once, and the
   pooled row built up tile by tile equals the row of column sums. Both are statements about extended reals, index by index. -/
import proofs.«120135_j66941360276307_1_alg».proof.Proof.KI.Spec
import proofs.«120135_j66941360276307_1_alg».proof.Proof.Ref.RefSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.Bridge

open Idealize.ShloMosaic Idealize.ShloMosaic.ValueIdx Idealize.SL.Sem
open Cert.KernelIdeal Cert.KernelIdeal.Gen

open scoped BigOperators

/-! ## The two contractions read at an index -/

theorem lhs_kdot_0 (i : S2000x256.Idx) (q : Cert.KernelIdeal.dot_S2000x256_S256x256_S2000x256_1_0_0_1_n_n.contr.Idx) :
    (Cert.KernelIdeal.dot_S2000x256_S256x256_S2000x256_1_0_0_1_n_n.lhsIdx i q 0).val = (i 0).val := by
  unfold DotDims.lhsIdx
  rw [dif_neg (show ¬(0 : Fin S2000x256.rank) ∈ Cert.KernelIdeal.dot_S2000x256_S256x256_S2000x256_1_0_0_1_n_n.lhsBatch by decide), dif_pos (show (0 : Fin S2000x256.rank) ∈ Cert.KernelIdeal.dot_S2000x256_S256x256_S2000x256_1_0_0_1_n_n.lhsNonContracting by decide)]
  rfl
theorem lhs_kdot_1 (i : S2000x256.Idx) (q : Cert.KernelIdeal.dot_S2000x256_S256x256_S2000x256_1_0_0_1_n_n.contr.Idx) :
    (Cert.KernelIdeal.dot_S2000x256_S256x256_S2000x256_1_0_0_1_n_n.lhsIdx i q 1).val = (q ⟨0, by decide⟩).val :=
  Cert.KernelIdeal.dot_S2000x256_S256x256_S2000x256_1_0_0_1_n_n.lhsIdx_val_of_single rfl i q
theorem rhs_kdot_0 (i : S2000x256.Idx) (q : Cert.KernelIdeal.dot_S2000x256_S256x256_S2000x256_1_0_0_1_n_n.contr.Idx) :
    (Cert.KernelIdeal.dot_S2000x256_S256x256_S2000x256_1_0_0_1_n_n.rhsIdx i q 0).val = (q ⟨0, by decide⟩).val :=
  Cert.KernelIdeal.dot_S2000x256_S256x256_S2000x256_1_0_0_1_n_n.rhsIdx_val_of_single rfl i q
theorem rhs_kdot_1 (i : S2000x256.Idx) (q : Cert.KernelIdeal.dot_S2000x256_S256x256_S2000x256_1_0_0_1_n_n.contr.Idx) :
    (Cert.KernelIdeal.dot_S2000x256_S256x256_S2000x256_1_0_0_1_n_n.rhsIdx i q 1).val = (i 1).val := by
  unfold DotDims.rhsIdx
  rw [dif_neg (show ¬(1 : Fin S256x256.rank) ∈ Cert.KernelIdeal.dot_S2000x256_S256x256_S2000x256_1_0_0_1_n_n.rhsBatch by decide), dif_pos (show (1 : Fin S256x256.rank) ∈ Cert.KernelIdeal.dot_S2000x256_S256x256_S2000x256_1_0_0_1_n_n.rhsNonContracting by decide)]
  rfl

/-- The matrix unit's product of a 2000 × 256 tile and a 256 × 256 matrix into a zero accumulator, at entry (p, q):
    the sum over k of l(p, k) · r(k, q). -/
theorem kdot_apply (l : FVec Ideal S2000x256 .bf16) (r : FVec Ideal S256x256 .bf16) (p : Fin 2000) (q : Fin 256) :
    matmul (F := Ideal) Cert.KernelIdeal.dot_S2000x256_S256x256_S2000x256_1_0_0_1_n_n none l r
        (constant (F := Ideal) S2000x256 .f32 0x00000000#32) (ix2 p q)
      = ∑ k : Fin 256, l (ix2 p k) * r (ix2 k q) := by
  simp only [matmul]
  rw [Ideal.matmul_constant_zero_apply, ← Equiv.sum_comp (ValueIdx.contrEquiv1 Cert.KernelIdeal.dot_S2000x256_S256x256_S2000x256_1_0_0_1_n_n 256 rfl rfl).symm]
  refine Finset.sum_congr rfl fun k _ => ?_
  have hk := ValueIdx.contrEquiv1_symm_val Cert.KernelIdeal.dot_S2000x256_S256x256_S2000x256_1_0_0_1_n_n 256 rfl rfl k
  have el : Cert.KernelIdeal.dot_S2000x256_S256x256_S2000x256_1_0_0_1_n_n.lhsIdx (ix2 p q) ((ValueIdx.contrEquiv1 Cert.KernelIdeal.dot_S2000x256_S256x256_S2000x256_1_0_0_1_n_n 256 rfl rfl).symm k) = ix2 p k := funext fun a => Fin.ext (by
    match a with
    | ⟨0, _⟩ => exact lhs_kdot_0 _ _
    | ⟨1, _⟩ => exact (lhs_kdot_1 _ _).trans hk)
  have er : Cert.KernelIdeal.dot_S2000x256_S256x256_S2000x256_1_0_0_1_n_n.rhsIdx (ix2 p q) ((ValueIdx.contrEquiv1 Cert.KernelIdeal.dot_S2000x256_S256x256_S2000x256_1_0_0_1_n_n 256 rfl rfl).symm k) = ix2 k q := funext fun a => Fin.ext (by
    match a with
    | ⟨0, _⟩ => exact (rhs_kdot_0 _ _).trans hk
    | ⟨1, _⟩ => exact rhs_kdot_1 _ _)
  rw [el, er]

theorem lhs_rdot_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_rdot_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_rdot_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_rdot_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- The host's contraction of a 50000 × 256 array and a 256 × 256 matrix, at entry (p, q): the same sum. -/
theorem rdot_apply (l : FVec Ideal S50000x256 .f32) (r : FVec Ideal S256x256 .f32) (p : Fin 50000) (q : Fin 256) :
    Host.dotGeneral (F := Ideal) Cert.ReferenceIdeal.dot_S50000x256_S256x256_S50000x256_1_0_0_1_n_n none l r (ix2 p q)
      = ∑ k : Fin 256, l (ix2 p k) * r (ix2 k q) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((ValueIdx.contrEquiv1 Cert.ReferenceIdeal.dot_S50000x256_S256x256_S50000x256_1_0_0_1_n_n 256 rfl rfl).symm k) = ix2 p k := funext fun a => Fin.ext (by
    match a with
    | ⟨0, _⟩ => exact lhs_rdot_0 _ _
    | ⟨1, _⟩ => exact (lhs_rdot_1 _ _).trans hk)
  have er : Cert.ReferenceIdeal.dot_S50000x256_S256x256_S50000x256_1_0_0_1_n_n.rhsIdx (ix2 p q) ((ValueIdx.contrEquiv1 Cert.ReferenceIdeal.dot_S50000x256_S256x256_S50000x256_1_0_0_1_n_n 256 rfl rfl).symm k) = ix2 k q := funext fun a => Fin.ext (by
    match a with
    | ⟨0, _⟩ => exact (rhs_rdot_0 _ _).trans hk
    | ⟨1, _⟩ => exact rhs_rdot_1 _ _)
  rw [el, er]

/-! ## The leaky rectifier, and the layout operations of the two programs read at an index -/

/-- The leaky rectifier with slope `a` at `y`, as both programs compute it: `y` where `y ≥ 0` holds, else `a · y`
    (the zero compared against is the same literal word in both). -/
def leaky (a y : EReal) : EReal :=
  Scalar.select (FloatOps.cmpf (F := Ideal) (φ := .f32) .oge y (FloatOps.ofBits (F := Ideal) .f32 0x00000000#32)) y (a * y)

/-- A 2000 × 1 column broadcast over 256 columns reads, at (p, c), the column at row p. -/
theorem bcastCol_apply (v : FVec Ideal S2000x1 .f32) (p : Fin 2000) (c : Fin 256) :
    broadcastTo S2000x256 v broadcasts_S2000x1_S2000x256 (ix2 p c) = v (ix2 p (0 : Fin 1)) := by
  refine broadcastTo_apply v broadcasts_S2000x1_S2000x256 (ix2 p c) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else c.val; rw [if_pos rfl]

/-- A 1 × 256 row broadcast over 2000 rows reads, at (p, c), the row at column c. -/
theorem bcastRow_apply (v : FVec Ideal S1x256 .f32) (p : Fin 2000) (c : Fin 256) :
    broadcastTo S2000x256 v broadcasts_S1x256_S2000x256 (ix2 p c) = v (ix2 (0 : Fin 1) c) :=
  broadcastTo_1b_ab_apply v broadcasts_S1x256_S2000x256 p c

/-- The one cell of a 1 × 1 array. -/
theorem extractCell_apply (v : FVec Ideal S1x1 .f32) :
    extractAt ![0, 0] v inpos_S1x1_p0_0 = v (ix2 (0 : Fin 1) (0 : Fin 1)) := by
  unfold extractAt
  exact congrArg v (funext fun a => Fin.ext (by match a with | ⟨0, _⟩ => rfl | ⟨1, _⟩ => rfl))

/-- A 256-vector cast to a 1 × 256 row reads, at (0, c), the vector at c. -/
theorem castRow_apply (b : FVec Ideal S256 .f32) (u : Fin 1) (c : Fin 256) :
    shapeCast S1x256 b shapeCasts_S256_S1x256 (ix2 u c) = b (ix1 c) :=
  shapeCast_a_1a_apply b shapeCasts_S256_S1x256 u c

/-- A scalar cast to a 1 × 1 cell reads the scalar. -/
theorem castCell_apply (a : FVec Ideal S_ .f32) (i : S1x1.Idx) :
    shapeCast S1x1 a shapeCasts_S_S1x1 i = a ix0 := by
  unfold shapeCast
  exact congrArg a (funext fun x => x.elim0)

/-! ## The kernel's tile read at an index -/

/-- The affine part of the kernel's tile: the product of the scaled rows with the weights, plus the bias row. -/
def tileAffine (x : Vec Ideal S2000x256 .f32) (n : Vec Ideal S2000x1 .f32) (W : Vec Ideal S256x256 .f32) (b2 : Vec Ideal S1x256 .f32) :
    FVec Ideal S2000x256 .f32 :=
  addf
    (matmul (F := Ideal) Cert.KernelIdeal.dot_S2000x256_S256x256_S2000x256_1_0_0_1_n_n none
      (truncf .bf16 (mulf (shapeCast S2000x256 x shapeCasts_S2000x256_S2000x256)
        (broadcastTo S2000x256 (shapeCast S2000x1 n shapeCasts_S2000x1_S2000x1) broadcasts_S2000x1_S2000x256)) bitsLt_bf16_f32)
      (truncf .bf16 W bitsLt_bf16_f32) (constant (F := Ideal) S2000x256 .f32 0x00000000#32))
    (broadcastTo S2000x256 (shapeCast S1x256 b2 shapeCasts_S1x256_S1x256) broadcasts_S1x256_S2000x256)

/-- The kernel's tile is the leaky rectifier, with the slope cell, of its affine part. -/
theorem payTile_eq_leaky (x : Vec Ideal S2000x256 .f32) (n : Vec Ideal S2000x1 .f32) (W : Vec Ideal S256x256 .f32)
    (b2 : Vec Ideal S1x256 .f32) (a2 : Vec Ideal S1x1 .f32) (i : S2000x256.Idx) :
    Spec.payTile (F := Ideal) x n W b2 a2 i = leaky (extractAt ![0, 0] a2 inpos_S1x1_p0_0) (tileAffine x n W b2 i) := rfl

/-- Entry (p, q) of the affine part: `∑ₖ x(p, k) · n(p) · W(k, q) + b(q)`. -/
theorem tileAffine_apply (x : Vec Ideal S2000x256 .f32) (n : Vec Ideal S2000x1 .f32) (W : Vec Ideal S256x256 .f32)
    (b2 : Vec Ideal S1x256 .f32) (p : Fin 2000) (q : Fin 256) :
    tileAffine x n W b2 (ix2 p q)
      = (∑ k : Fin 256, (x (ix2 p k) * n (ix2 p (0 : Fin 1))) * W (ix2 k q)) + b2 (ix2 (0 : Fin 1) q) := by
  unfold tileAffine
  rw [shapeCast_self, shapeCast_self, shapeCast_self]
  refine (addf_apply _ _ _).trans ?_
  rw [kdot_apply, bcastRow_apply]
  refine congrArg (· + b2 (ix2 (0 : Fin 1) q)) (Finset.sum_congr rfl fun k _ => ?_)
  show (x (ix2 p k) * broadcastTo S2000x256 n broadcasts_S2000x1_S2000x256 (ix2 p k)) * W (ix2 k q) = _
  rw [bcastCol_apply]

/-! ## The reference's layer read at an index -/

/-- The 50000 × 1 column broadcast over 256 columns reads, at (r, c), the column at row r. -/
theorem rbcastCol_apply (v : FVec Ideal S50000x1 .f32) (r : Fin 50000) (c : Fin 256) :
    broadcastInDim S50000x256 ![0, 1] Cert.ReferenceIdeal.Gen.bcast_S50000x1_S50000x256_0_1 v (ix2 r c) = v (ix2 r (0 : Fin 1)) :=
  broadcastInDim_apply _ Cert.ReferenceIdeal.Gen.bcast_S50000x1_S50000x256_0_1 v (ix2 r c) (ix2 r (0 : Fin 1)) (fun a => match a with
    | ⟨0, _⟩ => by show r.val = if (50000 : Nat) = 1 then 0 else r.val; rw [if_neg (by decide)]
    | ⟨1, _⟩ => by show 0 = if (1 : Nat) = 1 then 0 else c.val; rw [if_pos rfl])

/-- The bias vector broadcast to a row and then over the 50000 rows reads, at (r, c), the vector at c. -/
theorem rbcastBias_apply (b : FVec Ideal S256 .f32) (r : Fin 50000) (c : Fin 256) :
    broadcastInDim S50000x256 ![0, 1] Cert.ReferenceIdeal.Gen.bcast_S1x256_S50000x256_0_1
        (broadcastInDim S1x256 ![1] Cert.ReferenceIdeal.Gen.bcast_S256_S1x256_1 b) (ix2 r c) = b (ix1 c) := by
  refine (broadcastInDim_apply _ Cert.ReferenceIdeal.Gen.bcast_S1x256_S50000x256_0_1 _ (ix2 r c) (ix2 (0 : Fin 1) c) (fun a => match a with
    | ⟨0, _⟩ => by show 0 = if (1 : Nat) = 1 then 0 else r.val; rw [if_pos rfl]
    | ⟨1, _⟩ => by show c.val = if (256 : Nat) = 1 then 0 else c.val; rw [if_neg (by decide)])).trans ?_
  exact broadcastInDim_apply _ Cert.ReferenceIdeal.Gen.bcast_S256_S1x256_1 b (ix2 (0 : Fin 1) c) (ix1 c) (fun a => match a with
    | ⟨0, _⟩ => by show c.val = if (256 : Nat) = 1 then 0 else c.val; rw [if_neg (by decide)])

/-- A scalar broadcast over the whole array reads the scalar. -/
theorem rbcastScalar_apply (a : FVec Ideal S_ .f32) (i : S50000x256.Idx) :
    broadcastInDim S50000x256 ![] Cert.ReferenceIdeal.Gen.bcast_S_S50000x256 a i = a ix0 :=
  broadcastInDim_apply _ Cert.ReferenceIdeal.Gen.bcast_S_S50000x256 a i ix0 (fun a => a.elim0)

/-- The reference's layer is the leaky rectifier, with the slope, of its affine part. -/
theorem layer_eq_leaky (agg : FVec Ideal S50000x256 .f32) (nd : FVec Ideal S50000x1 .f32) (W : FVec Ideal S256x256 .f32)
    (b : FVec Ideal S256 .f32) (a : FVec Ideal S_ .f32) (i : S50000x256.Idx) :
    Cert.ReferenceIdeal.RefSpec.layer (F := Ideal) agg nd W b a i
      = leaky (broadcastInDim S50000x256 ![] Cert.ReferenceIdeal.Gen.bcast_S_S50000x256 a i)
          (Cert.ReferenceIdeal.RefSpec.affine (F := Ideal) agg nd W b i) := rfl

/-- Entry (r, j) of the reference's affine part: `∑ₖ agg(r, k) · nd(r) · W(k, j) + b(j)`. -/
theorem affine_apply (agg : FVec Ideal S50000x256 .f32) (nd : FVec Ideal S50000x1 .f32) (W : FVec Ideal S256x256 .f32)
    (b : FVec Ideal S256 .f32) (r : Fin 50000) (j : Fin 256) :
    Cert.ReferenceIdeal.RefSpec.affine (F := Ideal) agg nd W b (ix2 r j)
      = (∑ k : Fin 256, (agg (ix2 r k) * nd (ix2 r (0 : Fin 1))) * W (ix2 k j)) + b (ix1 j) := by
  unfold Cert.ReferenceIdeal.RefSpec.affine
  refine (addf_apply _ _ _).trans ?_
  rw [rdot_apply, rbcastBias_apply]
  refine congrArg (· + b (ix1 j)) (Finset.sum_congr rfl fun k _ => ?_)
  show (agg (ix2 r k) * broadcastInDim S50000x256 ![0, 1] Cert.ReferenceIdeal.Gen.bcast_S50000x1_S50000x256_0_1 nd (ix2 r k)) * W (ix2 k j) = _
  rw [rbcastCol_apply]

/-! ## One layer, tile by tile -/

/-- Row `r` of the array is row `r % 2000` of tile `r / 2000`. -/
theorem tile_row (r : Fin 50000) (t : Fin 25) (p : Fin 2000) (ht : t.val = r.val / 2000) (hp : p.val = r.val % 2000) :
    (⟨2000 * t.val + p.val, Spec.row_lt t p⟩ : Fin 50000) = r :=
  Fin.ext (by show 2000 * t.val + p.val = r.val; rw [ht, hp]; exact Nat.div_add_mod r.val 2000)

theorem tile256_apply (agg : Vec Ideal S50000x256 .f32) (r : Fin 50000) (t : Fin 25) (p : Fin 2000)
    (ht : t.val = r.val / 2000) (hp : p.val = r.val % 2000) (k : Fin 256) :
    Spec.tile256 agg t (ix2 p k) = agg (ix2 r k) :=
  congrArg (fun m : Fin 50000 => agg (ix2 m k)) (tile_row r t p ht hp)

theorem tile1_apply (nd : Vec Ideal S50000x1 .f32) (r : Fin 50000) (t : Fin 25) (p : Fin 2000)
    (ht : t.val = r.val / 2000) (hp : p.val = r.val % 2000) (k : Fin 1) :
    Spec.tile1 nd t (ix2 p k) = nd (ix2 r k) :=
  congrArg (fun m : Fin 50000 => nd (ix2 m k)) (tile_row r t p ht hp)

/-- The tile-wise layer read at (r, j). -/
theorem layerArr_apply (agg : Vec Ideal S50000x256 .f32) (nd : Vec Ideal S50000x1 .f32) (W : Vec Ideal S256x256 .f32)
    (b2 : Vec Ideal S1x256 .f32) (a2 : Vec Ideal S1x1 .f32) (r : Fin 50000) (j : Fin 256) :
    Spec.layerArr (F := Ideal) agg nd W b2 a2 (ix2 r j)
      = leaky (a2 (ix2 (0 : Fin 1) (0 : Fin 1)))
          ((∑ k : Fin 256, (agg (ix2 r k) * nd (ix2 r (0 : Fin 1))) * W (ix2 k j)) + b2 (ix2 (0 : Fin 1) j)) := by
  have h1 : r.val / 2000 < 25 := by have := r.isLt; omega
  have h2 : r.val % 2000 < 2000 := Nat.mod_lt _ (by decide)
  show Spec.layerTile agg nd W b2 a2 ⟨r.val / 2000, h1⟩ (ix2 ⟨r.val % 2000, h2⟩ j) = _
  unfold Spec.layerTile
  rw [payTile_eq_leaky, extractCell_apply]
  refine congrArg (leaky _) ?_
  refine (tileAffine_apply _ _ W b2 _ _).trans ?_
  refine congrArg (· + b2 (ix2 (0 : Fin 1) j)) (Finset.sum_congr rfl fun k _ => ?_)
  rw [tile256_apply agg r ⟨r.val / 2000, h1⟩ ⟨r.val % 2000, h2⟩ rfl rfl k,
    tile1_apply nd r ⟨r.val / 2000, h1⟩ ⟨r.val % 2000, h2⟩ rfl rfl (0 : Fin 1)]

/-- ONE LAYER, tile by tile against all at once. Over the extended reals the tile-wise epilogue laid out over the whole
    array (`Spec.layerArr`, the bias and the slope given as a 1 × 256 row and a 1 × 1 cell) is the reference's layer: entry
    `(r, j)` of either is the leaky rectifier of `∑ₖ agg r k · nd r · W k j + b j` (a change of float format is the identity,
    the matrix unit's product into a zero accumulator and the host's contraction are the same sum). -/
theorem layerArr_eq_layer (agg : Vec Ideal S50000x256 .f32) (nd : Vec Ideal S50000x1 .f32) (W : Vec Ideal S256x256 .f32)
    (b : Vec Ideal S256 .f32) (a : Vec Ideal S_ .f32) :
    Spec.layerArr (F := Ideal) agg nd W (shapeCast S1x256 b shapeCasts_S256_S1x256) (shapeCast S1x1 a shapeCasts_S_S1x1)
      = (Cert.ReferenceIdeal.RefSpec.layer (F := Ideal) agg nd W b a : Vec Ideal S50000x256 .f32) := by
  funext i
  obtain ⟨r, j, rfl⟩ : ∃ (r : Fin 50000) (j : Fin 256), i = ix2 r j := ⟨i 0, i 1, eq_ix2 i⟩
  refine (layerArr_apply agg nd W _ _ r j).trans ?_
  rw [castCell_apply, castRow_apply]
  refine Eq.symm ((layer_eq_leaky agg nd W b a _).trans ?_)
  rw [rbcastScalar_apply, affine_apply]

/-! ## The pooled row, tile by tile -/

/-- The column sums of a 2000 × 256 tile, at column j: the sum over its rows. -/
theorem colSums_apply (T : FVec Ideal S2000x256 .f32) (j : Fin 256) :
    multiReduction (F := Ideal) .add [0] S256 T 0x00000000#32 reduces_S2000x256_S256 (.inl rfl) rfl (ix1 j)
      = ∑ p : Fin 2000, T (ix2 p j) := by
  refine (Ideal.multiReduction_add_single T _ reduces_S2000x256_S256 (.inl rfl) rfl (ix1 j)).trans ?_
  refine Finset.sum_congr rfl fun p _ => ?_
  exact congrArg T (funext fun a => Fin.ext (by match a with | ⟨0, _⟩ => rfl | ⟨1, _⟩ => rfl))

/-- The zero row is zero. -/
theorem payZero_apply (i : S1x256.Idx) : Spec.payZero (F := Ideal) i = 0 :=
  Ideal.ofBits_zero_f32

/-- The running row with a tile's column sums added, at column j. -/
theorem payRow_apply (x : Vec Ideal S2000x256 .f32) (n : Vec Ideal S2000x1 .f32) (W : Vec Ideal S256x256 .f32)
    (b2 : Vec Ideal S1x256 .f32) (a2 : Vec Ideal S1x1 .f32) (s : Vec Ideal S1x256 .f32) (u : Fin 1) (j : Fin 256) :
    Spec.payRow (F := Ideal) x n W b2 a2 s (ix2 u j)
      = s (ix2 u j) + ∑ p : Fin 2000, Spec.payTile (F := Ideal) x n W b2 a2 (ix2 p j) := by
  show shapeCast S1x256 (addf s (shapeCast S1x256
      (multiReduction (F := Ideal) .add [0] S256 (Spec.payTile (F := Ideal) x n W b2 a2) 0x00000000#32 reduces_S2000x256_S256 (.inl rfl) rfl)
      shapeCasts_S256_S1x256)) shapeCasts_S1x256_S1x256 (ix2 u j) = _
  rw [shapeCast_self]
  refine (addf_apply _ _ _).trans ?_
  rw [shapeCast_a_1a_apply, colSums_apply]

/-- The reference's pooled row at column j: the sum over all 50000 rows. -/
theorem pool_apply (h : FVec Ideal S50000x256 .f32) (u : Fin 1) (j : Fin 256) :
    Cert.ReferenceIdeal.RefSpec.pool (F := Ideal) h (ix2 u j) = ∑ r : Fin 50000, h (ix2 r j) := by
  unfold Cert.ReferenceIdeal.RefSpec.pool
  refine (broadcastInDim_apply _ Cert.ReferenceIdeal.Gen.bcast_S256_S1x256_1 _ (ix2 u j) (ix1 j) (fun a => match a with
    | ⟨0, _⟩ => by show j.val = if (256 : Nat) = 1 then 0 else j.val; rw [if_neg (by decide)])).trans ?_
  simp only [Host.reduceAdd, Ideal.hostReduceAdd_def]
  rw [Ideal.hostReduceAdd_single Cert.ReferenceIdeal.Gen.reducesTo_S50000x256_S256_d0 (by decide)]
  refine (congrArg (· + _) (show constant (F := Ideal) S_ .f32 0x00000000#32 _ = 0 from Ideal.ofBits_zero_f32)).trans ?_
  rw [zero_add]
  refine Finset.sum_congr rfl fun k _ => ?_
  exact congrArg h (funext fun a => Fin.ext (by match a with | ⟨0, _⟩ => rfl | ⟨1, _⟩ => rfl))

/-- Row `m` of column `j` of an array as a function of a natural number (zero past the last row). -/
def rowVal (L : FVec Ideal S50000x256 .f32) (j : Fin 256) (m : ℕ) : EReal :=
  if hm : m < 50000 then L (ix2 (⟨m, hm⟩ : Fin 50000) j) else 0

theorem rowVal_tile (L : FVec Ideal S50000x256 .f32) (j : Fin 256) (t : Fin 25) (p : Fin 2000) :
    rowVal L j (2000 * t.val + p.val) = L (ix2 (⟨2000 * t.val + p.val, Spec.row_lt t p⟩ : Fin 50000) j) :=
  dif_pos (Spec.row_lt t p)

/-- The first `2000 (n + 1)` terms of a sum are the first `2000 n` and then the 2000 of the next tile. -/
theorem sum_rows_succ (f : ℕ → EReal) (n : ℕ) :
    ∑ m ∈ Finset.range (2000 * (n + 1)), f m
      = ∑ m ∈ Finset.range (2000 * n), f m + ∑ p : Fin 2000, f (2000 * n + p.val) := by
  rw [Nat.mul_succ, Finset.sum_range_add, Finset.sum_range (fun x => f (2000 * n + x))]

/-- Row `p` of tile `t` is row `2000 t + p` of the tile-wise layer. -/
theorem layerTile_apply (agg : Vec Ideal S50000x256 .f32) (nd : Vec Ideal S50000x1 .f32) (W : Vec Ideal S256x256 .f32)
    (b2 : Vec Ideal S1x256 .f32) (a2 : Vec Ideal S1x1 .f32) (t : Fin 25) (p : Fin 2000) (j : Fin 256) :
    Spec.payTile (F := Ideal) (Spec.tile256 agg t) (Spec.tile1 nd t) W b2 a2 (ix2 p j)
      = Spec.layerArr (F := Ideal) agg nd W b2 a2 (ix2 (⟨2000 * t.val + p.val, Spec.row_lt t p⟩ : Fin 50000) j) := by
  have h1 : (2000 * t.val + p.val) / 2000 = t.val := by have := p.isLt; omega
  have h2 : (2000 * t.val + p.val) % 2000 = p.val := by have := p.isLt; omega
  have e1 : ∀ H, (⟨(2000 * t.val + p.val) / 2000, H⟩ : Fin 25) = t := fun H => Fin.ext h1
  have e2 : ∀ H, (⟨(2000 * t.val + p.val) % 2000, H⟩ : Fin 2000) = p := fun H => Fin.ext h2
  show _ = Spec.layerTile agg nd W b2 a2 ⟨(2000 * t.val + p.val) / 2000, by rw [h1]; exact t.isLt⟩
    (ix2 ⟨(2000 * t.val + p.val) % 2000, by rw [h2]; exact p.isLt⟩ j)
  rw [e1, e2]
  rfl

/-- THE INVARIANT: after tile `n` the running row holds, at column j, the sum of the first `2000 (n + 1)` rows of the
    tile-wise layer. -/
theorem sumRow_apply (agg : Vec Ideal S50000x256 .f32) (nd : Vec Ideal S50000x1 .f32) (W : Vec Ideal S256x256 .f32)
    (b2 : Vec Ideal S1x256 .f32) (a2 : Vec Ideal S1x1 .f32) (u : Fin 1) (j : Fin 256) : ∀ (n : ℕ) (h : n < 25),
    Spec.sumRow (F := Ideal) agg nd W b2 a2 n h (ix2 u j)
      = ∑ m ∈ Finset.range (2000 * (n + 1)), rowVal (Spec.layerArr (F := Ideal) agg nd W b2 a2) j m
  | 0, h => by
    show Spec.payRow (F := Ideal) (Spec.tile256 agg ⟨0, h⟩) (Spec.tile1 nd ⟨0, h⟩) W b2 a2 (Spec.payZero (F := Ideal)) (ix2 u j) = _
    rw [payRow_apply, payZero_apply, sum_rows_succ]
    refine congrArg₂ (· + ·) (by rw [Nat.mul_zero, Finset.sum_range_zero]) (Finset.sum_congr rfl fun p _ => ?_)
    exact (layerTile_apply agg nd W b2 a2 ⟨0, h⟩ p j).trans (rowVal_tile _ j ⟨0, h⟩ p).symm
  | n + 1, h => by
    show Spec.payRow (F := Ideal) (Spec.tile256 agg ⟨n + 1, h⟩) (Spec.tile1 nd ⟨n + 1, h⟩) W b2 a2
      (Spec.sumRow agg nd W b2 a2 n (Nat.lt_of_succ_lt h)) (ix2 u j) = _
    rw [payRow_apply, sumRow_apply agg nd W b2 a2 u j n (Nat.lt_of_succ_lt h), sum_rows_succ _ (n + 1)]
    refine congrArg (_ + ·) (Finset.sum_congr rfl fun p _ => ?_)
    exact (layerTile_apply agg nd W b2 a2 ⟨n + 1, h⟩ p j).trans (rowVal_tile _ j ⟨n + 1, h⟩ p).symm

/-- THE POOLED ROW, tile by tile against all at once. The running row after the last tile — the zero row, plus each tile's
    column sums in turn — is the reference's row of column sums of the whole layer output: the 50000 rows are the 25 tiles
    of 2000 rows, and sums over the extended reals may be regrouped (addition there is commutative and associative). -/
theorem sumRow_eq_pool (agg : Vec Ideal S50000x256 .f32) (nd : Vec Ideal S50000x1 .f32) (W : Vec Ideal S256x256 .f32)
    (b : Vec Ideal S256 .f32) (a : Vec Ideal S_ .f32) :
    Spec.sumRow (F := Ideal) agg nd W (shapeCast S1x256 b shapeCasts_S256_S1x256) (shapeCast S1x1 a shapeCasts_S_S1x1) 24 (by decide)
      = (Cert.ReferenceIdeal.RefSpec.pool (F := Ideal) (Cert.ReferenceIdeal.RefSpec.layer agg nd W b a) : Vec Ideal S1x256 .f32) := by
  funext i
  obtain ⟨u, j, rfl⟩ : ∃ (u : Fin 1) (j : Fin 256), i = ix2 u j := ⟨i 0, i 1, eq_ix2 i⟩
  rw [sumRow_apply, pool_apply, ← layerArr_eq_layer agg nd W b a]
  show ∑ m ∈ Finset.range 50000, _ = _
  rw [Finset.sum_range]
  refine Finset.sum_congr rfl fun r _ => ?_
  exact dif_pos r.isLt

end Cert.Bridge

end
-- ==== Proof.Bridge.HostRead.lean ====
/- The kernel program's host operations read as the reference's named functions: the degree columns, the neighbourhood
   aggregation, and the reshaped bias and slope each pallas_call is entered with. -/
import proofs.«120135_j66941360276307_1_alg».proof.Proof.Gen.KernelIdeal.Launch
import proofs.«120135_j66941360276307_1_alg».proof.Proof.Ref.RefSpec
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen
open Cert.ReferenceIdeal (RefSpec.normOf RefSpec.aggregate RefSpec.wrapIdx)

variable {F : FTy → Type} [FloatOps F]

/-! ## The host operations before the first pallas_call, read at the buffers that call takes -/

variable (W : Valuation τ sig (Elt F))

/-- The aggregated rows the first call is entered with. -/
theorem host0_v36 :
    StableHlo.after (hostOps0 (F := F)) W (Proc.devRef .tc main_v36)
      = Cert.ReferenceIdeal.RefSpec.aggregate (F := F) (W (Proc.devRef .tc main_arg0))
          (Cert.ReferenceIdeal.RefSpec.normOf (F := F) (W (Proc.devRef .tc main_arg1))) (W (Proc.devRef .tc main_arg1)) (W (Proc.devRef .tc main_arg2)) := by
  after_results_simp <;> rfl

/-- The out-degree column (kept for the second aggregation). -/
theorem host0_v20 :
    StableHlo.after (hostOps0 (F := F)) W (Proc.devRef .tc main_v20)
      = Cert.ReferenceIdeal.RefSpec.normOf (F := F) (W (Proc.devRef .tc main_arg1)) := by
  after_results_simp <;> rfl

/-- The in-degree column both calls take. -/
theorem host0_v24 :
    StableHlo.after (hostOps0 (F := F)) W (Proc.devRef .tc main_v24)
      = Cert.ReferenceIdeal.RefSpec.normOf (F := F) (W (Proc.devRef .tc main_arg2)) := by
  after_results_simp <;> rfl

/-- The bias as a row, the slope as a cell. -/
theorem host0_v37 :
    StableHlo.after (hostOps0 (F := F)) W (Proc.devRef .tc main_v37)
      = shapeCast S1x256 (W (Proc.devRef .tc main_arg4)) shapeCasts_S256_S1x256 := by
  after_results_simp <;> rfl
theorem host0_v38 :
    StableHlo.after (hostOps0 (F := F)) W (Proc.devRef .tc main_v38)
      = shapeCast S1x1 (W (Proc.devRef .tc main_arg7)) shapeCasts_S_S1x1 := by
  after_results_simp <;> rfl

/-! ## The host operations between the two pallas_calls, read at the buffers the second call takes -/

/-- The rows the second call is entered with: the first layer's output aggregated over the graph. -/
theorem host1_v51 :
    StableHlo.after (hostOps1 (F := F)) W (Proc.devRef .tc main_v51)
      = Cert.ReferenceIdeal.RefSpec.aggregate (F := F) (W (Proc.devRef .tc main_v39_0)) (W (Proc.devRef .tc main_v20))
          (W (Proc.devRef .tc main_arg1)) (W (Proc.devRef .tc main_arg2)) := by
  after_results_simp <;> rfl

theorem host1_v52 :
    StableHlo.after (hostOps1 (F := F)) W (Proc.devRef .tc main_v52)
      = shapeCast S1x256 (W (Proc.devRef .tc main_arg6)) shapeCasts_S256_S1x256 := by
  after_results_simp <;> rfl
theorem host1_v53 :
    StableHlo.after (hostOps1 (F := F)) W (Proc.devRef .tc main_v53)
      = shapeCast S1x1 (W (Proc.devRef .tc main_arg7)) shapeCasts_S_S1x1 := by
  after_results_simp <;> rfl

end Cert.Bridge

end
-- ==== Proof.Ref.RefRun.lean ====
/- The reference program's run, read back in the reference's named pieces. @main's line of host operations is cut into
   four stretches — the degree columns and the first aggregation; the first layer; its pooled row and the second
   aggregation; the second layer, its pooled row and the concatenation — each read, from any contents, at the buffers the
   later stretches take; the whole line's results are the stretches' readings composed. -/
import proofs.«120135_j66941360276307_1_alg».proof.Proof.Ref.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main's operations, in order, in four stretches -/

/-- The first stretch: the two degree columns (`main_v20` over the sources, `main_v24` over the destinations) and the first
    neighbourhood aggregation (`main_v36`). -/
abbrev ops1 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg1 main_v2 main_v3 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v4 (broadcastInDim S800000 ![] bcast_S_S800000 : (⟨S_, .i32⟩ : BufTy).Contents (Elt F) → (⟨S800000, .i32⟩ : BufTy).Contents (Elt F)),
    binary main_arg1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    ternary main_v1 main_v7 main_v0 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v9 (broadcastInDim S50000 ![] bcast_S_S50000 : (⟨S_, .f32⟩ : BufTy).Contents (Elt F) → (⟨S50000, .f32⟩ : BufTy).Contents (Elt F)),
    nullary main_c_3 (constantI S_ 32 0#32),
    unary main_c_3 main_v10 (broadcastInDim S800000 ![] bcast_S_S800000 : (⟨S_, .i32⟩ : BufTy).Contents (Elt F) → (⟨S800000, .i32⟩ : BufTy).Contents (Elt F)),
    binary main_arg2 main_v10 main_v11 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v12 (broadcastInDim S800000 ![] bcast_S_S800000 : (⟨S_, .i32⟩ : BufTy).Contents (Elt F) → (⟨S800000, .i32⟩ : BufTy).Contents (Elt F)),
    binary main_arg2 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg2 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    ternary main_v9 main_v15 main_v0 main_v16 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x3F800000#32),
    unary main_cst_5 main_v17 (broadcastInDim S50000 ![] bcast_S_S50000 : (⟨S_, .f32⟩ : BufTy).Contents (Elt F) → (⟨S50000, .f32⟩ : BufTy).Contents (Elt F)),
    binary main_v8 main_v17 main_v18 (maximumf : (⟨S50000, .f32⟩ : BufTy).Contents (Elt F) → (⟨S50000, .f32⟩ : BufTy).Contents (Elt F) → (⟨S50000, .f32⟩ : BufTy).Contents (Elt F)),
    unary main_v18 main_v19 (Host.rsqrt : (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    nullary main_cst_6 (constant S_ .f32 0x3F800000#32),
    unary main_cst_6 main_v21 (broadcastInDim S50000 ![] bcast_S_S50000 : (⟨S_, .f32⟩ : BufTy).Contents (Elt F) → (⟨S50000, .f32⟩ : BufTy).Contents (Elt F)),
    binary main_v16 main_v21 main_v22 (maximumf : (⟨S50000, .f32⟩ : BufTy).Contents (Elt F) → (⟨S50000, .f32⟩ : BufTy).Contents (Elt F) → (⟨S50000, .f32⟩ : BufTy).Contents (Elt F)),
    unary main_v22 main_v23 (Host.rsqrt : (⟨S50000, .f32⟩ : BufTy).Contents (Elt F) → (⟨S50000, .f32⟩ : BufTy).Contents (Elt F)),
    unary main_v23 main_v24 (broadcastInDim S50000x1 ![0] bcast_S50000_S50000x1_0 : (⟨S50000, .f32⟩ : BufTy).Contents (Elt F) → (⟨S50000x1, .f32⟩ : BufTy).Contents (Elt F)),
    unary main_v20 main_v25 (broadcastInDim S50000x256 ![0, 1] bcast_S50000x1_S50000x256_0_1 : (⟨S50000x1, .f32⟩ : BufTy).Contents (Elt F) → (⟨S50000x256, .f32⟩ : BufTy).Contents (Elt F)),
    binary main_arg0 main_v25 main_v26 (mulf : (⟨S50000x256, .f32⟩ : BufTy).Contents (Elt F) → (⟨S50000x256, .f32⟩ : BufTy).Contents (Elt F) → (⟨S50000x256, .f32⟩ : BufTy).Contents (Elt F)),
    nullary main_c_7 (constantI S_ 32 0#32),
    unary main_c_7 main_v27 (broadcastInDim S800000 ![] bcast_S_S800000 : (⟨S_, .i32⟩ : BufTy).Contents (Elt F) → (⟨S800000, .i32⟩ : BufTy).Contents (Elt F)),
    binary main_arg1 main_v27 main_v28 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v29 (broadcastInDim S800000 ![] bcast_S_S800000 : (⟨S_, .i32⟩ : BufTy).Contents (Elt F) → (⟨S800000, .i32⟩ : BufTy).Contents (Elt F)),
    binary main_arg1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_arg1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v26 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v34 (broadcastInDim S50000x256 ![] bcast_S_S50000x256 : (⟨S_, .f32⟩ : BufTy).Contents (Elt F) → (⟨S50000x256, .f32⟩ : BufTy).Contents (Elt F)),
    unary main_arg2 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The second stretch: the first layer (`main_v47`) from the aggregated rows. -/
abbrev ops2 : List (HloOp τ sig (Elt F)) :=
  [ unary main_v24 main_v37 (broadcastInDim S50000x256 ![0, 1] bcast_S50000x1_S50000x256_0_1 : (⟨S50000x1, .f32⟩ : BufTy).Contents (Elt F) → (⟨S50000x256, .f32⟩ : BufTy).Contents (Elt F)),
    binary main_v36 main_v37 main_v38 (mulf : (⟨S50000x256, .f32⟩ : BufTy).Contents (Elt F) → (⟨S50000x256, .f32⟩ : BufTy).Contents (Elt F) → (⟨S50000x256, .f32⟩ : BufTy).Contents (Elt F)),
    binary main_v38 main_arg3 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v40 (broadcastInDim S1x256 ![1] bcast_S256_S1x256_1 : (⟨S256, .f32⟩ : BufTy).Contents (Elt F) → (⟨S1x256, .f32⟩ : BufTy).Contents (Elt F)),
    unary main_v40 main_v41 (broadcastInDim S50000x256 ![0, 1] bcast_S1x256_S50000x256_0_1 : (⟨S1x256, .f32⟩ : BufTy).Contents (Elt F) → (⟨S50000x256, .f32⟩ : BufTy).Contents (Elt F)),
    binary main_v39 main_v41 main_v42 (addf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x00000000#32),
    unary main_cst_10 main_v43 (broadcastInDim S50000x256 ![] bcast_S_S50000x256 : (⟨S_, .f32⟩ : BufTy).Contents (Elt F) → (⟨S50000x256, .f32⟩ : BufTy).Contents (Elt F)),
    binary main_v42 main_v43 main_v44 (cmpf .oge : (⟨S50000x256, .f32⟩ : BufTy).Contents (Elt F) → (⟨S50000x256, .f32⟩ : BufTy).Contents (Elt F) → (⟨S50000x256, .i1⟩ : BufTy).Contents (Elt F)),
    unary main_arg7 main_v45 (broadcastInDim S50000x256 ![] bcast_S_S50000x256 : (⟨S_, .f32⟩ : BufTy).Contents (Elt F) → (⟨S50000x256, .f32⟩ : BufTy).Contents (Elt F)),
    binary main_v45 main_v42 main_v46 (mulf : (⟨S50000x256, .f32⟩ : BufTy).Contents (Elt F) → (⟨S50000x256, .f32⟩ : BufTy).Contents (Elt F) → (⟨S50000x256, .f32⟩ : BufTy).Contents (Elt F)),
    TRef.ternary (TRef.of (T := ⟨S50000x256, .i1⟩) main_v44) (TRef.of (T := ⟨S50000x256, .f32⟩) main_v42) (TRef.of (T := ⟨S50000x256, .f32⟩) main_v46) (TRef.of (T := ⟨S50000x256, .f32⟩) main_v47) select ]

/-- The third stretch: the first layer's pooled row (`main_v49`) and the second neighbourhood aggregation (`main_v61`). -/
abbrev ops3 : List (HloOp τ sig (Elt F)) :=
  [ nullary main_cst_11 (constant S_ .f32 0x00000000#32),
    binary main_v47 main_cst_11 main_v48 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_v48 main_v49 (broadcastInDim S1x256 ![1] bcast_S256_S1x256_1 : (⟨S256, .f32⟩ : BufTy).Contents (Elt F) → (⟨S1x256, .f32⟩ : BufTy).Contents (Elt F)),
    unary main_v20 main_v50 (broadcastInDim S50000x256 ![0, 1] bcast_S50000x1_S50000x256_0_1 : (⟨S50000x1, .f32⟩ : BufTy).Contents (Elt F) → (⟨S50000x256, .f32⟩ : BufTy).Contents (Elt F)),
    binary main_v47 main_v50 main_v51 (mulf : (⟨S50000x256, .f32⟩ : BufTy).Contents (Elt F) → (⟨S50000x256, .f32⟩ : BufTy).Contents (Elt F) → (⟨S50000x256, .f32⟩ : BufTy).Contents (Elt F)),
    nullary main_c_12 (constantI S_ 32 0#32),
    unary main_c_12 main_v52 (broadcastInDim S800000 ![] bcast_S_S800000 : (⟨S_, .i32⟩ : BufTy).Contents (Elt F) → (⟨S800000, .i32⟩ : BufTy).Contents (Elt F)),
    binary main_arg1 main_v52 main_v53 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v54 (broadcastInDim S800000 ![] bcast_S_S800000 : (⟨S_, .i32⟩ : BufTy).Contents (Elt F) → (⟨S800000, .i32⟩ : BufTy).Contents (Elt F)),
    binary main_arg1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_arg1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v59 (broadcastInDim S50000x256 ![] bcast_S_S50000x256 : (⟨S_, .f32⟩ : BufTy).Contents (Elt F) → (⟨S50000x256, .f32⟩ : BufTy).Contents (Elt F)),
    unary main_arg2 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The fourth stretch: the second layer (`main_v72`), its pooled row, and the two pooled rows side by side (`main_v75`). -/
abbrev ops4 : List (HloOp τ sig (Elt F)) :=
  [ unary main_v24 main_v62 (broadcastInDim S50000x256 ![0, 1] bcast_S50000x1_S50000x256_0_1 : (⟨S50000x1, .f32⟩ : BufTy).Contents (Elt F) → (⟨S50000x256, .f32⟩ : BufTy).Contents (Elt F)),
    binary main_v61 main_v62 main_v63 (mulf : (⟨S50000x256, .f32⟩ : BufTy).Contents (Elt F) → (⟨S50000x256, .f32⟩ : BufTy).Contents (Elt F) → (⟨S50000x256, .f32⟩ : BufTy).Contents (Elt F)),
    binary main_v63 main_arg5 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v65 (broadcastInDim S1x256 ![1] bcast_S256_S1x256_1 : (⟨S256, .f32⟩ : BufTy).Contents (Elt F) → (⟨S1x256, .f32⟩ : BufTy).Contents (Elt F)),
    unary main_v65 main_v66 (broadcastInDim S50000x256 ![0, 1] bcast_S1x256_S50000x256_0_1 : (⟨S1x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x00000000#32),
    unary main_cst_15 main_v68 (broadcastInDim S50000x256 ![] bcast_S_S50000x256 : (⟨S_, .f32⟩ : BufTy).Contents (Elt F) → (⟨S50000x256, .f32⟩ : BufTy).Contents (Elt F)),
    binary main_v67 main_v68 main_v69 (cmpf .oge : (⟨S50000x256, .f32⟩ : BufTy).Contents (Elt F) → (⟨S50000x256, .f32⟩ : BufTy).Contents (Elt F) → (⟨S50000x256, .i1⟩ : BufTy).Contents (Elt F)),
    unary main_arg7 main_v70 (broadcastInDim S50000x256 ![] bcast_S_S50000x256 : (⟨S_, .f32⟩ : BufTy).Contents (Elt F) → (⟨S50000x256, .f32⟩ : BufTy).Contents (Elt F)),
    binary main_v70 main_v67 main_v71 (mulf : (⟨S50000x256, .f32⟩ : BufTy).Contents (Elt F) → (⟨S50000x256, .f32⟩ : BufTy).Contents (Elt F) → (⟨S50000x256, .f32⟩ : BufTy).Contents (Elt F)),
    TRef.ternary (TRef.of (T := ⟨S50000x256, .i1⟩) main_v69) (TRef.of (T := ⟨S50000x256, .f32⟩) main_v67) (TRef.of (T := ⟨S50000x256, .f32⟩) main_v71) (TRef.of (T := ⟨S50000x256, .f32⟩) main_v72) select,
    nullary main_cst_16 (constant S_ .f32 0x00000000#32),
    binary main_v72 main_cst_16 main_v73 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_v73 main_v74 (broadcastInDim S1x256 ![1] bcast_S256_S1x256_1 : (⟨S256, .f32⟩ : BufTy).Contents (Elt F) → (⟨S1x256, .f32⟩ : BufTy).Contents (Elt F)),
    binary main_v49 main_v74 main_v75 ((fun a b => concatenate S1x512 1 [⟨S1x256, a⟩, ⟨S1x256, b⟩] concatenates_S1x256_S1x256_S1x512_d1) : (⟨S1x256, .f32⟩ : BufTy).Contents (Elt F) → (⟨S1x256, .f32⟩ : BufTy).Contents (Elt F) → (⟨S1x512, .f32⟩ : BufTy).Contents (Elt F)) ]

/-! ## What the stretches touch and write -/

theorem ops1_sub : (ops1 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem ops2_sub : (ops2 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub ..⟩
theorem ops3_sub : (ops3 : List (HloOp τ sig (Elt F))).Forall fun op => op.bufs ⊆ tcRefs τ sig :=
  ⟨nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem ops4_sub : (ops4 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub .., nullary_bufs_sub .., binary_bufs_sub .., unary_bufs_sub .., binary_bufs_sub ..⟩

/-- The references stretch 1 writes. -/
abbrev ops1_W : List (Ref sig .tc) := [main_cst, main_v0, main_cst_0, main_v1, main_c, main_v2, main_v3, main_c_1, main_v4, main_v5, main_v6, main_v7, main_v8, main_cst_2, main_v9, main_c_3, main_v10, main_v11, main_c_4, main_v12, main_v13, main_v14, main_v15, main_v16, main_cst_5, main_v17, main_v18, main_v19, main_v20, main_cst_6, main_v21, main_v22, main_v23, main_v24, main_v25, main_v26, main_c_7, main_v27, main_v28, main_c_8, main_v29, main_v30, main_v31, main_v32, main_v33, main_cst_9, main_v34, main_v35, main_v36]
theorem ops1_writes : (ops1 : List (HloOp τ sig (Elt F))).Forall fun op => op.writes ⊆ (ops1_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The references stretch 2 writes. -/
abbrev ops2_W : List (Ref sig .tc) := [main_v37, main_v38, main_v39, main_v40, main_v41, main_v42, main_cst_10, main_v43, main_v44, main_v45, main_v46, main_v47]
theorem ops2_writes : (ops2 : List (HloOp τ sig (Elt F))).Forall fun op => op.writes ⊆ (ops2_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_⟩ <;> exact List.mem_map_of_mem (by decide)

/-- The references stretch 3 writes. -/
abbrev ops3_W : List (Ref sig .tc) := [main_cst_11, main_v48, main_v49, main_v50, main_v51, main_c_12, main_v52, main_v53, main_c_13, main_v54, main_v55, main_v56, main_v57, main_v58, main_cst_14, main_v59, main_v60, main_v61]
theorem ops3_writes : (ops3 : List (HloOp τ sig (Elt F))).Forall fun op => op.writes ⊆ (ops3_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)

/-- The references stretch 4 writes. -/
abbrev ops4_W : List (Ref sig .tc) := [main_v62, main_v63, main_v64, main_v65, main_v66, main_v67, main_cst_15, main_v68, main_v69, main_v70, main_v71, main_v72, main_cst_16, main_v73, main_v74, main_v75]
theorem ops4_writes : (ops4 : List (HloOp τ sig (Elt F))).Forall fun op => op.writes ⊆ (ops4_W.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_⟩ <;> exact List.mem_map_of_mem (by decide)

/-! ## Each stretch read, from any contents, at the buffers later stretches take -/

section Reads

variable (W : Valuation τ sig (Elt F))

/-- The degree column over the edges' sources. -/
theorem s1_v20 :
    after (ops1 (F := F)) W (Proc.devRef .tc main_v20) = RefSpec.normOf (F := F) (W (Proc.devRef .tc main_arg1)) := by
  after_results_simp <;> rfl

/-- The degree column over the edges' destinations. -/
theorem s1_v24 :
    after (ops1 (F := F)) W (Proc.devRef .tc main_v24) = RefSpec.normOf (F := F) (W (Proc.devRef .tc main_arg2)) := by
  after_results_simp <;> rfl

/-- The features aggregated over the graph. -/
theorem s1_v36 :
    after (ops1 (F := F)) W (Proc.devRef .tc main_v36)
      = RefSpec.aggregate (F := F) (W (Proc.devRef .tc main_arg0)) (RefSpec.normOf (F := F) (W (Proc.devRef .tc main_arg1)))
          (W (Proc.devRef .tc main_arg1)) (W (Proc.devRef .tc main_arg2)) := by
  after_results_simp <;> rfl

/-- The first layer, of the aggregated rows it finds. -/
theorem s2_v47 :
    after (ops2 (F := F)) W (Proc.devRef .tc main_v47)
      = RefSpec.layer (F := F) (W (Proc.devRef .tc main_v36)) (W (Proc.devRef .tc main_v24)) (W (Proc.devRef .tc main_arg3))
          (W (Proc.devRef .tc main_arg4)) (W (Proc.devRef .tc main_arg7)) := by
  after_results_simp <;> rfl

/-- The pooled row of the layer output it finds. -/
theorem s3_v49 :
    after (ops3 (F := F)) W (Proc.devRef .tc main_v49) = RefSpec.pool (F := F) (W (Proc.devRef .tc main_v47)) := by
  after_results_simp <;> rfl

/-- That layer output aggregated over the graph. -/
theorem s3_v61 :
    after (ops3 (F := F)) W (Proc.devRef .tc main_v61)
      = RefSpec.aggregate (F := F) (W (Proc.devRef .tc main_v47)) (W (Proc.devRef .tc main_v20))
          (W (Proc.devRef .tc main_arg1)) (W (Proc.devRef .tc main_arg2)) := by
  after_results_simp <;> rfl

/-- The second layer, of the aggregated rows it finds. -/
theorem s4_v72 :
    after (ops4 (F := F)) W (Proc.devRef .tc main_v72)
      = RefSpec.layer (F := F) (W (Proc.devRef .tc main_v61)) (W (Proc.devRef .tc main_v24)) (W (Proc.devRef .tc main_arg5))
          (W (Proc.devRef .tc main_arg6)) (W (Proc.devRef .tc main_arg7)) := by
  after_results_simp <;> rfl

/-- The first layer's pooled row as found, beside the second layer's. -/
theorem s4_v75 :
    after (ops4 (F := F)) W (Proc.devRef .tc main_v75)
      = concatenate S1x512 1 [⟨S1x256, W (Proc.devRef .tc main_v49)⟩,
          ⟨S1x256, RefSpec.pool (F := F) (RefSpec.layer (F := F) (W (Proc.devRef .tc main_v61)) (W (Proc.devRef .tc main_v24))
            (W (Proc.devRef .tc main_arg5)) (W (Proc.devRef .tc main_arg6)) (W (Proc.devRef .tc main_arg7)))⟩]
          concatenates_S1x256_S1x256_S1x512_d1 := by
  after_results_simp <;> rfl

end Reads

/-! ## The whole line: the stretches' readings composed -/

/-- The contents after two lines in a row. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

section Whole

variable (V : Valuation τ sig (Elt F))

/-- A reference a stretch does not write keeps its contents through it. -/
theorem keep1 {r : Ref sig .tc} (h : r ∉ ops1_W) : after (ops1 (F := F)) V (Proc.devRef .tc r) = V (Proc.devRef .tc r) :=
  after_of_writes_sub ops1 V ops1_writes h
theorem keep2 {r : Ref sig .tc} (h : r ∉ ops2_W) : after (ops2 (F := F)) V (Proc.devRef .tc r) = V (Proc.devRef .tc r) :=
  after_of_writes_sub ops2 V ops2_writes h
theorem keep3 {r : Ref sig .tc} (h : r ∉ ops3_W) : after (ops3 (F := F)) V (Proc.devRef .tc r) = V (Proc.devRef .tc r) :=
  after_of_writes_sub ops3 V ops3_writes h
theorem keep4 {r : Ref sig .tc} (h : r ∉ ops4_W) : after (ops4 (F := F)) V (Proc.devRef .tc r) = V (Proc.devRef .tc r) :=
  after_of_writes_sub ops4 V ops4_writes h

/-- A reference no stretch writes (an argument) keeps its contents through the whole line. -/
theorem keep_all {r : Ref sig .tc} (h1 : r ∉ ops1_W) (h2 : r ∉ ops2_W) (h3 : r ∉ ops3_W) (h4 : r ∉ ops4_W) :
    after (ops1 (F := F) ++ ops2 ++ ops3 ++ ops4) V (Proc.devRef .tc r) = V (Proc.devRef .tc r) := by
  rw [after_concat, after_concat, after_concat, keep4 _ h4, keep3 _ h3, keep2 _ h2, keep1 _ h1]

/-- The first layer's output stands in `main_v47` after the first two stretches. -/
theorem read_h1 :
    after (ops2 (F := F)) (after ops1 V) (Proc.devRef .tc main_v47)
      = RefSpec.h1 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) := by
  rw [s2_v47, s1_v36, s1_v24, keep1 (r := main_arg3) _ (by decide), keep1 (r := main_arg4) _ (by decide),
    keep1 (r := main_arg7) _ (by decide)]
  rfl

/-- The second aggregation stands in `main_v61` after the first three stretches. -/
theorem read_agg2 :
    after (ops3 (F := F)) (after ops2 (after ops1 V)) (Proc.devRef .tc main_v61)
      = RefSpec.aggregate (F := F) (RefSpec.h1 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)))
          (RefSpec.normOf (F := F) (V (Proc.devRef .tc main_arg1))) (V (Proc.devRef .tc main_arg1)) (V (Proc.devRef .tc main_arg2)) := by
  rw [s3_v61, read_h1, keep2 (r := main_v20) _ (by decide), s1_v20, keep2 (r := main_arg1) _ (by decide),
    keep1 (r := main_arg1) _ (by decide), keep2 (r := main_arg2) _ (by decide), keep1 (r := main_arg2) _ (by decide)]

/-- The destinations' degree column still stands in `main_v24` after the first three stretches. -/
theorem read_nd :
    after (ops3 (F := F)) (after ops2 (after ops1 V)) (Proc.devRef .tc main_v24) = RefSpec.normOf (F := F) (V (Proc.devRef .tc main_arg2)) := by
  rw [keep3 (r := main_v24) _ (by decide), keep2 (r := main_v24) _ (by decide), s1_v24]

/-- An argument after the first three stretches. -/
theorem read_arg3 {r : Ref sig .tc} (h1 : r ∉ ops1_W) (h2 : r ∉ ops2_W) (h3 : r ∉ ops3_W) :
    after (ops3 (F := F)) (after ops2 (after ops1 V)) (Proc.devRef .tc r) = V (Proc.devRef .tc r) := by
  rw [keep3 _ h3, keep2 _ h2, keep1 _ h1]

/-- The first result. -/
theorem read_v72 :
    after (ops1 (F := F) ++ ops2 ++ ops3 ++ ops4) V (Proc.devRef .tc main_v72) = RefSpec.out0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_concat, after_concat, after_concat, s4_v72, read_agg2, read_nd,
    read_arg3 (r := main_arg5) _ (by decide) (by decide) (by decide), read_arg3 (r := main_arg6) _ (by decide) (by decide) (by decide),
    read_arg3 (r := main_arg7) _ (by decide) (by decide) (by decide)]
  rfl

/-- The second result. -/
theorem read_v75 :
    after (ops1 (F := F) ++ ops2 ++ ops3 ++ ops4) V (Proc.devRef .tc main_v75) = RefSpec.out1 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_concat, after_concat, after_concat, s4_v75, s3_v49, read_h1, read_agg2, read_nd,
    read_arg3 (r := main_arg5) _ (by decide) (by decide) (by decide), read_arg3 (r := main_arg6) _ (by decide) (by decide) (by decide),
    read_arg3 (r := main_arg7) _ (by decide) (by decide) (by decide)]
  rfl

end Whole

/-! ## The run -/

set_option maxRecDepth 8192 in
set_option maxHeartbeats 4000000 in
/-- @main is its operations in a line. -/
theorem main_eq (c : Dev nD) : main (F := F) c = seq (ops1 ++ ops2 ++ ops3 ++ ops4) := rfl
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops1 ++ ops2 ++ ops3 ++ ops4 : List (HloOp τ sig (Elt F))).Forall fun op => op.bufs ⊆ tcRefs τ sig :=
  List.forall_append.2 ⟨List.forall_append.2 ⟨List.forall_append.2 ⟨ops1_sub, ops2_sub⟩, ops3_sub⟩, ops4_sub⟩

set_option maxRecDepth 8192 in
/-- On every device, for any float values, from any memory with zero counters: every weakly fair execution of @main
    terminates with the two results at the reference's named functions of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = RefSpec.out0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v75) = RefSpec.out1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v72).trans (read_v72 _), (h c main_v75).trans (read_v75 _),
      (h c main_arg0).trans (keep_all (r := main_arg0) _ (by decide) (by decide) (by decide) (by decide)),
      (h c main_arg1).trans (keep_all (r := main_arg1) _ (by decide) (by decide) (by decide) (by decide)),
      (h c main_arg2).trans (keep_all (r := main_arg2) _ (by decide) (by decide) (by decide) (by decide)),
      (h c main_arg3).trans (keep_all (r := main_arg3) _ (by decide) (by decide) (by decide) (by decide)),
      (h c main_arg4).trans (keep_all (r := main_arg4) _ (by decide) (by decide) (by decide) (by decide)),
      (h c main_arg5).trans (keep_all (r := main_arg5) _ (by decide) (by decide) (by decide) (by decide)),
      (h c main_arg6).trans (keep_all (r := main_arg6) _ (by decide) (by decide) (by decide) (by decide)),
      (h c main_arg7).trans (keep_all (r := main_arg7) _ (by decide) (by decide) (by decide) (by decide))⟩)
    (run_seq scopedRefs_eq scopedSems_eq defs main (fun _ => ops1 ++ ops2 ++ ops3 ++ ops4) main_eq (fun _ => ops_sub) m ρ)

end Cert.ReferenceIdeal.RefRun

end
-- ==== Proof.Bridge.Algebraic.lean ====
/- The two programs compute the same two arrays. The kernel program's run is followed boundary by boundary: each
   pallas_call is entered with the reference's own aggregation of the layer before it and leaves the reference's layer of
   it (tile by tile against all at once) and its pooled row; the reference's run is the same composition by definition. -/
import proofs.«120135_j66941360276307_1_alg».proof.Defs
import proofs.«120135_j66941360276307_1_alg».proof.Proof.KI.Run
import proofs.«120135_j66941360276307_1_alg».proof.Proof.KB.Run
import proofs.«120135_j66941360276307_1_alg».proof.Proof.KI.Value0
import proofs.«120135_j66941360276307_1_alg».proof.Proof.KI.Value1
import proofs.«120135_j66941360276307_1_alg».proof.Proof.Bridge.Math
import proofs.«120135_j66941360276307_1_alg».proof.Proof.Bridge.HostRead
import proofs.«120135_j66941360276307_1_alg».proof.Proof.Ref.RefRun
import proofs.«120135_j66941360276307_1_alg».proof.Proof.Gen.KernelIdeal.Regions
import proofs.«120135_j66941360276307_1_alg».proof.Proof.Gen.Pre_finite_inputs

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Run
open Cert.ReferenceIdeal (RefSpec.normOf RefSpec.aggregate RefSpec.layer RefSpec.pool RefSpec.h1 RefSpec.out0 RefSpec.out1)

-- the launch memory of the idealized kernel program: floats are extended reals
variable (m : (ℓ : Loc nD τ sig) → Buf (Elt Ideal) ℓ)

/-! ## The first pallas_call's region: what it is entered with -/

/-- No host operation before the first call writes an argument. -/
theorem W1_keep (c : Dev nD) (r : Ref sig .tc) (h : r ∉ hostOps0_W) : W1 m c (Proc.devRef .tc r) = m ((c.tc : Thread nD τ).loc r) :=
  StableHlo.after_of_writes_sub hostOps0 _ hostOps0_writes h

theorem W2_at (c : Dev nD) (w : Fin cfg0.W) :
    W2 m c (Proc.devRef .tc (Pipeline.arrRef spec0 w)) = (Reg0.dat (Run.V1 m) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_at (c : Dev nD) (w : Fin cfg1.W) :
    W4 m c (Proc.devRef .tc (Pipeline.arrRef spec1 w)) = (Reg1.dat (Run.V3 m) c).arrAt w cfg1.N := by
  unfold W4; exact Pipeline.withArrays_arr spec1 launch1.win.arr_inj c _ _ w

/-- The first layer's output, as the first call leaves it: the reference's first layer of the launch arguments. -/
theorem first_layer (c : Dev nD) :
    (Reg0.dat (Run.V1 m) c).arrAt 5 cfg0.N
      = (RefSpec.h1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) : Vec Ideal S50000x256 .f32) := by
  rw [Reg0.arr5_eq (Run.V1 m) c]
  rw [show Run.V1 m c main_v36 = _ from host0_v36 (W0 m c), show Run.V1 m c main_v24 = _ from host0_v24 (W0 m c),
    show Run.V1 m c main_arg3 = _ from W1_keep m c main_arg3 (by decide),
    show Run.V1 m c main_v37 = _ from host0_v37 (W0 m c), show Run.V1 m c main_v38 = _ from host0_v38 (W0 m c)]
  exact layerArr_eq_layer _ _ _ _ _

/-- The first pooled row. -/
theorem first_pool (c : Dev nD) :
    (Reg0.dat (Run.V1 m) c).arrAt 6 cfg0.N
      = (RefSpec.pool (F := Ideal) (RefSpec.h1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))) : Vec Ideal S1x256 .f32) := by
  rw [Reg0.arr6_eq (Run.V1 m) c]
  rw [show Run.V1 m c main_v36 = _ from host0_v36 (W0 m c), show Run.V1 m c main_v24 = _ from host0_v24 (W0 m c),
    show Run.V1 m c main_arg3 = _ from W1_keep m c main_arg3 (by decide),
    show Run.V1 m c main_v37 = _ from host0_v37 (W0 m c), show Run.V1 m c main_v38 = _ from host0_v38 (W0 m c)]
  exact sumRow_eq_pool _ _ _ _ _

/-! ## The second pallas_call's region -/

/-- What the first call did not write is as before it. -/
theorem W2_keep (c : Dev nD) (r : Ref sig .tc) (hb : ∀ w, Pipeline.arrRef spec0 w ≠ r) (h : r ∉ hostOps0_W) :
    W2 m c (Proc.devRef .tc r) = m ((c.tc : Thread nD τ).loc r) :=
  (W2_off m c r hb).trans (W1_keep m c r h)

/-- The in-degree column is an input of the first call: it leaves it as it found it. -/
theorem W2_v24 (c : Dev nD) : W2 m c (Proc.devRef .tc main_v24) = RefSpec.normOf (F := Ideal) (m ((c.tc : Thread nD τ).loc main_arg2)) :=
  (W2_at m c 1).trans (((Reg0.dat (Run.V1 m) c).arrAt_in 1 rfl _).trans ((Reg0.A_eq (Run.V1 m) c 1).trans (host0_v24 (W0 m c))))

theorem V3_v51 (c : Dev nD) :
    Run.V3 m c main_v51 = RefSpec.aggregate (F := Ideal)
      (RefSpec.h1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)))
      (RefSpec.normOf (F := Ideal) (m ((c.tc : Thread nD τ).loc main_arg1))) (m ((c.tc : Thread nD τ).loc main_arg1)) (m ((c.tc : Thread nD τ).loc main_arg2)) := by
  refine (host1_v51 (W2 m c)).trans ?_
  rw [show W2 m c (Proc.devRef .tc main_v39_0) = _ from (W2_at m c 5).trans (first_layer m c),
    show W2 m c (Proc.devRef .tc main_v20) = _ from (W2_off m c main_v20 (by decide)).trans (host0_v20 (W0 m c)),
    W2_keep m c main_arg1 (by decide) (by decide), W2_keep m c main_arg2 (by decide) (by decide)]

theorem V3_v24 (c : Dev nD) : Run.V3 m c main_v24 = RefSpec.normOf (F := Ideal) (m ((c.tc : Thread nD τ).loc main_arg2)) :=
  (StableHlo.after_of_writes_sub hostOps1 _ hostOps1_writes (by decide : main_v24 ∉ hostOps1_W)).trans (W2_v24 m c)
theorem V3_arg5 (c : Dev nD) : Run.V3 m c main_arg5 = m ((c.tc : Thread nD τ).loc main_arg5) :=
  (StableHlo.after_of_writes_sub hostOps1 _ hostOps1_writes (by decide : main_arg5 ∉ hostOps1_W)).trans (W2_keep m c main_arg5 (by decide) (by decide))
theorem V3_v52 (c : Dev nD) : Run.V3 m c main_v52 = shapeCast S1x256 (m ((c.tc : Thread nD τ).loc main_arg6)) shapeCasts_S256_S1x256 := by
  refine (host1_v52 (W2 m c)).trans ?_
  rw [W2_keep m c main_arg6 (by decide) (by decide)]
theorem V3_v53 (c : Dev nD) : Run.V3 m c main_v53 = shapeCast S1x1 (m ((c.tc : Thread nD τ).loc main_arg7)) shapeCasts_S_S1x1 := by
  refine (host1_v53 (W2 m c)).trans ?_
  rw [W2_keep m c main_arg7 (by decide) (by decide)]

/-- The second layer's output, as the second call leaves it: the reference's first result. -/
theorem second_layer (c : Dev nD) :
    (Reg1.dat (Run.V3 m) c).arrAt 5 cfg1.N
      = (RefSpec.out0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S50000x256 .f32) := by
  rw [Reg1.arr5_eq (Run.V3 m) c, V3_v51 m c, V3_v24 m c, V3_arg5 m c, V3_v52 m c, V3_v53 m c]
  exact layerArr_eq_layer _ _ _ _ _

/-- The second pooled row. -/
theorem second_pool (c : Dev nD) :
    (Reg1.dat (Run.V3 m) c).arrAt 6 cfg1.N
      = (RefSpec.pool (F := Ideal) (RefSpec.out0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) : Vec Ideal S1x256 .f32) := by
  rw [Reg1.arr6_eq (Run.V3 m) c, V3_v51 m c, V3_v24 m c, V3_arg5 m c, V3_v52 m c, V3_v53 m c]
  exact sumRow_eq_pool _ _ _ _ _

/-! ## The two results -/

theorem result0 (c : Dev nD) :
    W5 m c (Proc.devRef .tc main_v54_0)
      = (RefSpec.out0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S50000x256 .f32) :=
  (W5_res0 m c).trans (second_layer m c)

theorem result1 (c : Dev nD) :
    W5 m c (Proc.devRef .tc main_v55)
      = (RefSpec.out1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S1x512 .f32) := by
  rw [W5_res1 m c, first_pool m c, second_pool m c]
  rfl

end Cert.Bridge

/-! ## The claims -/

namespace Cert.Proof.Claims

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- At the extended reals both programs end with the reference's two named results of the launch arguments, which agree. -/
theorem algebraic : Cert.algebraic_KernelIdeal_ReferenceIdeal := by
  intro m ρ m' ρ' _ hagree
  refine ⟨fun c => Cert.KernelIdeal.Run.W5 m c (Proc.devRef .tc Cert.KernelIdeal.main_v54_0),
    fun c => Cert.KernelIdeal.Run.W5 m c (Proc.devRef .tc Cert.KernelIdeal.main_v55), ?_, ?_⟩
  · exact (θ_run Cert.KernelIdeal.defs _ _).mono (fun r h c =>
      ⟨h c _ (Cert.KernelIdeal.Run.mem_uc Cert.KernelIdeal.main_v54_0 (by decide)), h c _ (Cert.KernelIdeal.Run.mem_uc Cert.KernelIdeal.main_v55 (by decide)),
       (h c _ (Cert.KernelIdeal.Run.mem_uc Cert.KernelIdeal.main_arg0 (by decide))).trans (Cert.KernelIdeal.Run.W5_arg0 m c),
       (h c _ (Cert.KernelIdeal.Run.mem_uc Cert.KernelIdeal.main_arg1 (by decide))).trans (Cert.KernelIdeal.Run.W5_arg1 m c),
       (h c _ (Cert.KernelIdeal.Run.mem_uc Cert.KernelIdeal.main_arg2 (by decide))).trans (Cert.KernelIdeal.Run.W5_arg2 m c),
       (h c _ (Cert.KernelIdeal.Run.mem_uc Cert.KernelIdeal.main_arg3 (by decide))).trans (Cert.KernelIdeal.Run.W5_arg3 m c),
       (h c _ (Cert.KernelIdeal.Run.mem_uc Cert.KernelIdeal.main_arg4 (by decide))).trans (Cert.KernelIdeal.Run.W5_arg4 m c),
       (h c _ (Cert.KernelIdeal.Run.mem_uc Cert.KernelIdeal.main_arg5 (by decide))).trans (Cert.KernelIdeal.Run.W5_arg5 m c),
       (h c _ (Cert.KernelIdeal.Run.mem_uc Cert.KernelIdeal.main_arg6 (by decide))).trans (Cert.KernelIdeal.Run.W5_arg6 m c),
       (h c _ (Cert.KernelIdeal.Run.mem_uc Cert.KernelIdeal.main_arg7 (by decide))).trans (Cert.KernelIdeal.Run.W5_arg7 m c)⟩)
      (Cert.KernelIdeal.Run.run_main m ρ)
  · refine (θ_run Cert.ReferenceIdeal.defs _ _).mono (fun r h c => ⟨(h c).1.trans ?_, (h c).2.1.trans ?_, (h c).2.2⟩)
      (Cert.ReferenceIdeal.RefRun.run (F := Ideal) m' ρ')
    · show _ = Cert.KernelIdeal.Run.W5 m c (Proc.devRef .tc Cert.KernelIdeal.main_v54_0)
      rw [Cert.Bridge.result0 m c, (hagree c).1, (hagree c).2.1, (hagree c).2.2.1, (hagree c).2.2.2.1,
        (hagree c).2.2.2.2.1, (hagree c).2.2.2.2.2.1, (hagree c).2.2.2.2.2.2.1, (hagree c).2.2.2.2.2.2.2]
    · show _ = Cert.KernelIdeal.Run.W5 m c (Proc.devRef .tc Cert.KernelIdeal.main_v55)
      rw [Cert.Bridge.result1 m c, (hagree c).1, (hagree c).2.1, (hagree c).2.2.1, (hagree c).2.2.2.1,
        (hagree c).2.2.2.2.1, (hagree c).2.2.2.2.2.1, (hagree c).2.2.2.2.2.2.1, (hagree c).2.2.2.2.2.2.2]

end Cert.Proof.Claims

end
-- ==== Proof.lean ====
/- Two programs — a Pallas kernel for the dense half of a two-layer graph convolution and its plain reference — compute
   the same two arrays over the extended reals, and each runs to the end leaving its arguments unchanged.

   Both programs form, from the edge lists, the out- and in-degree factors 1/sqrt(max(deg, 1)); aggregate the source rows of
   `h · norm_src` at the edges' destinations; and apply `prelu_a((agg · norm_dst) W + b)` twice, pooling each layer's
   output by column sums. The kernel program does the aggregation with the same host operations as the reference and the
   dense half tile by tile (2000 rows at a time) in a pallas_call, keeping a running row of column sums in a scratch buffer
   that is reset at the first tile and copied out at the last.

   The proof follows the kernel program's buffers boundary by boundary (proof/Proof/KI/Run.lean; the word-level program's
   frame is the same text, proof/Proof/KB/Run.lean): each pallas_call's pipeline is certified from the body's three cases
   (first tile, middle tiles, last tile: Cases0/Data0 and their siblings), its two output arrays are read as functions of
   what it was entered with (Value0/Value1 over Spec.lean), and those functions are the reference's layer and pooled row
   (Bridge/Math.lean: a matrix product accumulated from zero is the contraction's sum; 25 tile sums regroup into one sum,
   addition of extended reals being commutative and associative). The host operations around the calls are the reference's
   own (Bridge/HostRead.lean), and the reference's run is read in the same named pieces (Ref/RefRun.lean). -/
import proofs.«120135_j66941360276307_1_alg».proof.Defs
import proofs.«120135_j66941360276307_1_alg».proof.Proof.Gen.Kernel
import proofs.«120135_j66941360276307_1_alg».proof.Proof.Gen.KernelIdeal
import proofs.«120135_j66941360276307_1_alg».proof.Proof.Gen.ReferenceIdeal
import proofs.«120135_j66941360276307_1_alg».proof.Proof.Gen.Pre_finite_inputs
import proofs.«120135_j66941360276307_1_alg».proof.Proof.Bridge.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
